-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v157)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v157) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128 .f32) (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg17
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S256 .f32) (main_arg14 : FVec F S256 .f32) (main_arg15 : FVec F S256x128 .f32) (main_arg16 : FVec F S128 .f32) (main_arg17 : FVec F S128x1 .f32) (main_arg18 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg15
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg16 main_arg17 main_arg18 main_v63 main_v67

def fn_part2 {F : FTy → Type} [FloatOps F] (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x128 .f32) (main_arg16 : FVec F S128 .f32) (main_arg17 : FVec F S128x1 .f32) (main_arg18 : FVec F S1 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_v48 main_v49 main_v50

def fn_part1 {F : FTy → Type} [FloatOps F] (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x128 .f32) (main_arg16 : FVec F S128 .f32) (main_arg17 : FVec F S128x1 .f32) (main_arg18 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x128 .f32) (main_arg16 : FVec F S128 .f32) (main_arg17 : FVec F S128x1 .f32) (main_arg18 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S50000x1 : Shape := ⟨2, ![50000, 1]⟩
abbrev S1x256 : Shape := ⟨2, ![1, 256]⟩
abbrev S256x1 : Shape := ⟨2, ![256, 1]⟩
abbrev S1x128 : Shape := ⟨2, ![1, 128]⟩
abbrev S1x1 : Shape := ⟨2, ![1, 1]⟩

abbrev nBuf : Space → Nat
  | .hbm => 212
  | .vmem => 45
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S256x128, .f32⟩
  | 16 => ⟨S128, .f32⟩
  | 17 => ⟨S128x1, .f32⟩
  | 18 => ⟨S1, .f32⟩
  | 19 => ⟨S1x800000, .i32⟩
  | 20 => ⟨S800000, .i32⟩
  | 21 => ⟨S1x800000, .i32⟩
  | 22 => ⟨S800000, .i32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S50000x256, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x256, .f32⟩
  | 63 => ⟨S800000x1, .f32⟩
  | 64 => ⟨S800000x256, .f32⟩
  | 65 => ⟨S800000x256, .f32⟩
  | 66 => ⟨S_, .f32⟩
  | 67 => ⟨S50000x256, .f32⟩
  | 68 => ⟨S800000x1, .i32⟩
  | 69 => ⟨S50000x256, .f32⟩
  | 70 => ⟨S50000x1, .f32⟩
  | 71 => ⟨S50000x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S256, .f32⟩
  | 79 => ⟨S_, .f32⟩
  | 80 => ⟨S256, .f32⟩
  | 81 => ⟨S256, .f32⟩
  | 82 => ⟨S1x256, .f32⟩
  | 83 => ⟨S50000x256, .f32⟩
  | 84 => ⟨S50000x256, .f32⟩
  | 85 => ⟨S50000x256, .f32⟩
  | 86 => ⟨S_, .f32⟩
  | 87 => ⟨S256, .f32⟩
  | 88 => ⟨S_, .f32⟩
  | 89 => ⟨S256, .f32⟩
  | 90 => ⟨S256, .f32⟩
  | 91 => ⟨S_, .f32⟩
  | 92 => ⟨S50000x256, .f32⟩
  | 93 => ⟨S1x256, .f32⟩
  | 94 => ⟨S1x256, .f32⟩
  | 95 => ⟨S1x256, .f32⟩
  | 96 => ⟨S1x256, .f32⟩
  | 97 => ⟨S50000x256, .f32⟩
  | 98 => ⟨S50000x256, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x256, .f32⟩
  | 108 => ⟨S800000x1, .f32⟩
  | 109 => ⟨S800000x256, .f32⟩
  | 110 => ⟨S800000x256, .f32⟩
  | 111 => ⟨S_, .f32⟩
  | 112 => ⟨S50000x256, .f32⟩
  | 113 => ⟨S800000x1, .i32⟩
  | 114 => ⟨S50000x256, .f32⟩
  | 115 => ⟨S50000x1, .f32⟩
  | 116 => ⟨S50000x256, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S_, .f32⟩
  | 123 => ⟨S256, .f32⟩
  | 124 => ⟨S_, .f32⟩
  | 125 => ⟨S256, .f32⟩
  | 126 => ⟨S256, .f32⟩
  | 127 => ⟨S1x256, .f32⟩
  | _ => ⟨S50000x128, .f32⟩

abbrev hbmTy0_1 (i : Nat) : BufTy := match i % 128 with
  | 0 => ⟨S50000x256, .f32⟩
  | 1 => ⟨S50000x256, .f32⟩
  | 2 => ⟨S50000x256, .f32⟩
  | 3 => ⟨S_, .f32⟩
  | 4 => ⟨S256, .f32⟩
  | 5 => ⟨S_, .f32⟩
  | 6 => ⟨S256, .f32⟩
  | 7 => ⟨S256, .f32⟩
  | 8 => ⟨S1x256, .f32⟩
  | 9 => ⟨S1x256, .f32⟩
  | 10 => ⟨S1x256, .f32⟩
  | 11 => ⟨S1x256, .f32⟩
  | 12 => ⟨S50000x256, .f32⟩
  | 13 => ⟨S50000x256, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x256, .f32⟩
  | 23 => ⟨S800000x1, .f32⟩
  | 24 => ⟨S800000x256, .f32⟩
  | 25 => ⟨S800000x256, .f32⟩
  | 26 => ⟨S_, .f32⟩
  | 27 => ⟨S50000x256, .f32⟩
  | 28 => ⟨S800000x1, .i32⟩
  | 29 => ⟨S50000x256, .f32⟩
  | 30 => ⟨S50000x1, .f32⟩
  | 31 => ⟨S50000x256, .f32⟩
  | 32 => ⟨S50000x256, .f32⟩
  | 33 => ⟨S50000x256, .f32⟩
  | 34 => ⟨S1x256, .f32⟩
  | 35 => ⟨S50000x256, .f32⟩
  | 36 => ⟨S50000x256, .f32⟩
  | 37 => ⟨S_, .f32⟩
  | 38 => ⟨S256, .f32⟩
  | 39 => ⟨S_, .f32⟩
  | 40 => ⟨S256, .f32⟩
  | 41 => ⟨S256, .f32⟩
  | 42 => ⟨S1x256, .f32⟩
  | 43 => ⟨S50000x256, .f32⟩
  | 44 => ⟨S50000x256, .f32⟩
  | 45 => ⟨S50000x256, .f32⟩
  | 46 => ⟨S_, .f32⟩
  | 47 => ⟨S256, .f32⟩
  | 48 => ⟨S_, .f32⟩
  | 49 => ⟨S256, .f32⟩
  | 50 => ⟨S256, .f32⟩
  | 51 => ⟨S1x256, .f32⟩
  | 52 => ⟨S1x256, .f32⟩
  | 53 => ⟨S1x256, .f32⟩
  | 54 => ⟨S1x256, .f32⟩
  | 55 => ⟨S50000x256, .f32⟩
  | 56 => ⟨S_, .f32⟩
  | 57 => ⟨S50000, .f32⟩
  | 58 => ⟨S_, .f32⟩
  | 59 => ⟨S256, .f32⟩
  | 60 => ⟨S50000x1, .i32⟩
  | 61 => ⟨S256, .f32⟩
  | 62 => ⟨S_, .f32⟩
  | 63 => ⟨S256x256, .f32⟩
  | 64 => ⟨S50000x1, .i32⟩
  | 65 => ⟨S256x256, .f32⟩
  | 66 => ⟨S_, .f32⟩
  | 67 => ⟨S256, .f32⟩
  | 68 => ⟨S256, .f32⟩
  | 69 => ⟨S256x1, .f32⟩
  | 70 => ⟨S256x256, .f32⟩
  | 71 => ⟨S256x256, .f32⟩
  | 72 => ⟨S256x256, .f32⟩
  | 73 => ⟨S256x128, .f32⟩
  | 74 => ⟨S1x128, .f32⟩
  | 75 => ⟨S256x128, .f32⟩
  | 76 => ⟨S256x128, .f32⟩
  | 77 => ⟨S_, .f32⟩
  | 78 => ⟨S256x128, .f32⟩
  | 79 => ⟨S256x128, .f32⟩
  | 80 => ⟨S256x1, .f32⟩
  | 81 => ⟨S1x1, .f32⟩
  | 82 => ⟨S256x1, .f32⟩
  | 83 => ⟨S256x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S256x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S2000x256, .f32⟩
  | .local _ .vmem, ⟨39, _⟩ => ⟨S1x256, .f32⟩
  | .local _ .vmem, ⟨40, _⟩ => ⟨S1x256, .f32⟩
  | .local _ .vmem, ⟨41, _⟩ => ⟨S1x256, .f32⟩
  | .local _ .vmem, ⟨42, _⟩ => ⟨S1x256, .f32⟩
  | .local _ .vmem, ⟨43, _⟩ => ⟨S2000x256, .f32⟩
  | .local _ .vmem, ⟨44, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_c_5 : Ref sig .tc := ⟨.hbm, 54, rfl⟩
abbrev main_v28 : Ref sig .tc := ⟨.hbm, 55, rfl⟩
abbrev main_v29 : Ref sig .tc := ⟨.hbm, 56, rfl⟩
abbrev main_c_6 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_13 : Ref sig .tc := ⟨.hbm, 99, rfl⟩
abbrev main_v65 : Ref sig .tc := ⟨.hbm, 100, rfl⟩
abbrev main_v66 : Ref sig .tc := ⟨.hbm, 101, rfl⟩
abbrev main_c_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_16 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_18 : Ref sig .tc := ⟨.hbm, 131, rfl⟩
abbrev main_v92 : Ref sig .tc := ⟨.hbm, 132, rfl⟩
abbrev main_cst_19 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_c_20 : Ref sig .tc := ⟨.hbm, 142, rfl⟩
abbrev main_v101 : Ref sig .tc := ⟨.hbm, 143, rfl⟩
abbrev main_v102 : Ref sig .tc := ⟨.hbm, 144, rfl⟩
abbrev main_c_21 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_22 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_23 : Ref sig .tc := ⟨.hbm, 165, rfl⟩
abbrev main_v121 : Ref sig .tc := ⟨.hbm, 166, rfl⟩
abbrev main_cst_24 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_25 : Ref sig .tc := ⟨.hbm, 174, rfl⟩
abbrev main_v128 : Ref sig .tc := ⟨.hbm, 175, rfl⟩
abbrev main_cst_26 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_27 : Ref sig .tc := ⟨.hbm, 184, rfl⟩
abbrev main_v136 : Ref sig .tc := ⟨.hbm, 185, rfl⟩
abbrev main_cst_28 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_29 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_30 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_call0_cst : Ref sig .tc := ⟨.hbm, 205, rfl⟩
abbrev main_call0_v0 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg5_0 : Ref sig .tc := ⟨.vmem, 42, rfl⟩
abbrev cc5_stg6_0 : Ref sig .tc := ⟨.vmem, 43, rfl⟩
abbrev cc5_stg6_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem6_0 : DmaSem sig := 43
abbrev cc5_sem6_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  bcast_S_S256x256 : S_.BroadcastsInDim S256x256 (![] : Fin 0 → Fin S256x256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  scatter_S256_S50000x1_S50000_n_0_0_1_wf : ScatterDims.WF S256 S50000x1 S50000 [] [0] [0] 1
  scatter_S256x256_S50000x1_S50000x256_1_0_0_1_wf : ScatterDims.WF S256x256 S50000x1 S50000x256 [1] [0] [0] 1
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S50000x256.size a
  hwx3_6 : ∀ i : grid3.Coords, EltTy.bits .f32 = 32 ∨ (Rect.block (s := S50000x256) S2000x256.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S50000x256.size a
  hwx4_2 : ∀ i : grid4.Coords, EltTy.bits .f32 = 32 ∨ (Rect.block (s := S50000x256) S2000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S50000x256.size a
  hwx5_1 : ∀ i : grid5.Coords, EltTy.bits .f32 = 32 ∨ (Rect.block (s := S50000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x256.size a ≤ S50000x256.size a
  hwx5_6 : ∀ i : grid5.Coords, EltTy.bits .f32 = 32 ∨ (Rect.block (s := S50000x256) S2000x256.size (cc5_transform_6 i) (hinb5_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v63) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v84) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v95) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v96) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v97) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v98) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v99) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v99) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v100) S2000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v120) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v99) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v131) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v132) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v133) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v134) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v135) S2000x256.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x256 : Shape := ⟨2, ![50000, 256]⟩
abbrev S800000x256 : Shape := ⟨2, ![800000, 256]⟩
abbrev S50000x1 : Shape := ⟨2, ![50000, 1]⟩
abbrev S1x256 : Shape := ⟨2, ![1, 256]⟩
abbrev S256x1 : Shape := ⟨2, ![256, 1]⟩
abbrev S1x128 : Shape := ⟨2, ![1, 128]⟩
abbrev S1x1 : Shape := ⟨2, ![1, 1]⟩

abbrev nBuf : Space → Nat
  | .hbm => 294
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S256x128, .f32⟩
  | 16 => ⟨S128, .f32⟩
  | 17 => ⟨S128x1, .f32⟩
  | 18 => ⟨S1, .f32⟩
  | 19 => ⟨S1x800000, .i32⟩
  | 20 => ⟨S800000, .i32⟩
  | 21 => ⟨S1x800000, .i32⟩
  | 22 => ⟨S800000, .i32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000, .f32⟩
  | 33 => ⟨S50000x256, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x256, .f32⟩
  | 62 => ⟨S800000x1, .f32⟩
  | 63 => ⟨S800000x256, .f32⟩
  | 64 => ⟨S800000x256, .f32⟩
  | 65 => ⟨S_, .f32⟩
  | 66 => ⟨S50000x256, .f32⟩
  | 67 => ⟨S800000x1, .i32⟩
  | 68 => ⟨S50000x256, .f32⟩
  | 69 => ⟨S50000, .f32⟩
  | 70 => ⟨S50000x1, .f32⟩
  | 71 => ⟨S50000x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S256, .f32⟩
  | 79 => ⟨S_, .f32⟩
  | 80 => ⟨S256, .f32⟩
  | 81 => ⟨S256, .f32⟩
  | 82 => ⟨S1x256, .f32⟩
  | 83 => ⟨S50000x256, .f32⟩
  | 84 => ⟨S50000x256, .f32⟩
  | 85 => ⟨S50000x256, .f32⟩
  | 86 => ⟨S_, .f32⟩
  | 87 => ⟨S256, .f32⟩
  | 88 => ⟨S_, .f32⟩
  | 89 => ⟨S256, .f32⟩
  | 90 => ⟨S256, .f32⟩
  | 91 => ⟨S1x256, .f32⟩
  | 92 => ⟨S50000x256, .f32⟩
  | 93 => ⟨S50000x256, .f32⟩
  | 94 => ⟨S1x256, .f32⟩
  | 95 => ⟨S50000x256, .f32⟩
  | 96 => ⟨S50000x256, .f32⟩
  | 97 => ⟨S_, .f32⟩
  | 98 => ⟨S256, .f32⟩
  | 99 => ⟨S256, .f32⟩
  | 100 => ⟨S256, .f32⟩
  | 101 => ⟨S1x256, .f32⟩
  | 102 => ⟨S50000x256, .f32⟩
  | 103 => ⟨S50000x256, .f32⟩
  | 104 => ⟨S1x256, .f32⟩
  | 105 => ⟨S50000x256, .f32⟩
  | 106 => ⟨S50000x256, .f32⟩
  | 107 => ⟨S_, .f32⟩
  | 108 => ⟨S50000x256, .f32⟩
  | 109 => ⟨S50000x256, .f32⟩
  | 110 => ⟨S50000x256, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S800000, .f32⟩
  | 1 => ⟨S800000, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x256, .f32⟩
  | 11 => ⟨S800000x1, .f32⟩
  | 12 => ⟨S800000x256, .f32⟩
  | 13 => ⟨S800000x256, .f32⟩
  | 14 => ⟨S_, .f32⟩
  | 15 => ⟨S50000x256, .f32⟩
  | 16 => ⟨S800000x1, .i32⟩
  | 17 => ⟨S50000x256, .f32⟩
  | 18 => ⟨S50000, .f32⟩
  | 19 => ⟨S50000x1, .f32⟩
  | 20 => ⟨S50000x256, .f32⟩
  | 21 => ⟨S50000x256, .f32⟩
  | 22 => ⟨S50000x256, .f32⟩
  | 23 => ⟨S1x256, .f32⟩
  | 24 => ⟨S50000x256, .f32⟩
  | 25 => ⟨S50000x256, .f32⟩
  | 26 => ⟨S_, .f32⟩
  | 27 => ⟨S256, .f32⟩
  | 28 => ⟨S_, .f32⟩
  | 29 => ⟨S256, .f32⟩
  | 30 => ⟨S256, .f32⟩
  | 31 => ⟨S1x256, .f32⟩
  | 32 => ⟨S50000x256, .f32⟩
  | 33 => ⟨S50000x256, .f32⟩
  | 34 => ⟨S50000x256, .f32⟩
  | 35 => ⟨S_, .f32⟩
  | 36 => ⟨S256, .f32⟩
  | 37 => ⟨S_, .f32⟩
  | 38 => ⟨S256, .f32⟩
  | 39 => ⟨S256, .f32⟩
  | 40 => ⟨S1x256, .f32⟩
  | 41 => ⟨S50000x256, .f32⟩
  | 42 => ⟨S50000x256, .f32⟩
  | 43 => ⟨S1x256, .f32⟩
  | 44 => ⟨S50000x256, .f32⟩
  | 45 => ⟨S50000x256, .f32⟩
  | 46 => ⟨S_, .f32⟩
  | 47 => ⟨S256, .f32⟩
  | 48 => ⟨S256, .f32⟩
  | 49 => ⟨S256, .f32⟩
  | 50 => ⟨S1x256, .f32⟩
  | 51 => ⟨S50000x256, .f32⟩
  | 52 => ⟨S50000x256, .f32⟩
  | 53 => ⟨S1x256, .f32⟩
  | 54 => ⟨S50000x256, .f32⟩
  | 55 => ⟨S50000x256, .f32⟩
  | 56 => ⟨S_, .f32⟩
  | 57 => ⟨S50000x256, .f32⟩
  | 58 => ⟨S50000x256, .f32⟩
  | 59 => ⟨S50000x256, .f32⟩
  | 60 => ⟨S50000x256, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000, .f32⟩
  | 79 => ⟨S800000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x256, .f32⟩
  | 89 => ⟨S800000x1, .f32⟩
  | 90 => ⟨S800000x256, .f32⟩
  | 91 => ⟨S800000x256, .f32⟩
  | 92 => ⟨S_, .f32⟩
  | 93 => ⟨S50000x256, .f32⟩
  | 94 => ⟨S800000x1, .i32⟩
  | 95 => ⟨S50000x256, .f32⟩
  | 96 => ⟨S50000, .f32⟩
  | 97 => ⟨S50000x1, .f32⟩
  | 98 => ⟨S50000x256, .f32⟩
  | 99 => ⟨S50000x256, .f32⟩
  | 100 => ⟨S50000x256, .f32⟩
  | 101 => ⟨S1x256, .f32⟩
  | 102 => ⟨S50000x256, .f32⟩
  | 103 => ⟨S50000x256, .f32⟩
  | 104 => ⟨S_, .f32⟩
  | 105 => ⟨S256, .f32⟩
  | 106 => ⟨S_, .f32⟩
  | 107 => ⟨S256, .f32⟩
  | 108 => ⟨S256, .f32⟩
  | 109 => ⟨S1x256, .f32⟩
  | 110 => ⟨S50000x256, .f32⟩
  | 111 => ⟨S50000x256, .f32⟩
  | 112 => ⟨S50000x256, .f32⟩
  | 113 => ⟨S_, .f32⟩
  | 114 => ⟨S256, .f32⟩
  | 115 => ⟨S_, .f32⟩
  | 116 => ⟨S256, .f32⟩
  | 117 => ⟨S256, .f32⟩
  | 118 => ⟨S1x256, .f32⟩
  | 119 => ⟨S50000x256, .f32⟩
  | 120 => ⟨S50000x256, .f32⟩
  | 121 => ⟨S1x256, .f32⟩
  | 122 => ⟨S50000x256, .f32⟩
  | 123 => ⟨S50000x256, .f32⟩
  | 124 => ⟨S_, .f32⟩
  | 125 => ⟨S256, .f32⟩
  | 126 => ⟨S256, .f32⟩
  | 127 => ⟨S256, .f32⟩
  | _ => ⟨S50000x128, .f32⟩

abbrev hbmTy0_2 (i : Nat) : BufTy := match i % 128 with
  | 0 => ⟨S1x256, .f32⟩
  | 1 => ⟨S50000x256, .f32⟩
  | 2 => ⟨S50000x256, .f32⟩
  | 3 => ⟨S1x256, .f32⟩
  | 4 => ⟨S50000x256, .f32⟩
  | 5 => ⟨S50000x256, .f32⟩
  | 6 => ⟨S_, .f32⟩
  | 7 => ⟨S50000x256, .f32⟩
  | 8 => ⟨S50000x256, .f32⟩
  | 9 => ⟨S50000x256, .f32⟩
  | 10 => ⟨S_, .f32⟩
  | 11 => ⟨S50000, .f32⟩
  | 12 => ⟨S_, .f32⟩
  | 13 => ⟨S256, .f32⟩
  | 14 => ⟨S50000x1, .i32⟩
  | 15 => ⟨S256, .f32⟩
  | 16 => ⟨S_, .f32⟩
  | 17 => ⟨S256x256, .f32⟩
  | 18 => ⟨S50000x1, .i32⟩
  | 19 => ⟨S256x256, .f32⟩
  | 20 => ⟨S_, .f32⟩
  | 21 => ⟨S256, .f32⟩
  | 22 => ⟨S256, .f32⟩
  | 23 => ⟨S256x1, .f32⟩
  | 24 => ⟨S256x256, .f32⟩
  | 25 => ⟨S256x256, .f32⟩
  | 26 => ⟨S256x256, .f32⟩
  | 27 => ⟨S256x128, .f32⟩
  | 28 => ⟨S1x128, .f32⟩
  | 29 => ⟨S256x128, .f32⟩
  | 30 => ⟨S256x128, .f32⟩
  | 31 => ⟨S_, .f32⟩
  | 32 => ⟨S256x128, .f32⟩
  | 33 => ⟨S256x128, .f32⟩
  | 34 => ⟨S256x1, .f32⟩
  | 35 => ⟨S1x1, .f32⟩
  | 36 => ⟨S256x1, .f32⟩
  | 37 => ⟨S256x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_2 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_3 : Ref sig .tc := ⟨.hbm, 43, rfl⟩
abbrev main_v19 : Ref sig .tc := ⟨.hbm, 44, rfl⟩
abbrev main_v20 : Ref sig .tc := ⟨.hbm, 45, rfl⟩
abbrev main_c_4 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_c_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_8 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call0_cst : Ref sig .tc := ⟨.hbm, 107, rfl⟩
abbrev main_call0_v0 : Ref sig .tc := ⟨.hbm, 108, rfl⟩
abbrev main_v73 : Ref sig .tc := ⟨.hbm, 109, rfl⟩
abbrev main_v74 : Ref sig .tc := ⟨.hbm, 110, rfl⟩
abbrev main_c_13 : Ref sig .tc := ⟨.hbm, 111, rfl⟩
abbrev main_v75 : Ref sig .tc := ⟨.hbm, 112, rfl⟩
abbrev main_v76 : Ref sig .tc := ⟨.hbm, 113, rfl⟩
abbrev main_c_14 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_15 : Ref sig .tc := ⟨.hbm, 120, rfl⟩
abbrev main_v82 : Ref sig .tc := ⟨.hbm, 121, rfl⟩
abbrev main_v83 : Ref sig .tc := ⟨.hbm, 122, rfl⟩
abbrev main_c_16 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_17 : Ref sig .tc := ⟨.hbm, 130, rfl⟩
abbrev main_v90 : Ref sig .tc := ⟨.hbm, 131, rfl⟩
abbrev main_v91 : Ref sig .tc := ⟨.hbm, 132, rfl⟩
abbrev main_c_18 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_19 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_20 : Ref sig .tc := ⟨.hbm, 154, rfl⟩
abbrev main_v111 : Ref sig .tc := ⟨.hbm, 155, rfl⟩
abbrev main_cst_21 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_22 : Ref sig .tc := ⟨.hbm, 163, rfl⟩
abbrev main_v118 : Ref sig .tc := ⟨.hbm, 164, rfl⟩
abbrev main_cst_23 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_24 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_call1_cst : Ref sig .tc := ⟨.hbm, 184, rfl⟩
abbrev main_call1_v0 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_c_25 : Ref sig .tc := ⟨.hbm, 189, rfl⟩
abbrev main_v139 : Ref sig .tc := ⟨.hbm, 190, rfl⟩
abbrev main_v140 : Ref sig .tc := ⟨.hbm, 191, rfl⟩
abbrev main_c_26 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_c_27 : Ref sig .tc := ⟨.hbm, 198, rfl⟩
abbrev main_v146 : Ref sig .tc := ⟨.hbm, 199, rfl⟩
abbrev main_v147 : Ref sig .tc := ⟨.hbm, 200, rfl⟩
abbrev main_c_28 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_c_29 : Ref sig .tc := ⟨.hbm, 208, rfl⟩
abbrev main_v154 : Ref sig .tc := ⟨.hbm, 209, rfl⟩
abbrev main_v155 : Ref sig .tc := ⟨.hbm, 210, rfl⟩
abbrev main_c_30 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_31 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_cst_32 : Ref sig .tc := ⟨.hbm, 232, rfl⟩
abbrev main_v175 : Ref sig .tc := ⟨.hbm, 233, rfl⟩
abbrev main_cst_33 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_cst_34 : Ref sig .tc := ⟨.hbm, 241, rfl⟩
abbrev main_v182 : Ref sig .tc := ⟨.hbm, 242, rfl⟩
abbrev main_cst_35 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_cst_36 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_call2_cst : Ref sig .tc := ⟨.hbm, 262, rfl⟩
abbrev main_call2_v0 : Ref sig .tc := ⟨.hbm, 263, rfl⟩
abbrev main_v200 : Ref sig .tc := ⟨.hbm, 264, rfl⟩
abbrev main_v201 : Ref sig .tc := ⟨.hbm, 265, rfl⟩
abbrev main_cst_37 : Ref sig .tc := ⟨.hbm, 266, rfl⟩
abbrev main_v202 : Ref sig .tc := ⟨.hbm, 267, rfl⟩
abbrev main_cst_38 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_cst_39 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_cst_40 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_call3_cst : Ref sig .tc := ⟨.hbm, 287, rfl⟩
abbrev main_call3_v0 : Ref sig .tc := ⟨.hbm, 288, rfl⟩
abbrev main_v219 : Ref sig .tc := ⟨.hbm, 289, rfl⟩
abbrev main_v220 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S256x256 : S_.BroadcastsInDim S256x256 (![] : Fin 0 → Fin S256x256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  scatter_S256_S50000x1_S50000_n_0_0_1_wf : ScatterDims.WF S256 S50000x1 S50000 [] [0] [0] 1
  scatter_S256x256_S50000x1_S50000x256_1_0_0_1_wf : ScatterDims.WF S256x256 S50000x1 S50000x256 [1] [0] [0] 1
  dot_S256x256_S256x128_S256x128_1_0_0_1_n_n_wf : DotDims.WF S256x256 S256x128 S256x128 [1] [0] [0] [1] [] []
  dot_S256x128_S128x1_S256x1_1_0_0_1_n_n_wf : DotDims.WF S256x128 S128x1 S256x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KSame.lean ====
/-
  The reference recomputes, in its second and third layers, the edge norms and the inverse degrees of the first:
  the same operations on the same index argument, so the same stages.
-/
import proofs.«177529_j48498770706497_1_alg».proof.Proof.RSpec

noncomputable section

namespace Cert.RefSame

open Cert.ReferenceIdeal Cert.ReferenceIdeal.ReadP Idealize.ShloMosaic Idealize.ShloMosaic.TcCoe

variable {F : FTy → Type} [FloatOps F] (x1 : (⟨S2x800000, .i32⟩ : BufTy).Contents (Elt F))

/-- The second layer's edge norms are the first layer's. -/
theorem norm1 : val_main_v89 (F := F) x1 = val_main_v26 (F := F) x1 := rfl
/-- The third layer's edge norms are the first layer's. -/
theorem norm2 : val_main_v153 (F := F) x1 = val_main_v26 (F := F) x1 := rfl
/-- The second layer's inverse degrees are the first layer's. -/
theorem dinv2_1 : val_main_v103 (F := F) x1 = val_main_v40 (F := F) x1 := rfl
/-- The third layer's inverse degrees are the first layer's. -/
theorem dinv2_2 : val_main_v167 (F := F) x1 = val_main_v40 (F := F) x1 := rfl

end Cert.RefSame

end
-- ==== Proof.KHost0.lean ====
/-
  The kernel program's first host stretch (the two index rows, the in-degrees with self loops, their inverse
  square roots and the squares of those, the edge norms), read back: from any buffer contents whose index
  argument is `x1`, each buffer the later stages read holds the reference's stage of the same meaning.
-/
import proofs.«177529_j48498770706497_1_alg».proof.Proof.Gen.KernelIdeal.Launch
import proofs.«177529_j48498770706497_1_alg».proof.Proof.RSpec
import Idealize.ShloMosaic.Lib.StableHlo.Run

noncomputable section

namespace Cert.KernelIdeal.KHost0

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-- No operation of a literal stretch writes the buffer: the fold leaves it as it was. -/
macro "keeps_tac" : tactic => `(tactic| (
  refine StableHlo.after_of_forall_not_mem _ _ (List.forall_iff_forall_mem.mp ?_)
  simp only [hostOps0, hostOps1, hostOps3, hostOps5, hostOps6, hostOps6_1, hostOps6_2, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (W : Valuation τ sig (Elt F))
variable (x0 : (⟨Cert.ReferenceIdeal.S50000x128, .f32⟩ : BufTy).Contents (Elt F))
  (x1 : (⟨Cert.ReferenceIdeal.S2x800000, .i32⟩ : BufTy).Contents (Elt F))
  (x2 : (⟨Cert.ReferenceIdeal.S50000, .i32⟩ : BufTy).Contents (Elt F))
  (x3 : (⟨Cert.ReferenceIdeal.S128x256, .f32⟩ : BufTy).Contents (Elt F))
  (x4 : (⟨Cert.ReferenceIdeal.S256, .f32⟩ : BufTy).Contents (Elt F))
  (x5 : (⟨Cert.ReferenceIdeal.S256, .f32⟩ : BufTy).Contents (Elt F))
  (x6 : (⟨Cert.ReferenceIdeal.S256, .f32⟩ : BufTy).Contents (Elt F))
  (x7 : (⟨Cert.ReferenceIdeal.S256x256, .f32⟩ : BufTy).Contents (Elt F))
  (x8 : (⟨Cert.ReferenceIdeal.S256, .f32⟩ : BufTy).Contents (Elt F))
  (x9 : (⟨Cert.ReferenceIdeal.S256, .f32⟩ : BufTy).Contents (Elt F))
  (x10 : (⟨Cert.ReferenceIdeal.S256, .f32⟩ : BufTy).Contents (Elt F))
  (x11 : (⟨Cert.ReferenceIdeal.S256x256, .f32⟩ : BufTy).Contents (Elt F))
  (x12 : (⟨Cert.ReferenceIdeal.S256, .f32⟩ : BufTy).Contents (Elt F))
  (x13 : (⟨Cert.ReferenceIdeal.S256, .f32⟩ : BufTy).Contents (Elt F))
  (x14 : (⟨Cert.ReferenceIdeal.S256, .f32⟩ : BufTy).Contents (Elt F))
  (x15 : (⟨Cert.ReferenceIdeal.S256x128, .f32⟩ : BufTy).Contents (Elt F))
  (x16 : (⟨Cert.ReferenceIdeal.S128, .f32⟩ : BufTy).Contents (Elt F))
  (x17 : (⟨Cert.ReferenceIdeal.S128x1, .f32⟩ : BufTy).Contents (Elt F))
  (x18 : (⟨Cert.ReferenceIdeal.S1, .f32⟩ : BufTy).Contents (Elt F))

/-- The source-row indices. -/
theorem row (h1 : W (Proc.devRef .tc main_arg1) = x1) :
    after hostOps0 W (Proc.devRef .tc main_v1) = val_main_v1 (F := F) x1 := by
  after_results
  rw [h1]
  rfl

/-- The target-row indices. -/
theorem col (h1 : W (Proc.devRef .tc main_arg1) = x1) :
    after hostOps0 W (Proc.devRef .tc main_v3) = val_main_v3 (F := F) x1 := by
  after_results
  rw [h1]
  rfl

/-- The inverse degrees (the inverse square roots squared): the reference multiplies them out anew in each layer. -/
theorem dinv2 (h1 : W (Proc.devRef .tc main_arg1) = x1) :
    after hostOps0 W (Proc.devRef .tc main_v11) = val_main_v40 (F := F) x1 := by
  after_results_simp
  rw [h1]
  rfl

/-- The edge norms: the product of the two end points' inverse square-root degrees. -/
theorem norm (h1 : W (Proc.devRef .tc main_arg1) = x1) :
    after hostOps0 W (Proc.devRef .tc main_v26) = val_main_v26 (F := F) x1 := by
  after_results_simp
  rw [h1]
  rfl

theorem keeps_arg0 : after hostOps0 W (Proc.devRef .tc main_arg0) = W (Proc.devRef .tc main_arg0) := by keeps_tac
theorem keeps_arg2 : after hostOps0 W (Proc.devRef .tc main_arg2) = W (Proc.devRef .tc main_arg2) := by keeps_tac
theorem keeps_arg3 : after hostOps0 W (Proc.devRef .tc main_arg3) = W (Proc.devRef .tc main_arg3) := by keeps_tac
theorem keeps_arg4 : after hostOps0 W (Proc.devRef .tc main_arg4) = W (Proc.devRef .tc main_arg4) := by keeps_tac
theorem keeps_arg5 : after hostOps0 W (Proc.devRef .tc main_arg5) = W (Proc.devRef .tc main_arg5) := by keeps_tac
theorem keeps_arg6 : after hostOps0 W (Proc.devRef .tc main_arg6) = W (Proc.devRef .tc main_arg6) := by keeps_tac
theorem keeps_arg7 : after hostOps0 W (Proc.devRef .tc main_arg7) = W (Proc.devRef .tc main_arg7) := by keeps_tac
theorem keeps_arg8 : after hostOps0 W (Proc.devRef .tc main_arg8) = W (Proc.devRef .tc main_arg8) := by keeps_tac
theorem keeps_arg9 : after hostOps0 W (Proc.devRef .tc main_arg9) = W (Proc.devRef .tc main_arg9) := by keeps_tac
theorem keeps_arg10 : after hostOps0 W (Proc.devRef .tc main_arg10) = W (Proc.devRef .tc main_arg10) := by keeps_tac
theorem keeps_arg11 : after hostOps0 W (Proc.devRef .tc main_arg11) = W (Proc.devRef .tc main_arg11) := by keeps_tac
theorem keeps_arg12 : after hostOps0 W (Proc.devRef .tc main_arg12) = W (Proc.devRef .tc main_arg12) := by keeps_tac
theorem keeps_arg13 : after hostOps0 W (Proc.devRef .tc main_arg13) = W (Proc.devRef .tc main_arg13) := by keeps_tac
theorem keeps_arg14 : after hostOps0 W (Proc.devRef .tc main_arg14) = W (Proc.devRef .tc main_arg14) := by keeps_tac
theorem keeps_arg15 : after hostOps0 W (Proc.devRef .tc main_arg15) = W (Proc.devRef .tc main_arg15) := by keeps_tac
theorem keeps_arg16 : after hostOps0 W (Proc.devRef .tc main_arg16) = W (Proc.devRef .tc main_arg16) := by keeps_tac
theorem keeps_arg17 : after hostOps0 W (Proc.devRef .tc main_arg17) = W (Proc.devRef .tc main_arg17) := by keeps_tac
theorem keeps_arg18 : after hostOps0 W (Proc.devRef .tc main_arg18) = W (Proc.devRef .tc main_arg18) := by keeps_tac

end Cert.KernelIdeal.KHost0

end
-- ==== Proof.KHost1.lean ====
/-
  The host stretch between the first product and the first normalisation: the gather along the edges, the
  scatter-add into the target rows, the self-loop term and the bias (the layer's aggregate), its column means and
  variances, and the four row vectors the normalisation region takes as [1, 256] arrays. Read back from any buffer
  contents that hold the earlier stages' values.
-/
import proofs.«177529_j48498770706497_1_alg».proof.Proof.Gen.KernelIdeal.Launch
import proofs.«177529_j48498770706497_1_alg».proof.Proof.RSpec
import Idealize.ShloMosaic.Lib.StableHlo.Run

noncomputable section

namespace Cert.KernelIdeal.KHost1

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-- No operation of a literal stretch writes the buffer: the fold leaves it as it was. -/
macro "keeps_tac" : tactic => `(tactic| (
  refine StableHlo.after_of_forall_not_mem _ _ (List.forall_iff_forall_mem.mp ?_)
  simp only [hostOps0, hostOps1, hostOps3, hostOps5, hostOps6, hostOps6_1, hostOps6_2, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (W : Valuation τ sig (Elt F))
variable (x0 : (⟨Cert.ReferenceIdeal.S50000x128, .f32⟩ : BufTy).Contents (Elt F))
  (x1 : (⟨Cert.ReferenceIdeal.S2x800000, .i32⟩ : BufTy).Contents (Elt F))
  (x2 : (⟨Cert.ReferenceIdeal.S50000, .i32⟩ : BufTy).Contents (Elt F))
  (x3 : (⟨Cert.ReferenceIdeal.S128x256, .f32⟩ : BufTy).Contents (Elt F))
  (x4 : (⟨Cert.ReferenceIdeal.S256, .f32⟩ : BufTy).Contents (Elt F))
  (x5 : (⟨Cert.ReferenceIdeal.S256, .f32⟩ : BufTy).Contents (Elt F))
  (x6 : (⟨Cert.ReferenceIdeal.S256, .f32⟩ : BufTy).Contents (Elt F))
  (x7 : (⟨Cert.ReferenceIdeal.S256x256, .f32⟩ : BufTy).Contents (Elt F))
  (x8 : (⟨Cert.ReferenceIdeal.S256, .f32⟩ : BufTy).Contents (Elt F))
  (x9 : (⟨Cert.ReferenceIdeal.S256, .f32⟩ : BufTy).Contents (Elt F))
  (x10 : (⟨Cert.ReferenceIdeal.S256, .f32⟩ : BufTy).Contents (Elt F))
  (x11 : (⟨Cert.ReferenceIdeal.S256x256, .f32⟩ : BufTy).Contents (Elt F))
  (x12 : (⟨Cert.ReferenceIdeal.S256, .f32⟩ : BufTy).Contents (Elt F))
  (x13 : (⟨Cert.ReferenceIdeal.S256, .f32⟩ : BufTy).Contents (Elt F))
  (x14 : (⟨Cert.ReferenceIdeal.S256, .f32⟩ : BufTy).Contents (Elt F))
  (x15 : (⟨Cert.ReferenceIdeal.S256x128, .f32⟩ : BufTy).Contents (Elt F))
  (x16 : (⟨Cert.ReferenceIdeal.S128, .f32⟩ : BufTy).Contents (Elt F))
  (x17 : (⟨Cert.ReferenceIdeal.S128x1, .f32⟩ : BufTy).Contents (Elt F))
  (x18 : (⟨Cert.ReferenceIdeal.S1, .f32⟩ : BufTy).Contents (Elt F))

/-- The layer's aggregate. -/
theorem agg (hxw : W (Proc.devRef .tc main_v27) = val_main_v11 (F := F) x0 x3) (hrow : W (Proc.devRef .tc main_v1) = val_main_v1 (F := F) x1) (hnorm : W (Proc.devRef .tc main_v26) = val_main_v26 (F := F) x1) (hcol : W (Proc.devRef .tc main_v3) = val_main_v3 (F := F) x1) (hd2 : W (Proc.devRef .tc main_v11) = val_main_v40 (F := F) x1) (h4 : W (Proc.devRef .tc main_arg4) = x4) :
    after hostOps1 W (Proc.devRef .tc main_v47) = val_main_v47 (F := F) x0 x1 x3 x4 := by
  after_results_simp
  rw [hxw, hrow, hnorm, hcol, hd2, h4]
  rfl

/-- The column means, as a [1, 256] array. -/
theorem mu (hxw : W (Proc.devRef .tc main_v27) = val_main_v11 (F := F) x0 x3) (hrow : W (Proc.devRef .tc main_v1) = val_main_v1 (F := F) x1) (hnorm : W (Proc.devRef .tc main_v26) = val_main_v26 (F := F) x1) (hcol : W (Proc.devRef .tc main_v3) = val_main_v3 (F := F) x1) (hd2 : W (Proc.devRef .tc main_v11) = val_main_v40 (F := F) x1) (h4 : W (Proc.devRef .tc main_arg4) = x4) :
    after hostOps1 W (Proc.devRef .tc main_v61) = shapeCast _ (val_main_v50 (F := F) x0 x1 x3 x4) shapeCasts_S256_S1x256 := by
  after_results_simp
  rw [hxw, hrow, hnorm, hcol, hd2, h4]
  rfl

/-- The column variances, as a [1, 256] array. -/
theorem var (hxw : W (Proc.devRef .tc main_v27) = val_main_v11 (F := F) x0 x3) (hrow : W (Proc.devRef .tc main_v1) = val_main_v1 (F := F) x1) (hnorm : W (Proc.devRef .tc main_v26) = val_main_v26 (F := F) x1) (hcol : W (Proc.devRef .tc main_v3) = val_main_v3 (F := F) x1) (hd2 : W (Proc.devRef .tc main_v11) = val_main_v40 (F := F) x1) (h4 : W (Proc.devRef .tc main_arg4) = x4) :
    after hostOps1 W (Proc.devRef .tc main_v62) = shapeCast _ (val_main_v57 (F := F) x0 x1 x3 x4) shapeCasts_S256_S1x256 := by
  after_results_simp
  rw [hxw, hrow, hnorm, hcol, hd2, h4]
  rfl

/-- The scale, as a [1, 256] array. -/
theorem gam (h5 : W (Proc.devRef .tc main_arg5) = x5) :
    after hostOps1 W (Proc.devRef .tc main_v59) = shapeCast _ x5 shapeCasts_S256_S1x256 := by
  after_results
  rw [h5]
  rfl

/-- The shift, as a [1, 256] array. -/
theorem bet (h6 : W (Proc.devRef .tc main_arg6) = x6) :
    after hostOps1 W (Proc.devRef .tc main_v60) = shapeCast _ x6 shapeCasts_S256_S1x256 := by
  after_results
  rw [h6]
  rfl

/-- The first layer has no residual: zeros. -/
theorem zer  :
    after hostOps1 W (Proc.devRef .tc main_v58) = broadcastInDim S50000x256 ![] bcast_S_S50000x256 (constant (F := F) S_ .f32 0x00000000#32) := by
  after_results

theorem keeps_v1 : after hostOps1 W (Proc.devRef .tc main_v1) = W (Proc.devRef .tc main_v1) := by keeps_tac
theorem keeps_v3 : after hostOps1 W (Proc.devRef .tc main_v3) = W (Proc.devRef .tc main_v3) := by keeps_tac
theorem keeps_v11 : after hostOps1 W (Proc.devRef .tc main_v11) = W (Proc.devRef .tc main_v11) := by keeps_tac
theorem keeps_v26 : after hostOps1 W (Proc.devRef .tc main_v26) = W (Proc.devRef .tc main_v26) := by keeps_tac
theorem keeps_arg2 : after hostOps1 W (Proc.devRef .tc main_arg2) = W (Proc.devRef .tc main_arg2) := by keeps_tac
theorem keeps_arg7 : after hostOps1 W (Proc.devRef .tc main_arg7) = W (Proc.devRef .tc main_arg7) := by keeps_tac
theorem keeps_arg8 : after hostOps1 W (Proc.devRef .tc main_arg8) = W (Proc.devRef .tc main_arg8) := by keeps_tac
theorem keeps_arg9 : after hostOps1 W (Proc.devRef .tc main_arg9) = W (Proc.devRef .tc main_arg9) := by keeps_tac
theorem keeps_arg10 : after hostOps1 W (Proc.devRef .tc main_arg10) = W (Proc.devRef .tc main_arg10) := by keeps_tac
theorem keeps_arg11 : after hostOps1 W (Proc.devRef .tc main_arg11) = W (Proc.devRef .tc main_arg11) := by keeps_tac
theorem keeps_arg12 : after hostOps1 W (Proc.devRef .tc main_arg12) = W (Proc.devRef .tc main_arg12) := by keeps_tac
theorem keeps_arg13 : after hostOps1 W (Proc.devRef .tc main_arg13) = W (Proc.devRef .tc main_arg13) := by keeps_tac
theorem keeps_arg14 : after hostOps1 W (Proc.devRef .tc main_arg14) = W (Proc.devRef .tc main_arg14) := by keeps_tac
theorem keeps_arg15 : after hostOps1 W (Proc.devRef .tc main_arg15) = W (Proc.devRef .tc main_arg15) := by keeps_tac
theorem keeps_arg16 : after hostOps1 W (Proc.devRef .tc main_arg16) = W (Proc.devRef .tc main_arg16) := by keeps_tac
theorem keeps_arg17 : after hostOps1 W (Proc.devRef .tc main_arg17) = W (Proc.devRef .tc main_arg17) := by keeps_tac
theorem keeps_arg18 : after hostOps1 W (Proc.devRef .tc main_arg18) = W (Proc.devRef .tc main_arg18) := by keeps_tac

end Cert.KernelIdeal.KHost1

end
-- ==== Proof.KHost3.lean ====
/-
  The host stretch of the second layer, between its product and its normalisation: the layer's aggregate (gather
  along the edges, scatter-add, self-loop term, bias), its column means and variances, and the four row vectors as
  [1, 256] arrays. Read back from any buffer contents that hold the earlier stages' values.
-/
import proofs.«177529_j48498770706497_1_alg».proof.Proof.Gen.KernelIdeal.Launch
import proofs.«177529_j48498770706497_1_alg».proof.Proof.RSpec
import Idealize.ShloMosaic.Lib.StableHlo.Run

noncomputable section

namespace Cert.KernelIdeal.KHost3

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-- No operation of a literal stretch writes the buffer: the fold leaves it as it was. -/
macro "keeps_tac" : tactic => `(tactic| (
  refine StableHlo.after_of_forall_not_mem _ _ (List.forall_iff_forall_mem.mp ?_)
  simp only [hostOps0, hostOps1, hostOps3, hostOps5, hostOps6, hostOps6_1, hostOps6_2, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (W : Valuation τ sig (Elt F))
variable (x0 : (⟨Cert.ReferenceIdeal.S50000x128, .f32⟩ : BufTy).Contents (Elt F))
  (x1 : (⟨Cert.ReferenceIdeal.S2x800000, .i32⟩ : BufTy).Contents (Elt F))
  (x2 : (⟨Cert.ReferenceIdeal.S50000, .i32⟩ : BufTy).Contents (Elt F))
  (x3 : (⟨Cert.ReferenceIdeal.S128x256, .f32⟩ : BufTy).Contents (Elt F))
  (x4 : (⟨Cert.ReferenceIdeal.S256, .f32⟩ : BufTy).Contents (Elt F))
  (x5 : (⟨Cert.ReferenceIdeal.S256, .f32⟩ : BufTy).Contents (Elt F))
  (x6 : (⟨Cert.ReferenceIdeal.S256, .f32⟩ : BufTy).Contents (Elt F))
  (x7 : (⟨Cert.ReferenceIdeal.S256x256, .f32⟩ : BufTy).Contents (Elt F))
  (x8 : (⟨Cert.ReferenceIdeal.S256, .f32⟩ : BufTy).Contents (Elt F))
  (x9 : (⟨Cert.ReferenceIdeal.S256, .f32⟩ : BufTy).Contents (Elt F))
  (x10 : (⟨Cert.ReferenceIdeal.S256, .f32⟩ : BufTy).Contents (Elt F))
  (x11 : (⟨Cert.ReferenceIdeal.S256x256, .f32⟩ : BufTy).Contents (Elt F))
  (x12 : (⟨Cert.ReferenceIdeal.S256, .f32⟩ : BufTy).Contents (Elt F))
  (x13 : (⟨Cert.ReferenceIdeal.S256, .f32⟩ : BufTy).Contents (Elt F))
  (x14 : (⟨Cert.ReferenceIdeal.S256, .f32⟩ : BufTy).Contents (Elt F))
  (x15 : (⟨Cert.ReferenceIdeal.S256x128, .f32⟩ : BufTy).Contents (Elt F))
  (x16 : (⟨Cert.ReferenceIdeal.S128, .f32⟩ : BufTy).Contents (Elt F))
  (x17 : (⟨Cert.ReferenceIdeal.S128x1, .f32⟩ : BufTy).Contents (Elt F))
  (x18 : (⟨Cert.ReferenceIdeal.S1, .f32⟩ : BufTy).Contents (Elt F))

/-- The layer's aggregate. -/
theorem agg (hxw : W (Proc.devRef .tc main_v64) = val_main_v74 (F := F) x0 x1 x3 x4 x5 x6 x7) (hrow : W (Proc.devRef .tc main_v1) = val_main_v1 (F := F) x1) (hnorm : W (Proc.devRef .tc main_v26) = val_main_v89 (F := F) x1) (hcol : W (Proc.devRef .tc main_v3) = val_main_v3 (F := F) x1) (hd2 : W (Proc.devRef .tc main_v11) = val_main_v103 (F := F) x1) (h8 : W (Proc.devRef .tc main_arg8) = x8) :
    after hostOps3 W (Proc.devRef .tc main_v84) = val_main_v110 (F := F) x0 x1 x3 x4 x5 x6 x7 x8 := by
  after_results_simp
  rw [hxw, hrow, hnorm, hcol, hd2, h8]
  rfl

/-- The column means, as a [1, 256] array. -/
theorem mu (hxw : W (Proc.devRef .tc main_v64) = val_main_v74 (F := F) x0 x1 x3 x4 x5 x6 x7) (hrow : W (Proc.devRef .tc main_v1) = val_main_v1 (F := F) x1) (hnorm : W (Proc.devRef .tc main_v26) = val_main_v89 (F := F) x1) (hcol : W (Proc.devRef .tc main_v3) = val_main_v3 (F := F) x1) (hd2 : W (Proc.devRef .tc main_v11) = val_main_v103 (F := F) x1) (h8 : W (Proc.devRef .tc main_arg8) = x8) :
    after hostOps3 W (Proc.devRef .tc main_v97) = shapeCast _ (val_main_v113 (F := F) x0 x1 x3 x4 x5 x6 x7 x8) shapeCasts_S256_S1x256 := by
  after_results_simp
  rw [hxw, hrow, hnorm, hcol, hd2, h8]
  rfl

/-- The column variances, as a [1, 256] array. -/
theorem var (hxw : W (Proc.devRef .tc main_v64) = val_main_v74 (F := F) x0 x1 x3 x4 x5 x6 x7) (hrow : W (Proc.devRef .tc main_v1) = val_main_v1 (F := F) x1) (hnorm : W (Proc.devRef .tc main_v26) = val_main_v89 (F := F) x1) (hcol : W (Proc.devRef .tc main_v3) = val_main_v3 (F := F) x1) (hd2 : W (Proc.devRef .tc main_v11) = val_main_v103 (F := F) x1) (h8 : W (Proc.devRef .tc main_arg8) = x8) :
    after hostOps3 W (Proc.devRef .tc main_v98) = shapeCast _ (val_main_v120 (F := F) x0 x1 x3 x4 x5 x6 x7 x8) shapeCasts_S256_S1x256 := by
  after_results_simp
  rw [hxw, hrow, hnorm, hcol, hd2, h8]
  rfl

/-- The scale, as a [1, 256] array. -/
theorem gam (h9 : W (Proc.devRef .tc main_arg9) = x9) :
    after hostOps3 W (Proc.devRef .tc main_v95) = shapeCast _ x9 shapeCasts_S256_S1x256 := by
  after_results
  rw [h9]
  rfl

/-- The shift, as a [1, 256] array. -/
theorem bet (h10 : W (Proc.devRef .tc main_arg10) = x10) :
    after hostOps3 W (Proc.devRef .tc main_v96) = shapeCast _ x10 shapeCasts_S256_S1x256 := by
  after_results
  rw [h10]
  rfl

theorem keeps_v1 : after hostOps3 W (Proc.devRef .tc main_v1) = W (Proc.devRef .tc main_v1) := by keeps_tac
theorem keeps_v3 : after hostOps3 W (Proc.devRef .tc main_v3) = W (Proc.devRef .tc main_v3) := by keeps_tac
theorem keeps_v11 : after hostOps3 W (Proc.devRef .tc main_v11) = W (Proc.devRef .tc main_v11) := by keeps_tac
theorem keeps_v26 : after hostOps3 W (Proc.devRef .tc main_v26) = W (Proc.devRef .tc main_v26) := by keeps_tac
theorem keeps_v63 : after hostOps3 W (Proc.devRef .tc main_v63) = W (Proc.devRef .tc main_v63) := by keeps_tac
theorem keeps_arg2 : after hostOps3 W (Proc.devRef .tc main_arg2) = W (Proc.devRef .tc main_arg2) := by keeps_tac
theorem keeps_arg11 : after hostOps3 W (Proc.devRef .tc main_arg11) = W (Proc.devRef .tc main_arg11) := by keeps_tac
theorem keeps_arg12 : after hostOps3 W (Proc.devRef .tc main_arg12) = W (Proc.devRef .tc main_arg12) := by keeps_tac
theorem keeps_arg13 : after hostOps3 W (Proc.devRef .tc main_arg13) = W (Proc.devRef .tc main_arg13) := by keeps_tac
theorem keeps_arg14 : after hostOps3 W (Proc.devRef .tc main_arg14) = W (Proc.devRef .tc main_arg14) := by keeps_tac
theorem keeps_arg15 : after hostOps3 W (Proc.devRef .tc main_arg15) = W (Proc.devRef .tc main_arg15) := by keeps_tac
theorem keeps_arg16 : after hostOps3 W (Proc.devRef .tc main_arg16) = W (Proc.devRef .tc main_arg16) := by keeps_tac
theorem keeps_arg17 : after hostOps3 W (Proc.devRef .tc main_arg17) = W (Proc.devRef .tc main_arg17) := by keeps_tac
theorem keeps_arg18 : after hostOps3 W (Proc.devRef .tc main_arg18) = W (Proc.devRef .tc main_arg18) := by keeps_tac

end Cert.KernelIdeal.KHost3

end
-- ==== Proof.KHost5.lean ====
/-
  The host stretch of the third layer, between its product and its normalisation: the layer's aggregate, its column
  means and variances, and the four row vectors as [1, 256] arrays. Read back from any buffer contents that hold the
  earlier stages' values.
-/
import proofs.«177529_j48498770706497_1_alg».proof.Proof.Gen.KernelIdeal.Launch
import proofs.«177529_j48498770706497_1_alg».proof.Proof.RSpec
import Idealize.ShloMosaic.Lib.StableHlo.Run

noncomputable section

namespace Cert.KernelIdeal.KHost5

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-- No operation of a literal stretch writes the buffer: the fold leaves it as it was. -/
macro "keeps_tac" : tactic => `(tactic| (
  refine StableHlo.after_of_forall_not_mem _ _ (List.forall_iff_forall_mem.mp ?_)
  simp only [hostOps0, hostOps1, hostOps3, hostOps5, hostOps6, hostOps6_1, hostOps6_2, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (W : Valuation τ sig (Elt F))
variable (x0 : (⟨Cert.ReferenceIdeal.S50000x128, .f32⟩ : BufTy).Contents (Elt F))
  (x1 : (⟨Cert.ReferenceIdeal.S2x800000, .i32⟩ : BufTy).Contents (Elt F))
  (x2 : (⟨Cert.ReferenceIdeal.S50000, .i32⟩ : BufTy).Contents (Elt F))
  (x3 : (⟨Cert.ReferenceIdeal.S128x256, .f32⟩ : BufTy).Contents (Elt F))
  (x4 : (⟨Cert.ReferenceIdeal.S256, .f32⟩ : BufTy).Contents (Elt F))
  (x5 : (⟨Cert.ReferenceIdeal.S256, .f32⟩ : BufTy).Contents (Elt F))
  (x6 : (⟨Cert.ReferenceIdeal.S256, .f32⟩ : BufTy).Contents (Elt F))
  (x7 : (⟨Cert.ReferenceIdeal.S256x256, .f32⟩ : BufTy).Contents (Elt F))
  (x8 : (⟨Cert.ReferenceIdeal.S256, .f32⟩ : BufTy).Contents (Elt F))
  (x9 : (⟨Cert.ReferenceIdeal.S256, .f32⟩ : BufTy).Contents (Elt F))
  (x10 : (⟨Cert.ReferenceIdeal.S256, .f32⟩ : BufTy).Contents (Elt F))
  (x11 : (⟨Cert.ReferenceIdeal.S256x256, .f32⟩ : BufTy).Contents (Elt F))
  (x12 : (⟨Cert.ReferenceIdeal.S256, .f32⟩ : BufTy).Contents (Elt F))
  (x13 : (⟨Cert.ReferenceIdeal.S256, .f32⟩ : BufTy).Contents (Elt F))
  (x14 : (⟨Cert.ReferenceIdeal.S256, .f32⟩ : BufTy).Contents (Elt F))
  (x15 : (⟨Cert.ReferenceIdeal.S256x128, .f32⟩ : BufTy).Contents (Elt F))
  (x16 : (⟨Cert.ReferenceIdeal.S128, .f32⟩ : BufTy).Contents (Elt F))
  (x17 : (⟨Cert.ReferenceIdeal.S128x1, .f32⟩ : BufTy).Contents (Elt F))
  (x18 : (⟨Cert.ReferenceIdeal.S1, .f32⟩ : BufTy).Contents (Elt F))

/-- The layer's aggregate. -/
theorem agg (hxw : W (Proc.devRef .tc main_v100) = val_main_v138 (F := F) x0 x1 x3 x4 x5 x6 x7 x8 x9 x10 x11) (hrow : W (Proc.devRef .tc main_v1) = val_main_v1 (F := F) x1) (hnorm : W (Proc.devRef .tc main_v26) = val_main_v153 (F := F) x1) (hcol : W (Proc.devRef .tc main_v3) = val_main_v3 (F := F) x1) (hd2 : W (Proc.devRef .tc main_v11) = val_main_v167 (F := F) x1) (h12 : W (Proc.devRef .tc main_arg12) = x12) :
    after hostOps5 W (Proc.devRef .tc main_v120) = val_main_v174 (F := F) x0 x1 x3 x4 x5 x6 x7 x8 x9 x10 x11 x12 := by
  after_results_simp
  rw [hxw, hrow, hnorm, hcol, hd2, h12]
  rfl

/-- The column means, as a [1, 256] array. -/
theorem mu (hxw : W (Proc.devRef .tc main_v100) = val_main_v138 (F := F) x0 x1 x3 x4 x5 x6 x7 x8 x9 x10 x11) (hrow : W (Proc.devRef .tc main_v1) = val_main_v1 (F := F) x1) (hnorm : W (Proc.devRef .tc main_v26) = val_main_v153 (F := F) x1) (hcol : W (Proc.devRef .tc main_v3) = val_main_v3 (F := F) x1) (hd2 : W (Proc.devRef .tc main_v11) = val_main_v167 (F := F) x1) (h12 : W (Proc.devRef .tc main_arg12) = x12) :
    after hostOps5 W (Proc.devRef .tc main_v133) = shapeCast _ (val_main_v177 (F := F) x0 x1 x3 x4 x5 x6 x7 x8 x9 x10 x11 x12) shapeCasts_S256_S1x256 := by
  after_results_simp
  rw [hxw, hrow, hnorm, hcol, hd2, h12]
  rfl

/-- The column variances, as a [1, 256] array. -/
theorem var (hxw : W (Proc.devRef .tc main_v100) = val_main_v138 (F := F) x0 x1 x3 x4 x5 x6 x7 x8 x9 x10 x11) (hrow : W (Proc.devRef .tc main_v1) = val_main_v1 (F := F) x1) (hnorm : W (Proc.devRef .tc main_v26) = val_main_v153 (F := F) x1) (hcol : W (Proc.devRef .tc main_v3) = val_main_v3 (F := F) x1) (hd2 : W (Proc.devRef .tc main_v11) = val_main_v167 (F := F) x1) (h12 : W (Proc.devRef .tc main_arg12) = x12) :
    after hostOps5 W (Proc.devRef .tc main_v134) = shapeCast _ (val_main_v184 (F := F) x0 x1 x3 x4 x5 x6 x7 x8 x9 x10 x11 x12) shapeCasts_S256_S1x256 := by
  after_results_simp
  rw [hxw, hrow, hnorm, hcol, hd2, h12]
  rfl

/-- The scale, as a [1, 256] array. -/
theorem gam (h13 : W (Proc.devRef .tc main_arg13) = x13) :
    after hostOps5 W (Proc.devRef .tc main_v131) = shapeCast _ x13 shapeCasts_S256_S1x256 := by
  after_results
  rw [h13]
  rfl

/-- The shift, as a [1, 256] array. -/
theorem bet (h14 : W (Proc.devRef .tc main_arg14) = x14) :
    after hostOps5 W (Proc.devRef .tc main_v132) = shapeCast _ x14 shapeCasts_S256_S1x256 := by
  after_results
  rw [h14]
  rfl

theorem keeps_v99 : after hostOps5 W (Proc.devRef .tc main_v99) = W (Proc.devRef .tc main_v99) := by keeps_tac
theorem keeps_arg2 : after hostOps5 W (Proc.devRef .tc main_arg2) = W (Proc.devRef .tc main_arg2) := by keeps_tac
theorem keeps_arg15 : after hostOps5 W (Proc.devRef .tc main_arg15) = W (Proc.devRef .tc main_arg15) := by keeps_tac
theorem keeps_arg16 : after hostOps5 W (Proc.devRef .tc main_arg16) = W (Proc.devRef .tc main_arg16) := by keeps_tac
theorem keeps_arg17 : after hostOps5 W (Proc.devRef .tc main_arg17) = W (Proc.devRef .tc main_arg17) := by keeps_tac
theorem keeps_arg18 : after hostOps5 W (Proc.devRef .tc main_arg18) = W (Proc.devRef .tc main_arg18) := by keeps_tac

end Cert.KernelIdeal.KHost5

end
-- ==== Proof.KHost6.lean ====
/-
  The host stretches after the last region: the per-graph counts and sums (two scatter-adds along the batch
  ids), mean pool plus add pool, and the two-layer head. Read back from any buffer contents that hold the last
  layer's output.
-/
import proofs.«177529_j48498770706497_1_alg».proof.Proof.Gen.KernelIdeal.Launch
import proofs.«177529_j48498770706497_1_alg».proof.Proof.RSpec
import Idealize.ShloMosaic.Lib.StableHlo.Run

noncomputable section

namespace Cert.KernelIdeal.KHost6

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-- No operation of a literal stretch writes the buffer: the fold leaves it as it was. -/
macro "keeps_tac" : tactic => `(tactic| (
  refine StableHlo.after_of_forall_not_mem _ _ (List.forall_iff_forall_mem.mp ?_)
  simp only [hostOps0, hostOps1, hostOps3, hostOps5, hostOps6, hostOps6_1, hostOps6_2, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (W : Valuation τ sig (Elt F))
variable (x0 : (⟨Cert.ReferenceIdeal.S50000x128, .f32⟩ : BufTy).Contents (Elt F))
  (x1 : (⟨Cert.ReferenceIdeal.S2x800000, .i32⟩ : BufTy).Contents (Elt F))
  (x2 : (⟨Cert.ReferenceIdeal.S50000, .i32⟩ : BufTy).Contents (Elt F))
  (x3 : (⟨Cert.ReferenceIdeal.S128x256, .f32⟩ : BufTy).Contents (Elt F))
  (x4 : (⟨Cert.ReferenceIdeal.S256, .f32⟩ : BufTy).Contents (Elt F))
  (x5 : (⟨Cert.ReferenceIdeal.S256, .f32⟩ : BufTy).Contents (Elt F))
  (x6 : (⟨Cert.ReferenceIdeal.S256, .f32⟩ : BufTy).Contents (Elt F))
  (x7 : (⟨Cert.ReferenceIdeal.S256x256, .f32⟩ : BufTy).Contents (Elt F))
  (x8 : (⟨Cert.ReferenceIdeal.S256, .f32⟩ : BufTy).Contents (Elt F))
  (x9 : (⟨Cert.ReferenceIdeal.S256, .f32⟩ : BufTy).Contents (Elt F))
  (x10 : (⟨Cert.ReferenceIdeal.S256, .f32⟩ : BufTy).Contents (Elt F))
  (x11 : (⟨Cert.ReferenceIdeal.S256x256, .f32⟩ : BufTy).Contents (Elt F))
  (x12 : (⟨Cert.ReferenceIdeal.S256, .f32⟩ : BufTy).Contents (Elt F))
  (x13 : (⟨Cert.ReferenceIdeal.S256, .f32⟩ : BufTy).Contents (Elt F))
  (x14 : (⟨Cert.ReferenceIdeal.S256, .f32⟩ : BufTy).Contents (Elt F))
  (x15 : (⟨Cert.ReferenceIdeal.S256x128, .f32⟩ : BufTy).Contents (Elt F))
  (x16 : (⟨Cert.ReferenceIdeal.S128, .f32⟩ : BufTy).Contents (Elt F))
  (x17 : (⟨Cert.ReferenceIdeal.S128x1, .f32⟩ : BufTy).Contents (Elt F))
  (x18 : (⟨Cert.ReferenceIdeal.S1, .f32⟩ : BufTy).Contents (Elt F))

/-- The head's first affine map of the pooled features, before its relu. -/
theorem pre (hh : W (Proc.devRef .tc main_v135) = val_main_v201 (F := F) x0 x1 x3 x4 x5 x6 x7 x8 x9 x10 x11 x12 x13 x14) (h2 : W (Proc.devRef .tc main_arg2) = x2) (h15 : W (Proc.devRef .tc main_arg15) = x15) (h16 : W (Proc.devRef .tc main_arg16) = x16) :
    after hostOps6 W (Proc.devRef .tc main_v152) = val_main_v218 (F := F) x0 x1 x2 x3 x4 x5 x6 x7 x8 x9 x10 x11 x12 x13 x14 x15 x16 := by
  after_results_simp
  rw [hh, h2, h15, h16]
  rfl

theorem keeps_arg17 : after hostOps6 W (Proc.devRef .tc main_arg17) = W (Proc.devRef .tc main_arg17) := by keeps_tac
theorem keeps_arg18 : after hostOps6 W (Proc.devRef .tc main_arg18) = W (Proc.devRef .tc main_arg18) := by keeps_tac

end Cert.KernelIdeal.KHost6

end
-- ==== Proof.KHost6a.lean ====
/-
  The head's relu (three host operations of an outlined call).
-/
import proofs.«177529_j48498770706497_1_alg».proof.Proof.Gen.KernelIdeal.Launch
import proofs.«177529_j48498770706497_1_alg».proof.Proof.RSpec
import Idealize.ShloMosaic.Lib.StableHlo.Run

noncomputable section

namespace Cert.KernelIdeal.KHost6a

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-- No operation of a literal stretch writes the buffer: the fold leaves it as it was. -/
macro "keeps_tac" : tactic => `(tactic| (
  refine StableHlo.after_of_forall_not_mem _ _ (List.forall_iff_forall_mem.mp ?_)
  simp only [hostOps0, hostOps1, hostOps3, hostOps5, hostOps6, hostOps6_1, hostOps6_2, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (W : Valuation τ sig (Elt F))
variable (x0 : (⟨Cert.ReferenceIdeal.S50000x128, .f32⟩ : BufTy).Contents (Elt F))
  (x1 : (⟨Cert.ReferenceIdeal.S2x800000, .i32⟩ : BufTy).Contents (Elt F))
  (x2 : (⟨Cert.ReferenceIdeal.S50000, .i32⟩ : BufTy).Contents (Elt F))
  (x3 : (⟨Cert.ReferenceIdeal.S128x256, .f32⟩ : BufTy).Contents (Elt F))
  (x4 : (⟨Cert.ReferenceIdeal.S256, .f32⟩ : BufTy).Contents (Elt F))
  (x5 : (⟨Cert.ReferenceIdeal.S256, .f32⟩ : BufTy).Contents (Elt F))
  (x6 : (⟨Cert.ReferenceIdeal.S256, .f32⟩ : BufTy).Contents (Elt F))
  (x7 : (⟨Cert.ReferenceIdeal.S256x256, .f32⟩ : BufTy).Contents (Elt F))
  (x8 : (⟨Cert.ReferenceIdeal.S256, .f32⟩ : BufTy).Contents (Elt F))
  (x9 : (⟨Cert.ReferenceIdeal.S256, .f32⟩ : BufTy).Contents (Elt F))
  (x10 : (⟨Cert.ReferenceIdeal.S256, .f32⟩ : BufTy).Contents (Elt F))
  (x11 : (⟨Cert.ReferenceIdeal.S256x256, .f32⟩ : BufTy).Contents (Elt F))
  (x12 : (⟨Cert.ReferenceIdeal.S256, .f32⟩ : BufTy).Contents (Elt F))
  (x13 : (⟨Cert.ReferenceIdeal.S256, .f32⟩ : BufTy).Contents (Elt F))
  (x14 : (⟨Cert.ReferenceIdeal.S256, .f32⟩ : BufTy).Contents (Elt F))
  (x15 : (⟨Cert.ReferenceIdeal.S256x128, .f32⟩ : BufTy).Contents (Elt F))
  (x16 : (⟨Cert.ReferenceIdeal.S128, .f32⟩ : BufTy).Contents (Elt F))
  (x17 : (⟨Cert.ReferenceIdeal.S128x1, .f32⟩ : BufTy).Contents (Elt F))
  (x18 : (⟨Cert.ReferenceIdeal.S1, .f32⟩ : BufTy).Contents (Elt F))

/-- The head's hidden activations. -/
theorem act (hp : W (Proc.devRef .tc main_v152) = val_main_v218 (F := F) x0 x1 x2 x3 x4 x5 x6 x7 x8 x9 x10 x11 x12 x13 x14 x15 x16) :
    after hostOps6_1 W (Proc.devRef .tc main_v153) = val_main_v219 (F := F) x0 x1 x2 x3 x4 x5 x6 x7 x8 x9 x10 x11 x12 x13 x14 x15 x16 := by
  after_results
  rw [hp]
  rfl

theorem keeps_arg17 : after hostOps6_1 W (Proc.devRef .tc main_arg17) = W (Proc.devRef .tc main_arg17) := by keeps_tac
theorem keeps_arg18 : after hostOps6_1 W (Proc.devRef .tc main_arg18) = W (Proc.devRef .tc main_arg18) := by keeps_tac

end Cert.KernelIdeal.KHost6a

end
-- ==== Proof.KHost6b.lean ====
/-
  The head's second affine map: the program's result.
-/
import proofs.«177529_j48498770706497_1_alg».proof.Proof.Gen.KernelIdeal.Launch
import proofs.«177529_j48498770706497_1_alg».proof.Proof.RSpec
import Idealize.ShloMosaic.Lib.StableHlo.Run

noncomputable section

namespace Cert.KernelIdeal.KHost6b

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-- No operation of a literal stretch writes the buffer: the fold leaves it as it was. -/
macro "keeps_tac" : tactic => `(tactic| (
  refine StableHlo.after_of_forall_not_mem _ _ (List.forall_iff_forall_mem.mp ?_)
  simp only [hostOps0, hostOps1, hostOps3, hostOps5, hostOps6, hostOps6_1, hostOps6_2, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (W : Valuation τ sig (Elt F))
variable (x0 : (⟨Cert.ReferenceIdeal.S50000x128, .f32⟩ : BufTy).Contents (Elt F))
  (x1 : (⟨Cert.ReferenceIdeal.S2x800000, .i32⟩ : BufTy).Contents (Elt F))
  (x2 : (⟨Cert.ReferenceIdeal.S50000, .i32⟩ : BufTy).Contents (Elt F))
  (x3 : (⟨Cert.ReferenceIdeal.S128x256, .f32⟩ : BufTy).Contents (Elt F))
  (x4 : (⟨Cert.ReferenceIdeal.S256, .f32⟩ : BufTy).Contents (Elt F))
  (x5 : (⟨Cert.ReferenceIdeal.S256, .f32⟩ : BufTy).Contents (Elt F))
  (x6 : (⟨Cert.ReferenceIdeal.S256, .f32⟩ : BufTy).Contents (Elt F))
  (x7 : (⟨Cert.ReferenceIdeal.S256x256, .f32⟩ : BufTy).Contents (Elt F))
  (x8 : (⟨Cert.ReferenceIdeal.S256, .f32⟩ : BufTy).Contents (Elt F))
  (x9 : (⟨Cert.ReferenceIdeal.S256, .f32⟩ : BufTy).Contents (Elt F))
  (x10 : (⟨Cert.ReferenceIdeal.S256, .f32⟩ : BufTy).Contents (Elt F))
  (x11 : (⟨Cert.ReferenceIdeal.S256x256, .f32⟩ : BufTy).Contents (Elt F))
  (x12 : (⟨Cert.ReferenceIdeal.S256, .f32⟩ : BufTy).Contents (Elt F))
  (x13 : (⟨Cert.ReferenceIdeal.S256, .f32⟩ : BufTy).Contents (Elt F))
  (x14 : (⟨Cert.ReferenceIdeal.S256, .f32⟩ : BufTy).Contents (Elt F))
  (x15 : (⟨Cert.ReferenceIdeal.S256x128, .f32⟩ : BufTy).Contents (Elt F))
  (x16 : (⟨Cert.ReferenceIdeal.S128, .f32⟩ : BufTy).Contents (Elt F))
  (x17 : (⟨Cert.ReferenceIdeal.S128x1, .f32⟩ : BufTy).Contents (Elt F))
  (x18 : (⟨Cert.ReferenceIdeal.S1, .f32⟩ : BufTy).Contents (Elt F))

/-- The result. -/
theorem out (ha : W (Proc.devRef .tc main_v153) = val_main_v219 (F := F) x0 x1 x2 x3 x4 x5 x6 x7 x8 x9 x10 x11 x12 x13 x14 x15 x16) (h17 : W (Proc.devRef .tc main_arg17) = x17) (h18 : W (Proc.devRef .tc main_arg18) = x18) :
    after hostOps6_2 W (Proc.devRef .tc main_v157) = val_main_v223 (F := F) x0 x1 x2 x3 x4 x5 x6 x7 x8 x9 x10 x11 x12 x13 x14 x15 x16 x17 x18 := by
  after_results
  rw [ha, h17, h18]
  rfl

end Cert.KernelIdeal.KHost6b

end
-- ==== Proof.Mm0.lean ====
import proofs.«177529_j48498770706497_1_alg».proof.Proof.Gen.KernelIdeal.Frame
import Idealize.ShloMosaic.Lib.Pipeline.Value
import Idealize.ShloMosaic.Lib.ValueIdx
import Idealize.ShloMosaic.PureOps.Ideal.Laws

/-! # Region 0: the array its matrix product leaves

The region walks the 50000 rows of its left operand in 25 blocks of 2000 rows; at every block it holds the
whole right operand. At the ideal values the change of float format is the identity and the product into the
zero accumulator is a plain sum over the contracted axis, so each block written back is the matching block of the
whole-array product, and the 25 blocks cover the array. -/

set_option maxRecDepth 16384

noncomputable section

namespace Cert.KernelIdeal.Mm0

open Cert.KernelIdeal Cert.KernelIdeal.Gen Idealize.ShloMosaic Idealize.ShloMosaic.TcCoe Idealize.SL.Sem
open Idealize.ShloMosaic.Pipeline (Dat)

/-! ## The whole-array product -/

abbrev lidx (i : S50000x256.Idx) (k : Fin 128) : S50000x128.Idx := fun a => match a with
  | ⟨0, _⟩ => ⟨(i 0).val, (i 0).isLt⟩
  | ⟨1, _⟩ => ⟨k.val, k.isLt⟩
abbrev ridx (i : S50000x256.Idx) (k : Fin 128) : S128x256.Idx := fun a => match a with
  | ⟨0, _⟩ => ⟨k.val, k.isLt⟩
  | ⟨1, _⟩ => ⟨(i 1).val, (i 1).isLt⟩

/-- the whole-array product, index by index -/
def prod (x : S50000x128.Idx → EReal) (w : S128x256.Idx → EReal) : S50000x256.Idx → EReal :=
  fun i => ∑ k : Fin 128, x (lidx i k) * w (ridx i k)

theorem prod_apply (x : S50000x128.Idx → EReal) (w : S128x256.Idx → EReal) (i : S50000x256.Idx) :
    prod x w i = ∑ k : Fin 128, x (lidx i k) * w (ridx i k) := rfl

/-! ## The index maps over the grid -/

theorem hz : (![0, 0] : Fin 2 → Nat) = fun _ => 0 := funext fun a => by fin_cases a <;> rfl

/-- The left operand's row block moves with the output's; every other block index is 0; the output's row
    block index stays below 25. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row block of the output is some point's. -/
theorem idx_onto : ∀ q : Fin 25, ∃ t : Fin cfg0.N, win0_2.index t = ![q.val, 0] :=
  (by decide +kernel : ∀ q : Fin 25, ∃ t : Fin grid0.N, win0_2.index t = ![q.val, 0])

/-! ## The body's product at an index of a block -/

abbrev lb (j : S2000x256.Idx) (k : Fin 128) : S2000x128.Idx := fun a => match a with
  | ⟨0, _⟩ => ⟨(j 0).val, (j 0).isLt⟩
  | ⟨1, _⟩ => ⟨k.val, k.isLt⟩
abbrev rb (j : S2000x256.Idx) (k : Fin 128) : S128x256.Idx := fun a => match a with
  | ⟨0, _⟩ => ⟨k.val, k.isLt⟩
  | ⟨1, _⟩ => ⟨(j 1).val, (j 1).isLt⟩

theorem lhs_0 (j : S2000x256.Idx) (q : dot_S2000x128_S128x256_S2000x256_1_0_0_1_n_n.contr.Idx) :
    (dot_S2000x128_S128x256_S2000x256_1_0_0_1_n_n.lhsIdx j q 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_1 (j : S2000x256.Idx) (q : dot_S2000x128_S128x256_S2000x256_1_0_0_1_n_n.contr.Idx) :
    (dot_S2000x128_S128x256_S2000x256_1_0_0_1_n_n.lhsIdx j q 1).val = (q ⟨0, by decide⟩).val :=
  dot_S2000x128_S128x256_S2000x256_1_0_0_1_n_n.lhsIdx_val_of_single rfl j q
theorem rhs_0 (j : S2000x256.Idx) (q : dot_S2000x128_S128x256_S2000x256_1_0_0_1_n_n.contr.Idx) :
    (dot_S2000x128_S128x256_S2000x256_1_0_0_1_n_n.rhsIdx j q 0).val = (q ⟨0, by decide⟩).val :=
  dot_S2000x128_S128x256_S2000x256_1_0_0_1_n_n.rhsIdx_val_of_single rfl j q
theorem rhs_1 (j : S2000x256.Idx) (q : dot_S2000x128_S128x256_S2000x256_1_0_0_1_n_n.contr.Idx) :
    (dot_S2000x128_S128x256_S2000x256_1_0_0_1_n_n.rhsIdx j q 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- At the ideal values the body's payload, read at an index of its block, is the sum over the contracted axis of
    the products of the two loaded blocks: the change of float format is the identity there, and the accumulator is
    the zero splat. -/
theorem pay_apply (x0 : Vec Ideal S2000x128 .f32) (x1 : Vec Ideal S128x256 .f32) (j : S2000x256.Idx) :
    k0_pay1 (F := Ideal) x0 x1 j = ∑ k : Fin 128, x0 (lb j k) * x1 (rb j k) := by
  unfold k0_pay1
  simp only [matmul]
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx j ((ValueIdx.contrEquiv1 dot_S2000x128_S128x256_S2000x256_1_0_0_1_n_n 128 rfl rfl).symm k) = lb j k := funext fun a => Fin.ext (by
    match a with
    | ⟨0, _⟩ => exact lhs_0 _ _
    | ⟨1, _⟩ => exact (lhs_1 _ _).trans hk)
  have er : dot_S2000x128_S128x256_S2000x256_1_0_0_1_n_n.rhsIdx j ((ValueIdx.contrEquiv1 dot_S2000x128_S128x256_S2000x256_1_0_0_1_n_n 128 rfl rfl).symm k) = rb j k := funext fun a => Fin.ext (by
    match a with
    | ⟨0, _⟩ => exact (rhs_0 _ _).trans hk
    | ⟨1, _⟩ => exact rhs_1 _ _)
  show x0 (dot_S2000x128_S128x256_S2000x256_1_0_0_1_n_n.lhsIdx j _) * x1 (dot_S2000x128_S128x256_S2000x256_1_0_0_1_n_n.rhsIdx j _) = _
  rw [el, er]

/-! ## What a point writes back -/

/-- The left operand's block at point `t`, read at row `r` of the block and column `k`, is the array at row
    `2000 * (block index) + r`, the same column: the output's own row at that point. -/
theorem iblk_0_apply (V : (c : Dev nD) → (b : Ref sig .tc) → Buf (Elt Ideal) ((c : Thread nD τ).loc b)) (c : Dev nD)
    (t : Fin cfg0.N) (j : S2000x256.Idx) (k : Fin 128) :
    iblk0 (F := Ideal) V c 0 t (lb j k) = V c (Pipeline.arrRef spec0 0) (lidx (((cfg0.win 2).blk t).view.emb j) k) := by
  obtain ⟨e0, e1, e2, e3, e4, e5⟩ := idx_facts t
  show V c (Pipeline.arrRef spec0 0) (((cfg0.win 0).blk t).view.emb (lb j k)) = _
  refine congrArg (V c (Pipeline.arrRef spec0 0)) ?_
  funext a; apply Fin.ext
  match a with
  | ⟨0, _⟩ => show win0_0.index t (0 : Fin 2) * 2000 + 1 * (j 0).val = win0_2.index t (0 : Fin 2) * 2000 + 1 * (j 0).val; omega
  | ⟨1, _⟩ => show win0_0.index t (1 : Fin 2) * 128 + 1 * k.val = k.val; omega

/-- The right operand's block is the whole array at every point. -/
theorem iblk_1_apply (V : (c : Dev nD) → (b : Ref sig .tc) → Buf (Elt Ideal) ((c : Thread nD τ).loc b)) (c : Dev nD)
    (t : Fin cfg0.N) (j : S2000x256.Idx) (k : Fin 128) :
    iblk0 (F := Ideal) V c 1 t (rb j k) = V c (Pipeline.arrRef spec0 1) (ridx (((cfg0.win 2).blk t).view.emb j) k) := by
  obtain ⟨e0, e1, e2, e3, e4, e5⟩ := idx_facts t
  show V c (Pipeline.arrRef spec0 1) (((cfg0.win 1).blk t).view.emb (rb j k)) = _
  refine congrArg (V c (Pipeline.arrRef spec0 1)) ?_
  funext a; apply Fin.ext
  match a with
  | ⟨0, _⟩ => show win0_1.index t (0 : Fin 2) * 128 + 1 * k.val = k.val; omega
  | ⟨1, _⟩ => show win0_1.index t (1 : Fin 2) * 256 + 1 * (j 1).val = win0_2.index t (1 : Fin 2) * 256 + 1 * (j 1).val; omega

/-- WHAT POINT `t` WRITES BACK is block `t` of the whole-array product of the two arrays as the region finds them. -/
theorem flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (prod (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  funext j
  refine (pay_apply (iblk0 V c 0 t) (iblk0 V c 1 t) j).trans ?_
  show _ = prod (V c (Pipeline.arrRef spec0 0)) (V c (Pipeline.arrRef spec0 1)) (((cfg0.win 2).blk t).view.emb j)
  rw [prod_apply]
  refine Finset.sum_congr rfl fun k _ => ?_
  rw [iblk_0_apply V c t j k, iblk_1_apply V c t j k]

/-! ## The blocks cover the array -/

/-- An index of the array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v27).slice (win0_2.rect t)).set ↔ _
  rw [View.set_slice_whole, Rect.mem_set_unit]
  exact Iff.rfl

/-- Row `r` of the array is in the block of the point whose block index is `r / 2000`. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-! ## The array after the region -/

/-- THE ARRAY after the region's last write-back: the whole-array product of the two operand arrays as the region
    finds them. -/
theorem final (V : (c : Dev nD) → (b : Ref sig .tc) → Buf (Elt Ideal) ((c : Thread nD τ).loc b)) (c : Dev nD) :
    (dat0 (F := Ideal) V c).arrAt 2 cfg0.N = prod (V c (Pipeline.arrRef spec0 0)) (V c (Pipeline.arrRef spec0 1)) :=
  (dat0 (F := Ideal) V c).arrAt_eq_of_cover 2 _ (fun t _ => flushed_eq V c t) cover

end Cert.KernelIdeal.Mm0

end
-- ==== Proof.Bn1.lean ====
import proofs.«177529_j48498770706497_1_alg».proof.Proof.Gen.KernelIdeal.Frame
import Idealize.ShloMosaic.Lib.Pipeline.Value

/-! # Region 1: the array its normalisation leaves

The region walks the 50000 rows of its two full-size operands (the layer's aggregate and the residual) in 25 blocks
of 2000 rows; at every block it holds the four [1, 256] row vectors whole (scale, shift, column means, column
variances). Its body is pointwise: at row r and column j it writes
scale j · (aggregate r j − mean j) · (variance j + ε)^(−1/2) + shift j, clipped below at zero, plus residual r j.
So each block written back is the matching block of that whole-array function of the six arrays as the region
finds them, and the 25 blocks cover the array. The body uses no property of the float family, so the statement is
generic in it. -/

set_option maxRecDepth 16384

noncomputable section

namespace Cert.KernelIdeal.Bn1

open Cert.KernelIdeal Cert.KernelIdeal.Gen Idealize.ShloMosaic Idealize.ShloMosaic.TcCoe Idealize.SL.Sem
open Idealize.ShloMosaic.Pipeline (Dat)

variable {F : FTy → Type} [FloatOps F]

/-- row 0 of a [1,256] array at the column of i -/
abbrev row0 (i : S50000x256.Idx) : S1x256.Idx := fun a => match a with
  | ⟨0, _⟩ => ⟨0, Nat.one_pos⟩
  | ⟨1, _⟩ => ⟨(i 1).val, (i 1).isLt⟩

/-- the region's whole-array function, index by index -/
def bn (a res : S50000x256.Idx → Elt F .f32) (g be mu va : S1x256.Idx → Elt F .f32) : S50000x256.Idx → Elt F .f32 := fun i =>
  FloatOps.addf (FloatOps.maximumf (FloatOps.addf (FloatOps.mulf (FloatOps.mulf (g (row0 i)) (FloatOps.subf (a i) (mu (row0 i)))) (FloatOps.rsqrt (FloatOps.addf (va (row0 i)) (Scalar.ofBits .f32 0x3727C5AC#32)))) (be (row0 i))) (Scalar.ofBits .f32 0x00000000#32)) (res i)

/-- row 0 of a [1,256] block at the column of a block index -/
abbrev r0 (j : S2000x256.Idx) : S1x256.Idx := fun a => match a with
  | ⟨0, _⟩ => ⟨0, Nat.one_pos⟩
  | ⟨1, _⟩ => ⟨(j 1).val, (j 1).isLt⟩

/-- A row broadcast down the 2000 rows of a block reads, at a block index, the row at that index's column. -/
theorem bcast_apply {α : Type} (x : S1x256.Idx → α) (j : S2000x256.Idx) :
    broadcastTo S2000x256 x broadcasts_S1x256_S2000x256 j = x (r0 j) :=
  broadcastTo_apply x broadcasts_S1x256_S2000x256 j (r0 j) (fun a => match a with | ⟨0, _⟩ => rfl | ⟨1, _⟩ => rfl)

/-- The body's payload at a block index: normalise by the row statistics, scale and shift, clamp below at
    zero, add the residual. -/
theorem pay_apply (x0 x23 : Vec F S2000x256 .f32) (x2 x4 x6 x8 : Vec F S1x256 .f32) (j : S2000x256.Idx) :
    k1_pay1 x0 x2 x4 x6 x8 x23 j
      = FloatOps.addf (FloatOps.maximumf (FloatOps.addf (FloatOps.mulf (FloatOps.mulf (x2 (r0 j)) (FloatOps.subf (x0 j) (x6 (r0 j)))) (FloatOps.rsqrt (FloatOps.addf (x8 (r0 j)) (Scalar.ofBits .f32 0x3727C5AC#32)))) (x4 (r0 j))) (Scalar.ofBits .f32 0x00000000#32)) (x23 j) := by
  unfold k1_pay1
  simp only [shapeCast_self]
  simp only [addf, subf, mulf, maximumf, rsqrt, broadcast, bcast_apply]

theorem hz : (![0, 0] : Fin 2 → Nat) = fun _ => 0 := funext fun a => by fin_cases a <;> rfl

/-- How the seven windows move over the 25 grid points, found by evaluation: windows 0 and 1 sit at the output's
    row block, windows 2 to 5 never leave block (0, 0), every column block is 0, and the output's row block is
    at most 24. -/
theorem idx_facts : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0
    ∧ win1_6.index t (0 : Fin 2) ≤ 24 :=
  (by decide +kernel : ∀ t : Fin grid1.N, _)

/-- Each of the 25 row blocks is the output's block at one grid point at least. -/
theorem idx_onto : ∀ q : Fin 25, ∃ t : Fin cfg1.N, win1_6.index t = ![q.val, 0] :=
  (by decide +kernel : ∀ q : Fin 25, ∃ t : Fin grid1.N, win1_6.index t = ![q.val, 0])

/-- A window's block at a point, at a block index, is the array at the index the block's view sends it to. -/
theorem iblk_0 (V : (c : Dev nD) → (b : Ref sig .tc) → Buf (Elt F) ((c : Thread nD τ).loc b)) (c : Dev nD) (t : Fin cfg1.N) (y : S2000x256.Idx) :
    iblk1 V c 0 t y = V c (Pipeline.arrRef spec1 0) (((cfg1.win 0).blk t).view.emb y) := by
  unfold iblk1; rfl
theorem iblk_1 (V : (c : Dev nD) → (b : Ref sig .tc) → Buf (Elt F) ((c : Thread nD τ).loc b)) (c : Dev nD) (t : Fin cfg1.N) (y : S2000x256.Idx) :
    iblk1 V c 1 t y = V c (Pipeline.arrRef spec1 1) (((cfg1.win 1).blk t).view.emb y) := by
  unfold iblk1; rfl
theorem iblk_2 (V : (c : Dev nD) → (b : Ref sig .tc) → Buf (Elt F) ((c : Thread nD τ).loc b)) (c : Dev nD) (t : Fin cfg1.N) (y : S1x256.Idx) :
    iblk1 V c 2 t y = V c (Pipeline.arrRef spec1 2) (((cfg1.win 2).blk t).view.emb y) := by
  unfold iblk1; rfl
theorem iblk_3 (V : (c : Dev nD) → (b : Ref sig .tc) → Buf (Elt F) ((c : Thread nD τ).loc b)) (c : Dev nD) (t : Fin cfg1.N) (y : S1x256.Idx) :
    iblk1 V c 3 t y = V c (Pipeline.arrRef spec1 3) (((cfg1.win 3).blk t).view.emb y) := by
  unfold iblk1; rfl
theorem iblk_4 (V : (c : Dev nD) → (b : Ref sig .tc) → Buf (Elt F) ((c : Thread nD τ).loc b)) (c : Dev nD) (t : Fin cfg1.N) (y : S1x256.Idx) :
    iblk1 V c 4 t y = V c (Pipeline.arrRef spec1 4) (((cfg1.win 4).blk t).view.emb y) := by
  unfold iblk1; rfl
theorem iblk_5 (V : (c : Dev nD) → (b : Ref sig .tc) → Buf (Elt F) ((c : Thread nD τ).loc b)) (c : Dev nD) (t : Fin cfg1.N) (y : S1x256.Idx) :
    iblk1 V c 5 t y = V c (Pipeline.arrRef spec1 5) (((cfg1.win 5).blk t).view.emb y) := by
  unfold iblk1; rfl

/-- Output window 6's block view reads an array, at a block index, at the index the view sends it to. -/
theorem read_6 (G : S50000x256.Idx → Elt F .f32) (t : Fin cfg1.N) (y : S2000x256.Idx) :
    ((cfg1.win 6).blk t).view.read (Elt F) G y = G (((cfg1.win 6).blk t).view.emb y) := rfl

/-- `bn` at an index, from the six values it reads there. -/
theorem bn_of_eq (a res : S50000x256.Idx → Elt F .f32) (g be mu va : S1x256.Idx → Elt F .f32) (i : S50000x256.Idx)
    (xa xres xg xbe xmu xva : F .f32)
    (ha : xa = a i) (hres : xres = res i) (hg : xg = g (row0 i)) (hbe : xbe = be (row0 i)) (hmu : xmu = mu (row0 i)) (hva : xva = va (row0 i)) :
    FloatOps.addf (FloatOps.maximumf (FloatOps.addf (FloatOps.mulf (FloatOps.mulf xg (FloatOps.subf xa xmu)) (FloatOps.rsqrt (FloatOps.addf xva (Scalar.ofBits .f32 0x3727C5AC#32)))) xbe) (Scalar.ofBits .f32 0x00000000#32)) xres
      = bn a res g be mu va i := by
  subst ha hres hg hbe hmu hva; rfl

/-- Where the blocks sit: a full-size input's block index goes where the output block's does (a block's
    coordinate is its block index times the block size plus the coordinate inside the block), -/
theorem emb_0 (t : Fin cfg1.N) (j : S2000x256.Idx) :
    ((cfg1.win 0).blk t).view.emb j = ((cfg1.win 6).blk t).view.emb j := by
  obtain ⟨e0, e1, e2, e3, e4, e5, e6, e7, e8, e9, e10, e11, e12, e13⟩ := idx_facts t
  funext a; apply Fin.ext
  match a with
  | ⟨0, _⟩ => show win1_0.index t (0 : Fin 2) * 2000 + 1 * (j 0).val = win1_6.index t (0 : Fin 2) * 2000 + 1 * (j 0).val; omega
  | ⟨1, _⟩ => show win1_0.index t (1 : Fin 2) * 256 + 1 * (j 1).val = win1_6.index t (1 : Fin 2) * 256 + 1 * (j 1).val; omega
theorem emb_1 (t : Fin cfg1.N) (j : S2000x256.Idx) :
    ((cfg1.win 1).blk t).view.emb j = ((cfg1.win 6).blk t).view.emb j := by
  obtain ⟨e0, e1, e2, e3, e4, e5, e6, e7, e8, e9, e10, e11, e12, e13⟩ := idx_facts t
  funext a; apply Fin.ext
  match a with
  | ⟨0, _⟩ => show win1_1.index t (0 : Fin 2) * 2000 + 1 * (j 0).val = win1_6.index t (0 : Fin 2) * 2000 + 1 * (j 0).val; omega
  | ⟨1, _⟩ => show win1_1.index t (1 : Fin 2) * 256 + 1 * (j 1).val = win1_6.index t (1 : Fin 2) * 256 + 1 * (j 1).val; omega
/-- and a row input's block index at row 0 goes to row 0 of the array at the same column. -/
theorem emb_2 (t : Fin cfg1.N) (j : S2000x256.Idx) :
    ((cfg1.win 2).blk t).view.emb (r0 j) = row0 (((cfg1.win 6).blk t).view.emb j) := by
  obtain ⟨e0, e1, e2, e3, e4, e5, e6, e7, e8, e9, e10, e11, e12, e13⟩ := idx_facts t
  funext a; apply Fin.ext
  match a with
  | ⟨0, _⟩ => show win1_2.index t (0 : Fin 2) * 1 + 1 * 0 = 0; omega
  | ⟨1, _⟩ => show win1_2.index t (1 : Fin 2) * 256 + 1 * (j 1).val = win1_6.index t (1 : Fin 2) * 256 + 1 * (j 1).val; omega
theorem emb_3 (t : Fin cfg1.N) (j : S2000x256.Idx) :
    ((cfg1.win 3).blk t).view.emb (r0 j) = row0 (((cfg1.win 6).blk t).view.emb j) := by
  obtain ⟨e0, e1, e2, e3, e4, e5, e6, e7, e8, e9, e10, e11, e12, e13⟩ := idx_facts t
  funext a; apply Fin.ext
  match a with
  | ⟨0, _⟩ => show win1_3.index t (0 : Fin 2) * 1 + 1 * 0 = 0; omega
  | ⟨1, _⟩ => show win1_3.index t (1 : Fin 2) * 256 + 1 * (j 1).val = win1_6.index t (1 : Fin 2) * 256 + 1 * (j 1).val; omega
theorem emb_4 (t : Fin cfg1.N) (j : S2000x256.Idx) :
    ((cfg1.win 4).blk t).view.emb (r0 j) = row0 (((cfg1.win 6).blk t).view.emb j) := by
  obtain ⟨e0, e1, e2, e3, e4, e5, e6, e7, e8, e9, e10, e11, e12, e13⟩ := idx_facts t
  funext a; apply Fin.ext
  match a with
  | ⟨0, _⟩ => show win1_4.index t (0 : Fin 2) * 1 + 1 * 0 = 0; omega
  | ⟨1, _⟩ => show win1_4.index t (1 : Fin 2) * 256 + 1 * (j 1).val = win1_6.index t (1 : Fin 2) * 256 + 1 * (j 1).val; omega
theorem emb_5 (t : Fin cfg1.N) (j : S2000x256.Idx) :
    ((cfg1.win 5).blk t).view.emb (r0 j) = row0 (((cfg1.win 6).blk t).view.emb j) := by
  obtain ⟨e0, e1, e2, e3, e4, e5, e6, e7, e8, e9, e10, e11, e12, e13⟩ := idx_facts t
  funext a; apply Fin.ext
  match a with
  | ⟨0, _⟩ => show win1_5.index t (0 : Fin 2) * 1 + 1 * 0 = 0; omega
  | ⟨1, _⟩ => show win1_5.index t (1 : Fin 2) * 256 + 1 * (j 1).val = win1_6.index t (1 : Fin 2) * 256 + 1 * (j 1).val; omega

set_option maxHeartbeats 1000000 in
/-- The output buffer written back at grid point `t` equals `bn` of the six arrays (as held on entry) restricted
    to the output's block at `t`: inputs 0 and 1 are read at the very same array index, inputs 2 to 5 at row 0 of
    the same column. -/
theorem flushed_eq (V : (c : Dev nD) → (b : Ref sig .tc) → Buf (Elt F) ((c : Thread nD τ).loc b)) (c : Dev nD) (t : Fin cfg1.N) :
    (dat1 V c).flushed 6 t = ((cfg1.win 6).blk t).view.read (Elt F) (bn (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S2000x256) hz, View.ld_unit_zero (S := S1x256) hz]
  funext j
  refine (pay_apply (x0 := iblk1 V c 0 t) (x23 := iblk1 V c 1 t) (x2 := iblk1 V c 2 t) (x4 := iblk1 V c 3 t) (x6 := iblk1 V c 4 t) (x8 := iblk1 V c 5 t) j).trans ?_
  refine Eq.trans ?_ (read_6 (bn (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) t j).symm
  exact bn_of_eq (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb j)
    (iblk1 V c 0 t j) (iblk1 V c 1 t j) (iblk1 V c 2 t (r0 j)) (iblk1 V c 3 t (r0 j)) (iblk1 V c 4 t (r0 j)) (iblk1 V c 5 t (r0 j))
    ((iblk_0 V c t j).trans (congrArg (V c (Pipeline.arrRef spec1 0)) (emb_0 t j))) ((iblk_1 V c t j).trans (congrArg (V c (Pipeline.arrRef spec1 1)) (emb_1 t j)))
    ((iblk_2 V c t (r0 j)).trans (congrArg (V c (Pipeline.arrRef spec1 2)) (emb_2 t j))) ((iblk_3 V c t (r0 j)).trans (congrArg (V c (Pipeline.arrRef spec1 3)) (emb_3 t j)))
    ((iblk_4 V c t (r0 j)).trans (congrArg (V c (Pipeline.arrRef spec1 4)) (emb_4 t j))) ((iblk_5 V c t (r0 j)).trans (congrArg (V c (Pipeline.arrRef spec1 5)) (emb_5 t j)))

/-- Membership in the output's block at grid point `t`, coordinate by coordinate: block index times block size
    ≤ coordinate < the same plus the block size. -/
theorem mem_blk (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v63).slice (win1_6.rect t)).set ↔ _
  rw [View.set_slice_whole, Rect.mem_set_unit]
  exact Iff.rfl

/-- The output's 25 row blocks fill the array: row `r` lies in the block of the point whose row block is `r / 2000`. -/
theorem cover (i : S50000x256.Idx) :
    ∃ t : Fin cfg1.N, (cfg1.win 6).flush t = true ∧ i ∈ ((cfg1.win 6).blk t).view.set := by
  have hi0 : (i 0).val < 50000 := (i 0).isLt
  have hi1 : (i 1).val < 256 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 256 ≤ (i 1).val ∧ (i 1).val < win1_6.index t (1 : Fin 2) * 256 + 256; omega

/-- After all 25 grid points the output array equals `bn` of the six input arrays held on entry, everywhere. -/
theorem final (V : (c : Dev nD) → (b : Ref sig .tc) → Buf (Elt F) ((c : Thread nD τ).loc b)) (c : Dev nD) :
    (dat1 (F := F) V c).arrAt 6 cfg1.N = bn (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 _ (fun t _ => flushed_eq V c t) cover

end Cert.KernelIdeal.Bn1

end
-- ==== Proof.Bn3.lean ====
import proofs.«177529_j48498770706497_1_alg».proof.Proof.Gen.KernelIdeal.Frame
import Idealize.ShloMosaic.Lib.Pipeline.Value
import proofs.«177529_j48498770706497_1_alg».proof.Proof.Bn1

/-! # Region 3: the array its normalisation leaves

The region walks the 50000 rows of its two full-size operands (the layer's aggregate and the residual) in 25 blocks
of 2000 rows; at every block it holds the four [1, 256] row vectors whole (scale, shift, column means, column
variances). Its body is pointwise: at row r and column j it writes
scale j · (aggregate r j − mean j) · (variance j + ε)^(−1/2) + shift j, clipped below at zero, plus residual r j.
So each block written back is the matching block of that whole-array function of the six arrays as the region
finds them, and the 25 blocks cover the array. The body uses no property of the float family, so the statement is
generic in it. -/

set_option maxRecDepth 16384

noncomputable section

namespace Cert.KernelIdeal.Bn3

open Cert.KernelIdeal Cert.KernelIdeal.Gen Idealize.ShloMosaic Idealize.ShloMosaic.TcCoe Idealize.SL.Sem
open Idealize.ShloMosaic.Pipeline (Dat)
open Cert.KernelIdeal.Bn1 (row0 bn r0 bcast_apply bn_of_eq hz)

variable {F : FTy → Type} [FloatOps F]

/-- The body's payload at a block index: normalise by the row statistics, scale and shift, clamp below at
    zero, add the residual. -/
theorem pay_apply (x0 x23 : Vec F S2000x256 .f32) (x2 x4 x6 x8 : Vec F S1x256 .f32) (j : S2000x256.Idx) :
    k3_pay1 x0 x2 x4 x6 x8 x23 j
      = FloatOps.addf (FloatOps.maximumf (FloatOps.addf (FloatOps.mulf (FloatOps.mulf (x2 (r0 j)) (FloatOps.subf (x0 j) (x6 (r0 j)))) (FloatOps.rsqrt (FloatOps.addf (x8 (r0 j)) (Scalar.ofBits .f32 0x3727C5AC#32)))) (x4 (r0 j))) (Scalar.ofBits .f32 0x00000000#32)) (x23 j) := by
  unfold k3_pay1
  simp only [shapeCast_self]
  simp only [addf, subf, mulf, maximumf, rsqrt, broadcast, bcast_apply]

/-- How the seven windows move over the 25 grid points, found by evaluation: windows 0 and 1 sit at the output's
    row block, windows 2 to 5 never leave block (0, 0), every column block is 0, and the output's row block is
    at most 24. -/
theorem idx_facts : ∀ t : Fin cfg3.N, win3_0.index t (0 : Fin 2) = win3_6.index t (0 : Fin 2)
    ∧ win3_0.index t (1 : Fin 2) = 0
    ∧ win3_1.index t (0 : Fin 2) = win3_6.index t (0 : Fin 2)
    ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (1 : Fin 2) = 0
    ∧ win3_6.index t (0 : Fin 2) ≤ 24 :=
  (by decide +kernel : ∀ t : Fin grid3.N, _)

/-- Each of the 25 row blocks is the output's block at one grid point at least. -/
theorem idx_onto : ∀ q : Fin 25, ∃ t : Fin cfg3.N, win3_6.index t = ![q.val, 0] :=
  (by decide +kernel : ∀ q : Fin 25, ∃ t : Fin grid3.N, win3_6.index t = ![q.val, 0])

/-- A window's block at a point, at a block index, is the array at the index the block's view sends it to. -/
theorem iblk_0 (V : (c : Dev nD) → (b : Ref sig .tc) → Buf (Elt F) ((c : Thread nD τ).loc b)) (c : Dev nD) (t : Fin cfg3.N) (y : S2000x256.Idx) :
    iblk3 V c 0 t y = V c (Pipeline.arrRef spec3 0) (((cfg3.win 0).blk t).view.emb y) := by
  unfold iblk3; rfl
theorem iblk_1 (V : (c : Dev nD) → (b : Ref sig .tc) → Buf (Elt F) ((c : Thread nD τ).loc b)) (c : Dev nD) (t : Fin cfg3.N) (y : S2000x256.Idx) :
    iblk3 V c 1 t y = V c (Pipeline.arrRef spec3 1) (((cfg3.win 1).blk t).view.emb y) := by
  unfold iblk3; rfl
theorem iblk_2 (V : (c : Dev nD) → (b : Ref sig .tc) → Buf (Elt F) ((c : Thread nD τ).loc b)) (c : Dev nD) (t : Fin cfg3.N) (y : S1x256.Idx) :
    iblk3 V c 2 t y = V c (Pipeline.arrRef spec3 2) (((cfg3.win 2).blk t).view.emb y) := by
  unfold iblk3; rfl
theorem iblk_3 (V : (c : Dev nD) → (b : Ref sig .tc) → Buf (Elt F) ((c : Thread nD τ).loc b)) (c : Dev nD) (t : Fin cfg3.N) (y : S1x256.Idx) :
    iblk3 V c 3 t y = V c (Pipeline.arrRef spec3 3) (((cfg3.win 3).blk t).view.emb y) := by
  unfold iblk3; rfl
theorem iblk_4 (V : (c : Dev nD) → (b : Ref sig .tc) → Buf (Elt F) ((c : Thread nD τ).loc b)) (c : Dev nD) (t : Fin cfg3.N) (y : S1x256.Idx) :
    iblk3 V c 4 t y = V c (Pipeline.arrRef spec3 4) (((cfg3.win 4).blk t).view.emb y) := by
  unfold iblk3; rfl
theorem iblk_5 (V : (c : Dev nD) → (b : Ref sig .tc) → Buf (Elt F) ((c : Thread nD τ).loc b)) (c : Dev nD) (t : Fin cfg3.N) (y : S1x256.Idx) :
    iblk3 V c 5 t y = V c (Pipeline.arrRef spec3 5) (((cfg3.win 5).blk t).view.emb y) := by
  unfold iblk3; rfl

/-- Output window 6's block view reads an array, at a block index, at the index the view sends it to. -/
theorem read_6 (G : S50000x256.Idx → Elt F .f32) (t : Fin cfg3.N) (y : S2000x256.Idx) :
    ((cfg3.win 6).blk t).view.read (Elt F) G y = G (((cfg3.win 6).blk t).view.emb y) := rfl

/-- Where the blocks sit: a full-size input's block index goes where the output block's does (a block's
    coordinate is its block index times the block size plus the coordinate inside the block), -/
theorem emb_0 (t : Fin cfg3.N) (j : S2000x256.Idx) :
    ((cfg3.win 0).blk t).view.emb j = ((cfg3.win 6).blk t).view.emb j := by
  obtain ⟨e0, e1, e2, e3, e4, e5, e6, e7, e8, e9, e10, e11, e12, e13⟩ := idx_facts t
  funext a; apply Fin.ext
  match a with
  | ⟨0, _⟩ => show win3_0.index t (0 : Fin 2) * 2000 + 1 * (j 0).val = win3_6.index t (0 : Fin 2) * 2000 + 1 * (j 0).val; omega
  | ⟨1, _⟩ => show win3_0.index t (1 : Fin 2) * 256 + 1 * (j 1).val = win3_6.index t (1 : Fin 2) * 256 + 1 * (j 1).val; omega
theorem emb_1 (t : Fin cfg3.N) (j : S2000x256.Idx) :
    ((cfg3.win 1).blk t).view.emb j = ((cfg3.win 6).blk t).view.emb j := by
  obtain ⟨e0, e1, e2, e3, e4, e5, e6, e7, e8, e9, e10, e11, e12, e13⟩ := idx_facts t
  funext a; apply Fin.ext
  match a with
  | ⟨0, _⟩ => show win3_1.index t (0 : Fin 2) * 2000 + 1 * (j 0).val = win3_6.index t (0 : Fin 2) * 2000 + 1 * (j 0).val; omega
  | ⟨1, _⟩ => show win3_1.index t (1 : Fin 2) * 256 + 1 * (j 1).val = win3_6.index t (1 : Fin 2) * 256 + 1 * (j 1).val; omega
/-- and a row input's block index at row 0 goes to row 0 of the array at the same column. -/
theorem emb_2 (t : Fin cfg3.N) (j : S2000x256.Idx) :
    ((cfg3.win 2).blk t).view.emb (r0 j) = row0 (((cfg3.win 6).blk t).view.emb j) := by
  obtain ⟨e0, e1, e2, e3, e4, e5, e6, e7, e8, e9, e10, e11, e12, e13⟩ := idx_facts t
  funext a; apply Fin.ext
  match a with
  | ⟨0, _⟩ => show win3_2.index t (0 : Fin 2) * 1 + 1 * 0 = 0; omega
  | ⟨1, _⟩ => show win3_2.index t (1 : Fin 2) * 256 + 1 * (j 1).val = win3_6.index t (1 : Fin 2) * 256 + 1 * (j 1).val; omega
theorem emb_3 (t : Fin cfg3.N) (j : S2000x256.Idx) :
    ((cfg3.win 3).blk t).view.emb (r0 j) = row0 (((cfg3.win 6).blk t).view.emb j) := by
  obtain ⟨e0, e1, e2, e3, e4, e5, e6, e7, e8, e9, e10, e11, e12, e13⟩ := idx_facts t
  funext a; apply Fin.ext
  match a with
  | ⟨0, _⟩ => show win3_3.index t (0 : Fin 2) * 1 + 1 * 0 = 0; omega
  | ⟨1, _⟩ => show win3_3.index t (1 : Fin 2) * 256 + 1 * (j 1).val = win3_6.index t (1 : Fin 2) * 256 + 1 * (j 1).val; omega
theorem emb_4 (t : Fin cfg3.N) (j : S2000x256.Idx) :
    ((cfg3.win 4).blk t).view.emb (r0 j) = row0 (((cfg3.win 6).blk t).view.emb j) := by
  obtain ⟨e0, e1, e2, e3, e4, e5, e6, e7, e8, e9, e10, e11, e12, e13⟩ := idx_facts t
  funext a; apply Fin.ext
  match a with
  | ⟨0, _⟩ => show win3_4.index t (0 : Fin 2) * 1 + 1 * 0 = 0; omega
  | ⟨1, _⟩ => show win3_4.index t (1 : Fin 2) * 256 + 1 * (j 1).val = win3_6.index t (1 : Fin 2) * 256 + 1 * (j 1).val; omega
theorem emb_5 (t : Fin cfg3.N) (j : S2000x256.Idx) :
    ((cfg3.win 5).blk t).view.emb (r0 j) = row0 (((cfg3.win 6).blk t).view.emb j) := by
  obtain ⟨e0, e1, e2, e3, e4, e5, e6, e7, e8, e9, e10, e11, e12, e13⟩ := idx_facts t
  funext a; apply Fin.ext
  match a with
  | ⟨0, _⟩ => show win3_5.index t (0 : Fin 2) * 1 + 1 * 0 = 0; omega
  | ⟨1, _⟩ => show win3_5.index t (1 : Fin 2) * 256 + 1 * (j 1).val = win3_6.index t (1 : Fin 2) * 256 + 1 * (j 1).val; omega

set_option maxHeartbeats 1000000 in
/-- The output buffer written back at grid point `t` equals `bn` of the six arrays (as held on entry) restricted
    to the output's block at `t`: inputs 0 and 1 are read at the very same array index, inputs 2 to 5 at row 0 of
    the same column. -/
theorem flushed_eq (V : (c : Dev nD) → (b : Ref sig .tc) → Buf (Elt F) ((c : Thread nD τ).loc b)) (c : Dev nD) (t : Fin cfg3.N) :
    (dat3 V c).flushed 6 t = ((cfg3.win 6).blk t).view.read (Elt F) (bn (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero hz]
  simp only [View.ld_unit_zero (S := S2000x256) hz, View.ld_unit_zero (S := S1x256) hz]
  funext j
  refine (pay_apply (x0 := iblk3 V c 0 t) (x23 := iblk3 V c 1 t) (x2 := iblk3 V c 2 t) (x4 := iblk3 V c 3 t) (x6 := iblk3 V c 4 t) (x8 := iblk3 V c 5 t) j).trans ?_
  refine Eq.trans ?_ (read_6 (bn (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) t j).symm
  exact bn_of_eq (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (((cfg3.win 6).blk t).view.emb j)
    (iblk3 V c 0 t j) (iblk3 V c 1 t j) (iblk3 V c 2 t (r0 j)) (iblk3 V c 3 t (r0 j)) (iblk3 V c 4 t (r0 j)) (iblk3 V c 5 t (r0 j))
    ((iblk_0 V c t j).trans (congrArg (V c (Pipeline.arrRef spec3 0)) (emb_0 t j))) ((iblk_1 V c t j).trans (congrArg (V c (Pipeline.arrRef spec3 1)) (emb_1 t j)))
    ((iblk_2 V c t (r0 j)).trans (congrArg (V c (Pipeline.arrRef spec3 2)) (emb_2 t j))) ((iblk_3 V c t (r0 j)).trans (congrArg (V c (Pipeline.arrRef spec3 3)) (emb_3 t j)))
    ((iblk_4 V c t (r0 j)).trans (congrArg (V c (Pipeline.arrRef spec3 4)) (emb_4 t j))) ((iblk_5 V c t (r0 j)).trans (congrArg (V c (Pipeline.arrRef spec3 5)) (emb_5 t j)))

/-- Membership in the output's block at grid point `t`, coordinate by coordinate: block index times block size
    ≤ coordinate < the same plus the block size. -/
theorem mem_blk (t : Fin cfg3.N) (i : S50000x256.Idx) :
    i ∈ ((cfg3.win 6).blk t).view.set ↔ ∀ a : Fin 2, win3_6.index t a * S2000x256.size a ≤ (i a).val ∧ (i a).val < win3_6.index t a * S2000x256.size a + S2000x256.size a := by
  show i ∈ ((View.whole main_v99).slice (win3_6.rect t)).set ↔ _
  rw [View.set_slice_whole, Rect.mem_set_unit]
  exact Iff.rfl

/-- The output's 25 row blocks fill the array: row `r` lies in the block of the point whose row block is `r / 2000`. -/
theorem cover (i : S50000x256.Idx) :
    ∃ t : Fin cfg3.N, (cfg3.win 6).flush t = true ∧ i ∈ ((cfg3.win 6).blk t).view.set := by
  have hi0 : (i 0).val < 50000 := (i 0).isLt
  have hi1 : (i 1).val < 256 := (i 1).isLt
  obtain ⟨t, ht⟩ := idx_onto ⟨(i 0).val / 2000, by omega⟩
  have q0 : win3_6.index t (0 : Fin 2) = (i 0).val / 2000 := congrFun ht 0
  have q1 : win3_6.index t (1 : Fin 2) = 0 := congrFun ht 1
  refine ⟨t, flush3_6 t, ?_⟩
  rw [mem_blk]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 256 ≤ (i 1).val ∧ (i 1).val < win3_6.index t (1 : Fin 2) * 256 + 256; omega

/-- After all 25 grid points the output array equals `bn` of the six input arrays held on entry, everywhere. -/
theorem final (V : (c : Dev nD) → (b : Ref sig .tc) → Buf (Elt F) ((c : Thread nD τ).loc b)) (c : Dev nD) :
    (dat3 (F := F) V c).arrAt 6 cfg3.N = bn (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (dat3 V c).arrAt_eq_of_cover 6 _ (fun t _ => flushed_eq V c t) cover

end Cert.KernelIdeal.Bn3

end
-- ==== Proof.Bn5.lean ====
import proofs.«177529_j48498770706497_1_alg».proof.Proof.Gen.KernelIdeal.Frame
import Idealize.ShloMosaic.Lib.Pipeline.Value
import proofs.«177529_j48498770706497_1_alg».proof.Proof.Bn1

/-! # Region 5: the array its normalisation leaves

The region walks the 50000 rows of its two full-size operands (the layer's aggregate and the residual) in 25 blocks
of 2000 rows; at every block it holds the four [1, 256] row vectors whole (scale, shift, column means, column
variances). Its body is pointwise: at row r and column j it writes
scale j · (aggregate r j − mean j) · (variance j + ε)^(−1/2) + shift j, clipped below at zero, plus residual r j.
So each block written back is the matching block of that whole-array function of the six arrays as the region
finds them, and the 25 blocks cover the array. The body uses no property of the float family, so the statement is
generic in it. -/

set_option maxRecDepth 16384

noncomputable section

namespace Cert.KernelIdeal.Bn5

open Cert.KernelIdeal Cert.KernelIdeal.Gen Idealize.ShloMosaic Idealize.ShloMosaic.TcCoe Idealize.SL.Sem
open Idealize.ShloMosaic.Pipeline (Dat)
open Cert.KernelIdeal.Bn1 (row0 bn r0 bcast_apply bn_of_eq hz)

variable {F : FTy → Type} [FloatOps F]

/-- The body's payload at a block index: normalise by the row statistics, scale and shift, clamp below at
    zero, add the residual. -/
theorem pay_apply (x0 x23 : Vec F S2000x256 .f32) (x2 x4 x6 x8 : Vec F S1x256 .f32) (j : S2000x256.Idx) :
    k5_pay1 x0 x2 x4 x6 x8 x23 j
      = FloatOps.addf (FloatOps.maximumf (FloatOps.addf (FloatOps.mulf (FloatOps.mulf (x2 (r0 j)) (FloatOps.subf (x0 j) (x6 (r0 j)))) (FloatOps.rsqrt (FloatOps.addf (x8 (r0 j)) (Scalar.ofBits .f32 0x3727C5AC#32)))) (x4 (r0 j))) (Scalar.ofBits .f32 0x00000000#32)) (x23 j) := by
  unfold k5_pay1
  simp only [shapeCast_self]
  simp only [addf, subf, mulf, maximumf, rsqrt, broadcast, bcast_apply]

/-- How the seven windows move over the 25 grid points, found by evaluation: windows 0 and 1 sit at the output's
    row block, windows 2 to 5 never leave block (0, 0), every column block is 0, and the output's row block is
    at most 24. -/
theorem idx_facts : ∀ t : Fin cfg5.N, win5_0.index t (0 : Fin 2) = win5_6.index t (0 : Fin 2)
    ∧ win5_0.index t (1 : Fin 2) = 0
    ∧ win5_1.index t (0 : Fin 2) = win5_6.index t (0 : Fin 2)
    ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (1 : Fin 2) = 0
    ∧ win5_6.index t (0 : Fin 2) ≤ 24 :=
  (by decide +kernel : ∀ t : Fin grid5.N, _)

/-- Each of the 25 row blocks is the output's block at one grid point at least. -/
theorem idx_onto : ∀ q : Fin 25, ∃ t : Fin cfg5.N, win5_6.index t = ![q.val, 0] :=
  (by decide +kernel : ∀ q : Fin 25, ∃ t : Fin grid5.N, win5_6.index t = ![q.val, 0])

/-- A window's block at a point, at a block index, is the array at the index the block's view sends it to. -/
theorem iblk_0 (V : (c : Dev nD) → (b : Ref sig .tc) → Buf (Elt F) ((c : Thread nD τ).loc b)) (c : Dev nD) (t : Fin cfg5.N) (y : S2000x256.Idx) :
    iblk5 V c 0 t y = V c (Pipeline.arrRef spec5 0) (((cfg5.win 0).blk t).view.emb y) := by
  unfold iblk5; rfl
theorem iblk_1 (V : (c : Dev nD) → (b : Ref sig .tc) → Buf (Elt F) ((c : Thread nD τ).loc b)) (c : Dev nD) (t : Fin cfg5.N) (y : S2000x256.Idx) :
    iblk5 V c 1 t y = V c (Pipeline.arrRef spec5 1) (((cfg5.win 1).blk t).view.emb y) := by
  unfold iblk5; rfl
theorem iblk_2 (V : (c : Dev nD) → (b : Ref sig .tc) → Buf (Elt F) ((c : Thread nD τ).loc b)) (c : Dev nD) (t : Fin cfg5.N) (y : S1x256.Idx) :
    iblk5 V c 2 t y = V c (Pipeline.arrRef spec5 2) (((cfg5.win 2).blk t).view.emb y) := by
  unfold iblk5; rfl
theorem iblk_3 (V : (c : Dev nD) → (b : Ref sig .tc) → Buf (Elt F) ((c : Thread nD τ).loc b)) (c : Dev nD) (t : Fin cfg5.N) (y : S1x256.Idx) :
    iblk5 V c 3 t y = V c (Pipeline.arrRef spec5 3) (((cfg5.win 3).blk t).view.emb y) := by
  unfold iblk5; rfl
theorem iblk_4 (V : (c : Dev nD) → (b : Ref sig .tc) → Buf (Elt F) ((c : Thread nD τ).loc b)) (c : Dev nD) (t : Fin cfg5.N) (y : S1x256.Idx) :
    iblk5 V c 4 t y = V c (Pipeline.arrRef spec5 4) (((cfg5.win 4).blk t).view.emb y) := by
  unfold iblk5; rfl
theorem iblk_5 (V : (c : Dev nD) → (b : Ref sig .tc) → Buf (Elt F) ((c : Thread nD τ).loc b)) (c : Dev nD) (t : Fin cfg5.N) (y : S1x256.Idx) :
    iblk5 V c 5 t y = V c (Pipeline.arrRef spec5 5) (((cfg5.win 5).blk t).view.emb y) := by
  unfold iblk5; rfl

/-- Output window 6's block view reads an array, at a block index, at the index the view sends it to. -/
theorem read_6 (G : S50000x256.Idx → Elt F .f32) (t : Fin cfg5.N) (y : S2000x256.Idx) :
    ((cfg5.win 6).blk t).view.read (Elt F) G y = G (((cfg5.win 6).blk t).view.emb y) := rfl

/-- Where the blocks sit: a full-size input's block index goes where the output block's does (a block's
    coordinate is its block index times the block size plus the coordinate inside the block), -/
theorem emb_0 (t : Fin cfg5.N) (j : S2000x256.Idx) :
    ((cfg5.win 0).blk t).view.emb j = ((cfg5.win 6).blk t).view.emb j := by
  obtain ⟨e0, e1, e2, e3, e4, e5, e6, e7, e8, e9, e10, e11, e12, e13⟩ := idx_facts t
  funext a; apply Fin.ext
  match a with
  | ⟨0, _⟩ => show win5_0.index t (0 : Fin 2) * 2000 + 1 * (j 0).val = win5_6.index t (0 : Fin 2) * 2000 + 1 * (j 0).val; omega
  | ⟨1, _⟩ => show win5_0.index t (1 : Fin 2) * 256 + 1 * (j 1).val = win5_6.index t (1 : Fin 2) * 256 + 1 * (j 1).val; omega
theorem emb_1 (t : Fin cfg5.N) (j : S2000x256.Idx) :
    ((cfg5.win 1).blk t).view.emb j = ((cfg5.win 6).blk t).view.emb j := by
  obtain ⟨e0, e1, e2, e3, e4, e5, e6, e7, e8, e9, e10, e11, e12, e13⟩ := idx_facts t
  funext a; apply Fin.ext
  match a with
  | ⟨0, _⟩ => show win5_1.index t (0 : Fin 2) * 2000 + 1 * (j 0).val = win5_6.index t (0 : Fin 2) * 2000 + 1 * (j 0).val; omega
  | ⟨1, _⟩ => show win5_1.index t (1 : Fin 2) * 256 + 1 * (j 1).val = win5_6.index t (1 : Fin 2) * 256 + 1 * (j 1).val; omega
/-- and a row input's block index at row 0 goes to row 0 of the array at the same column. -/
theorem emb_2 (t : Fin cfg5.N) (j : S2000x256.Idx) :
    ((cfg5.win 2).blk t).view.emb (r0 j) = row0 (((cfg5.win 6).blk t).view.emb j) := by
  obtain ⟨e0, e1, e2, e3, e4, e5, e6, e7, e8, e9, e10, e11, e12, e13⟩ := idx_facts t
  funext a; apply Fin.ext
  match a with
  | ⟨0, _⟩ => show win5_2.index t (0 : Fin 2) * 1 + 1 * 0 = 0; omega
  | ⟨1, _⟩ => show win5_2.index t (1 : Fin 2) * 256 + 1 * (j 1).val = win5_6.index t (1 : Fin 2) * 256 + 1 * (j 1).val; omega
theorem emb_3 (t : Fin cfg5.N) (j : S2000x256.Idx) :
    ((cfg5.win 3).blk t).view.emb (r0 j) = row0 (((cfg5.win 6).blk t).view.emb j) := by
  obtain ⟨e0, e1, e2, e3, e4, e5, e6, e7, e8, e9, e10, e11, e12, e13⟩ := idx_facts t
  funext a; apply Fin.ext
  match a with
  | ⟨0, _⟩ => show win5_3.index t (0 : Fin 2) * 1 + 1 * 0 = 0; omega
  | ⟨1, _⟩ => show win5_3.index t (1 : Fin 2) * 256 + 1 * (j 1).val = win5_6.index t (1 : Fin 2) * 256 + 1 * (j 1).val; omega
theorem emb_4 (t : Fin cfg5.N) (j : S2000x256.Idx) :
    ((cfg5.win 4).blk t).view.emb (r0 j) = row0 (((cfg5.win 6).blk t).view.emb j) := by
  obtain ⟨e0, e1, e2, e3, e4, e5, e6, e7, e8, e9, e10, e11, e12, e13⟩ := idx_facts t
  funext a; apply Fin.ext
  match a with
  | ⟨0, _⟩ => show win5_4.index t (0 : Fin 2) * 1 + 1 * 0 = 0; omega
  | ⟨1, _⟩ => show win5_4.index t (1 : Fin 2) * 256 + 1 * (j 1).val = win5_6.index t (1 : Fin 2) * 256 + 1 * (j 1).val; omega
theorem emb_5 (t : Fin cfg5.N) (j : S2000x256.Idx) :
    ((cfg5.win 5).blk t).view.emb (r0 j) = row0 (((cfg5.win 6).blk t).view.emb j) := by
  obtain ⟨e0, e1, e2, e3, e4, e5, e6, e7, e8, e9, e10, e11, e12, e13⟩ := idx_facts t
  funext a; apply Fin.ext
  match a with
  | ⟨0, _⟩ => show win5_5.index t (0 : Fin 2) * 1 + 1 * 0 = 0; omega
  | ⟨1, _⟩ => show win5_5.index t (1 : Fin 2) * 256 + 1 * (j 1).val = win5_6.index t (1 : Fin 2) * 256 + 1 * (j 1).val; omega

set_option maxHeartbeats 1000000 in
/-- The output buffer written back at grid point `t` equals `bn` of the six arrays (as held on entry) restricted
    to the output's block at `t`: inputs 0 and 1 are read at the very same array index, inputs 2 to 5 at row 0 of
    the same column. -/
theorem flushed_eq (V : (c : Dev nD) → (b : Ref sig .tc) → Buf (Elt F) ((c : Thread nD τ).loc b)) (c : Dev nD) (t : Fin cfg5.N) :
    (dat5 V c).flushed 6 t = ((cfg5.win 6).blk t).view.read (Elt F) (bn (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  show (cfg5.win 6).cut (grid5.coords t) ((dat5 V c).after 6 t) = _
  rw [after5_6]
  unfold out5_6
  rw [View.canon_unit_zero hz]
  simp only [View.ld_unit_zero (S := S2000x256) hz, View.ld_unit_zero (S := S1x256) hz]
  funext j
  refine (pay_apply (x0 := iblk5 V c 0 t) (x23 := iblk5 V c 1 t) (x2 := iblk5 V c 2 t) (x4 := iblk5 V c 3 t) (x6 := iblk5 V c 4 t) (x8 := iblk5 V c 5 t) j).trans ?_
  refine Eq.trans ?_ (read_6 (bn (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) t j).symm
  exact bn_of_eq (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (((cfg5.win 6).blk t).view.emb j)
    (iblk5 V c 0 t j) (iblk5 V c 1 t j) (iblk5 V c 2 t (r0 j)) (iblk5 V c 3 t (r0 j)) (iblk5 V c 4 t (r0 j)) (iblk5 V c 5 t (r0 j))
    ((iblk_0 V c t j).trans (congrArg (V c (Pipeline.arrRef spec5 0)) (emb_0 t j))) ((iblk_1 V c t j).trans (congrArg (V c (Pipeline.arrRef spec5 1)) (emb_1 t j)))
    ((iblk_2 V c t (r0 j)).trans (congrArg (V c (Pipeline.arrRef spec5 2)) (emb_2 t j))) ((iblk_3 V c t (r0 j)).trans (congrArg (V c (Pipeline.arrRef spec5 3)) (emb_3 t j)))
    ((iblk_4 V c t (r0 j)).trans (congrArg (V c (Pipeline.arrRef spec5 4)) (emb_4 t j))) ((iblk_5 V c t (r0 j)).trans (congrArg (V c (Pipeline.arrRef spec5 5)) (emb_5 t j)))

/-- Membership in the output's block at grid point `t`, coordinate by coordinate: block index times block size
    ≤ coordinate < the same plus the block size. -/
theorem mem_blk (t : Fin cfg5.N) (i : S50000x256.Idx) :
    i ∈ ((cfg5.win 6).blk t).view.set ↔ ∀ a : Fin 2, win5_6.index t a * S2000x256.size a ≤ (i a).val ∧ (i a).val < win5_6.index t a * S2000x256.size a + S2000x256.size a := by
  show i ∈ ((View.whole main_v135).slice (win5_6.rect t)).set ↔ _
  rw [View.set_slice_whole, Rect.mem_set_unit]
  exact Iff.rfl

/-- The output's 25 row blocks fill the array: row `r` lies in the block of the point whose row block is `r / 2000`. -/
theorem cover (i : S50000x256.Idx) :
    ∃ t : Fin cfg5.N, (cfg5.win 6).flush t = true ∧ i ∈ ((cfg5.win 6).blk t).view.set := by
  have hi0 : (i 0).val < 50000 := (i 0).isLt
  have hi1 : (i 1).val < 256 := (i 1).isLt
  obtain ⟨t, ht⟩ := idx_onto ⟨(i 0).val / 2000, by omega⟩
  have q0 : win5_6.index t (0 : Fin 2) = (i 0).val / 2000 := congrFun ht 0
  have q1 : win5_6.index t (1 : Fin 2) = 0 := congrFun ht 1
  refine ⟨t, flush5_6 t, ?_⟩
  rw [mem_blk]
  intro a
  match a with
  | ⟨0, _⟩ => show win5_6.index t (0 : Fin 2) * 2000 ≤ (i 0).val ∧ (i 0).val < win5_6.index t (0 : Fin 2) * 2000 + 2000; omega
  | ⟨1, _⟩ => show win5_6.index t (1 : Fin 2) * 256 ≤ (i 1).val ∧ (i 1).val < win5_6.index t (1 : Fin 2) * 256 + 256; omega

/-- After all 25 grid points the output array equals `bn` of the six input arrays held on entry, everywhere. -/
theorem final (V : (c : Dev nD) → (b : Ref sig .tc) → Buf (Elt F) ((c : Thread nD τ).loc b)) (c : Dev nD) :
    (dat5 (F := F) V c).arrAt 6 cfg5.N = bn (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (dat5 V c).arrAt_eq_of_cover 6 _ (fun t _ => flushed_eq V c t) cover

end Cert.KernelIdeal.Bn5

end
-- ==== Proof.BridgeMm.lean ====
/-
  The three products: the kernel's whole-array product of a region (rows of the left operand against columns of the
  weight, summed over the contracted axis) is the reference's `dot_general` stage at the ideal values, where both are
  that plain sum.
-/
import proofs.«177529_j48498770706497_1_alg».proof.Proof.RSpec
import proofs.«177529_j48498770706497_1_alg».proof.Proof.Mm0
import proofs.«177529_j48498770706497_1_alg».proof.Proof.Mm2
import proofs.«177529_j48498770706497_1_alg».proof.Proof.Mm4

noncomputable section

namespace Cert.Bridge

open Idealize.ShloMosaic Idealize.ShloMosaic.TcCoe
open Cert.ReferenceIdeal.ReadP

variable (x0 : (⟨Cert.ReferenceIdeal.S50000x128, .f32⟩ : BufTy).Contents (Elt Ideal))
  (x1 : (⟨Cert.ReferenceIdeal.S2x800000, .i32⟩ : BufTy).Contents (Elt Ideal))
  (x2 : (⟨Cert.ReferenceIdeal.S50000, .i32⟩ : BufTy).Contents (Elt Ideal))
  (x3 : (⟨Cert.ReferenceIdeal.S128x256, .f32⟩ : BufTy).Contents (Elt Ideal))
  (x4 : (⟨Cert.ReferenceIdeal.S256, .f32⟩ : BufTy).Contents (Elt Ideal))
  (x5 : (⟨Cert.ReferenceIdeal.S256, .f32⟩ : BufTy).Contents (Elt Ideal))
  (x6 : (⟨Cert.ReferenceIdeal.S256, .f32⟩ : BufTy).Contents (Elt Ideal))
  (x7 : (⟨Cert.ReferenceIdeal.S256x256, .f32⟩ : BufTy).Contents (Elt Ideal))
  (x8 : (⟨Cert.ReferenceIdeal.S256, .f32⟩ : BufTy).Contents (Elt Ideal))
  (x9 : (⟨Cert.ReferenceIdeal.S256, .f32⟩ : BufTy).Contents (Elt Ideal))
  (x10 : (⟨Cert.ReferenceIdeal.S256, .f32⟩ : BufTy).Contents (Elt Ideal))
  (x11 : (⟨Cert.ReferenceIdeal.S256x256, .f32⟩ : BufTy).Contents (Elt Ideal))
  (x12 : (⟨Cert.ReferenceIdeal.S256, .f32⟩ : BufTy).Contents (Elt Ideal))
  (x13 : (⟨Cert.ReferenceIdeal.S256, .f32⟩ : BufTy).Contents (Elt Ideal))
  (x14 : (⟨Cert.ReferenceIdeal.S256, .f32⟩ : BufTy).Contents (Elt Ideal))
  (x15 : (⟨Cert.ReferenceIdeal.S256x128, .f32⟩ : BufTy).Contents (Elt Ideal))
  (x16 : (⟨Cert.ReferenceIdeal.S128, .f32⟩ : BufTy).Contents (Elt Ideal))
  (x17 : (⟨Cert.ReferenceIdeal.S128x1, .f32⟩ : BufTy).Contents (Elt Ideal))
  (x18 : (⟨Cert.ReferenceIdeal.S1, .f32⟩ : BufTy).Contents (Elt Ideal))

/-- First layer: features times the first weight. -/
theorem mm0 : Cert.KernelIdeal.Mm0.prod x0 x3 = val_main_v11 (F := Ideal) x0 x3 := by
  funext i
  rw [Cert.KernelIdeal.Mm0.prod_apply, val_main_v11_apply]
  rfl

/-- Second layer: the first layer's output times the second weight. -/
theorem mm1 : Cert.KernelIdeal.Mm2.prod (val_main_v73 (F := Ideal) x0 x1 x3 x4 x5 x6) x7 = val_main_v74 (F := Ideal) x0 x1 x3 x4 x5 x6 x7 := by
  funext i
  rw [Cert.KernelIdeal.Mm2.prod_apply, val_main_v74_apply]
  rfl

/-- Third layer: the second layer's output times the third weight. -/
theorem mm2 : Cert.KernelIdeal.Mm4.prod (val_main_v137 (F := Ideal) x0 x1 x3 x4 x5 x6 x7 x8 x9 x10) x11 = val_main_v138 (F := Ideal) x0 x1 x3 x4 x5 x6 x7 x8 x9 x10 x11 := by
  funext i
  rw [Cert.KernelIdeal.Mm4.prod_apply, val_main_v138_apply]
  rfl

end Cert.Bridge

end
-- ==== Proof.BridgeBn.lean ====
/-
  The three normalisations: the region's whole-array function (scale times centred value times the inverse square
  root of the shifted variance, plus shift, clipped below at zero, plus the residual, its four row vectors given as
  [1, 256] arrays) is the reference's host chain on the [256] vectors, at the ideal values. In the first layer the
  residual is zero and adding it changes nothing; in the later layers the reference adds the two terms in the other
  order, and addition of extended reals commutes.
-/
import proofs.«177529_j48498770706497_1_alg».proof.Proof.RSpec
import proofs.«177529_j48498770706497_1_alg».proof.Proof.Bn1
import Idealize.ShloMosaic.PureOps.Ideal.Laws
import Idealize.ShloMosaic.Lib.Pipeline.Value

noncomputable section

namespace Cert.Bridge

open Idealize.ShloMosaic Idealize.ShloMosaic.TcCoe
open Cert.ReferenceIdeal.ReadP
open Cert.KernelIdeal Cert.KernelIdeal.Gen
open Cert.KernelIdeal.Bn1 (bn row0)

/-- A [256] vector reshaped to one row, read at the row of `i`: the vector at `i`'s column. -/
theorem sc_row {α : Type} (y : S256.Idx → α) (i : S50000x256.Idx) :
    shapeCast S1x256 y shapeCasts_S256_S1x256 (row0 i) = y (idx_main_v61 (idx_main_v62 i)) :=
  shapeCast_apply y shapeCasts_S256_S1x256 (row0 i) (idx_main_v61 (idx_main_v62 i))
    (by rewrite [Shape.rowMajor_val_two, Shape.rowMajor_val_one]; show (i 1).val = 0 * 256 + (i 1).val; omega)

section Generic

variable (a res : FVec Ideal S50000x256 .f32) (g be mu va : FVec Ideal S256 .f32)

/-- The relu'd, normalised array of the host chain: the scale, the means, the inverse square roots of the shifted
    variances and the shift each spread from a [256] vector over the rows. -/
def hostNorm : FVec Ideal S50000x256 .f32 :=
  maximumf (addf (mulf (mulf (val_main_v62 (F := Ideal) g) (subf a (val_main_v62 (F := Ideal) mu))) (val_main_v62 (F := Ideal) (Host.rsqrt (addf va (val_main_v64 (F := Ideal)))))) (val_main_v62 (F := Ideal) be)) (val_main_call0_v0 (F := Ideal))

/-- The region's function of one-row arrays is the host chain on the vectors they were reshaped from, plus the residual. -/
theorem bn_eq :
    bn (F := Ideal) a res (shapeCast S1x256 g shapeCasts_S256_S1x256) (shapeCast S1x256 be shapeCasts_S256_S1x256) (shapeCast S1x256 mu shapeCasts_S256_S1x256) (shapeCast S1x256 va shapeCasts_S256_S1x256)
      = addf (hostNorm a g be mu va) res := by
  funext i
  show bn (F := Ideal) a res _ _ _ _ i = FloatOps.addf (FloatOps.maximumf (FloatOps.addf (FloatOps.mulf (FloatOps.mulf (val_main_v62 (F := Ideal) g i) (FloatOps.subf (a i) (val_main_v62 (F := Ideal) mu i))) (val_main_v62 (F := Ideal) (Host.rsqrt (addf va (val_main_v64 (F := Ideal)))) i)) (val_main_v62 (F := Ideal) be i)) (val_main_call0_v0 (F := Ideal) i)) (res i)
  simp only [val_main_v62_apply, val_main_v61_apply, val_main_call0_v0_apply, val_main_call0_cst_apply]
  unfold bn
  simp only [sc_row]
  show _ = FloatOps.addf (FloatOps.maximumf (FloatOps.addf (FloatOps.mulf (FloatOps.mulf (g _) (FloatOps.subf (a i) (mu _))) (FloatOps.hostUnary .rsqrt (FloatOps.addf (va _) (val_main_v64 (F := Ideal) _)))) (be _)) _) (res i)
  simp only [val_main_v64_apply, val_main_cst_12_apply]
  rfl

/-- Adding the zero array changes nothing. -/
theorem add_zeros (y : FVec Ideal S50000x256 .f32) :
    addf y (broadcastInDim S50000x256 ![] bcast_S_S50000x256 (constant (F := Ideal) S_ .f32 0x00000000#32)) = y := by
  funext i
  show FloatOps.addf (y i) (val_main_call0_v0 (F := Ideal) i) = y i
  rw [val_main_call0_v0_apply, val_main_call0_cst_apply, Ideal.addf_def, Ideal.ofBits_def, Ideal.ofBits_zero_f32, add_zero]

/-- The sum of two arrays does not depend on their order. -/
theorem addf_comm (y z : FVec Ideal S50000x256 .f32) : addf y z = addf z y := by
  funext i
  show FloatOps.addf (y i) (z i) = FloatOps.addf (z i) (y i)
  rw [Ideal.addf_def, Ideal.addf_def, add_comm]

end Generic

variable (x0 : (⟨Cert.ReferenceIdeal.S50000x128, .f32⟩ : BufTy).Contents (Elt Ideal))
  (x1 : (⟨Cert.ReferenceIdeal.S2x800000, .i32⟩ : BufTy).Contents (Elt Ideal))
  (x2 : (⟨Cert.ReferenceIdeal.S50000, .i32⟩ : BufTy).Contents (Elt Ideal))
  (x3 : (⟨Cert.ReferenceIdeal.S128x256, .f32⟩ : BufTy).Contents (Elt Ideal))
  (x4 : (⟨Cert.ReferenceIdeal.S256, .f32⟩ : BufTy).Contents (Elt Ideal))
  (x5 : (⟨Cert.ReferenceIdeal.S256, .f32⟩ : BufTy).Contents (Elt Ideal))
  (x6 : (⟨Cert.ReferenceIdeal.S256, .f32⟩ : BufTy).Contents (Elt Ideal))
  (x7 : (⟨Cert.ReferenceIdeal.S256x256, .f32⟩ : BufTy).Contents (Elt Ideal))
  (x8 : (⟨Cert.ReferenceIdeal.S256, .f32⟩ : BufTy).Contents (Elt Ideal))
  (x9 : (⟨Cert.ReferenceIdeal.S256, .f32⟩ : BufTy).Contents (Elt Ideal))
  (x10 : (⟨Cert.ReferenceIdeal.S256, .f32⟩ : BufTy).Contents (Elt Ideal))
  (x11 : (⟨Cert.ReferenceIdeal.S256x256, .f32⟩ : BufTy).Contents (Elt Ideal))
  (x12 : (⟨Cert.ReferenceIdeal.S256, .f32⟩ : BufTy).Contents (Elt Ideal))
  (x13 : (⟨Cert.ReferenceIdeal.S256, .f32⟩ : BufTy).Contents (Elt Ideal))
  (x14 : (⟨Cert.ReferenceIdeal.S256, .f32⟩ : BufTy).Contents (Elt Ideal))
  (x15 : (⟨Cert.ReferenceIdeal.S256x128, .f32⟩ : BufTy).Contents (Elt Ideal))
  (x16 : (⟨Cert.ReferenceIdeal.S128, .f32⟩ : BufTy).Contents (Elt Ideal))
  (x17 : (⟨Cert.ReferenceIdeal.S128x1, .f32⟩ : BufTy).Contents (Elt Ideal))
  (x18 : (⟨Cert.ReferenceIdeal.S1, .f32⟩ : BufTy).Contents (Elt Ideal))

/-- First layer: no residual. -/
theorem bn0 :
    bn (F := Ideal) (val_main_v47 (F := Ideal) x0 x1 x3 x4) (broadcastInDim S50000x256 ![] bcast_S_S50000x256 (constant (F := Ideal) S_ .f32 0x00000000#32))
      (shapeCast _ x5 shapeCasts_S256_S1x256) (shapeCast _ x6 shapeCasts_S256_S1x256) (shapeCast _ (val_main_v50 (F := Ideal) x0 x1 x3 x4) shapeCasts_S256_S1x256) (shapeCast _ (val_main_v57 (F := Ideal) x0 x1 x3 x4) shapeCasts_S256_S1x256)
      = val_main_v73 (F := Ideal) x0 x1 x3 x4 x5 x6 :=
  (bn_eq _ _ x5 x6 _ _).trans (add_zeros _)

/-- Second layer: the residual is the first layer's output. -/
theorem bn1 :
    bn (F := Ideal) (val_main_v110 (F := Ideal) x0 x1 x3 x4 x5 x6 x7 x8) (val_main_v73 (F := Ideal) x0 x1 x3 x4 x5 x6)
      (shapeCast _ x9 shapeCasts_S256_S1x256) (shapeCast _ x10 shapeCasts_S256_S1x256) (shapeCast _ (val_main_v113 (F := Ideal) x0 x1 x3 x4 x5 x6 x7 x8) shapeCasts_S256_S1x256) (shapeCast _ (val_main_v120 (F := Ideal) x0 x1 x3 x4 x5 x6 x7 x8) shapeCasts_S256_S1x256)
      = val_main_v137 (F := Ideal) x0 x1 x3 x4 x5 x6 x7 x8 x9 x10 :=
  (bn_eq _ _ x9 x10 _ _).trans (addf_comm _ _)

/-- Third layer: the residual is the second layer's output. -/
theorem bn2 :
    bn (F := Ideal) (val_main_v174 (F := Ideal) x0 x1 x3 x4 x5 x6 x7 x8 x9 x10 x11 x12) (val_main_v137 (F := Ideal) x0 x1 x3 x4 x5 x6 x7 x8 x9 x10)
      (shapeCast _ x13 shapeCasts_S256_S1x256) (shapeCast _ x14 shapeCasts_S256_S1x256) (shapeCast _ (val_main_v177 (F := Ideal) x0 x1 x3 x4 x5 x6 x7 x8 x9 x10 x11 x12) shapeCasts_S256_S1x256) (shapeCast _ (val_main_v184 (F := Ideal) x0 x1 x3 x4 x5 x6 x7 x8 x9 x10 x11 x12) shapeCasts_S256_S1x256)
      = val_main_v201 (F := Ideal) x0 x1 x3 x4 x5 x6 x7 x8 x9 x10 x11 x12 x13 x14 :=
  (bn_eq _ _ x13 x14 _ _).trans (addf_comm _ _)

end Cert.Bridge

end
-- ==== Proof.KChain.lean ====
/-
  The idealized kernel program's buffers at each boundary between its host stretches and its regions, as the
  reference's stages of the arguments. Thirteen segments: a host stretch folds its operations over the contents it
  starts from; a region leaves its output window's array at the region's whole-array function of its input arrays
  (a product, or the normalisation with relu and residual) and every other buffer as it found it. Stage by stage,
  each buffer a later segment reads is shown to hold the reference stage of the same meaning; the last one is the
  program's result.
-/
import proofs.«177529_j48498770706497_1_alg».proof.Proof.Gen.KernelIdeal.Frame
import proofs.«177529_j48498770706497_1_alg».proof.Proof.RSpec
import proofs.«177529_j48498770706497_1_alg».proof.Proof.KSame
import proofs.«177529_j48498770706497_1_alg».proof.Proof.KHost0
import proofs.«177529_j48498770706497_1_alg».proof.Proof.KHost1
import proofs.«177529_j48498770706497_1_alg».proof.Proof.KHost3
import proofs.«177529_j48498770706497_1_alg».proof.Proof.KHost5
import proofs.«177529_j48498770706497_1_alg».proof.Proof.KHost6
import proofs.«177529_j48498770706497_1_alg».proof.Proof.KHost6a
import proofs.«177529_j48498770706497_1_alg».proof.Proof.KHost6b
import proofs.«177529_j48498770706497_1_alg».proof.Proof.Mm0
import proofs.«177529_j48498770706497_1_alg».proof.Proof.Mm2
import proofs.«177529_j48498770706497_1_alg».proof.Proof.Mm4
import proofs.«177529_j48498770706497_1_alg».proof.Proof.Bn1
import proofs.«177529_j48498770706497_1_alg».proof.Proof.Bn3
import proofs.«177529_j48498770706497_1_alg».proof.Proof.Bn5
import proofs.«177529_j48498770706497_1_alg».proof.Proof.BridgeMm
import proofs.«177529_j48498770706497_1_alg».proof.Proof.BridgeBn

set_option maxRecDepth 16384

noncomputable section

namespace Cert.KernelIdeal.KChain

open Cert.KernelIdeal Cert.KernelIdeal.Gen Idealize.ShloMosaic Idealize.ShloMosaic.TcCoe Idealize.SL.Sem Idealize.ShloMosaic.StableHlo
open Cert.ReferenceIdeal.ReadP

variable (m : (ℓ : Loc nD τ sig) → Buf (Elt Ideal) ℓ) (ρ : Dev nD → PrngReg) (c : Dev nD)

/-! ## The arguments as launched -/

abbrev A0 : (⟨Cert.ReferenceIdeal.S50000x128, .f32⟩ : BufTy).Contents (Elt Ideal) := m ((c : Thread nD τ).loc main_arg0)
abbrev A1 : (⟨Cert.ReferenceIdeal.S2x800000, .i32⟩ : BufTy).Contents (Elt Ideal) := m ((c : Thread nD τ).loc main_arg1)
abbrev A2 : (⟨Cert.ReferenceIdeal.S50000, .i32⟩ : BufTy).Contents (Elt Ideal) := m ((c : Thread nD τ).loc main_arg2)
abbrev A3 : (⟨Cert.ReferenceIdeal.S128x256, .f32⟩ : BufTy).Contents (Elt Ideal) := m ((c : Thread nD τ).loc main_arg3)
abbrev A4 : (⟨Cert.ReferenceIdeal.S256, .f32⟩ : BufTy).Contents (Elt Ideal) := m ((c : Thread nD τ).loc main_arg4)
abbrev A5 : (⟨Cert.ReferenceIdeal.S256, .f32⟩ : BufTy).Contents (Elt Ideal) := m ((c : Thread nD τ).loc main_arg5)
abbrev A6 : (⟨Cert.ReferenceIdeal.S256, .f32⟩ : BufTy).Contents (Elt Ideal) := m ((c : Thread nD τ).loc main_arg6)
abbrev A7 : (⟨Cert.ReferenceIdeal.S256x256, .f32⟩ : BufTy).Contents (Elt Ideal) := m ((c : Thread nD τ).loc main_arg7)
abbrev A8 : (⟨Cert.ReferenceIdeal.S256, .f32⟩ : BufTy).Contents (Elt Ideal) := m ((c : Thread nD τ).loc main_arg8)
abbrev A9 : (⟨Cert.ReferenceIdeal.S256, .f32⟩ : BufTy).Contents (Elt Ideal) := m ((c : Thread nD τ).loc main_arg9)
abbrev A10 : (⟨Cert.ReferenceIdeal.S256, .f32⟩ : BufTy).Contents (Elt Ideal) := m ((c : Thread nD τ).loc main_arg10)
abbrev A11 : (⟨Cert.ReferenceIdeal.S256x256, .f32⟩ : BufTy).Contents (Elt Ideal) := m ((c : Thread nD τ).loc main_arg11)
abbrev A12 : (⟨Cert.ReferenceIdeal.S256, .f32⟩ : BufTy).Contents (Elt Ideal) := m ((c : Thread nD τ).loc main_arg12)
abbrev A13 : (⟨Cert.ReferenceIdeal.S256, .f32⟩ : BufTy).Contents (Elt Ideal) := m ((c : Thread nD τ).loc main_arg13)
abbrev A14 : (⟨Cert.ReferenceIdeal.S256, .f32⟩ : BufTy).Contents (Elt Ideal) := m ((c : Thread nD τ).loc main_arg14)
abbrev A15 : (⟨Cert.ReferenceIdeal.S256x128, .f32⟩ : BufTy).Contents (Elt Ideal) := m ((c : Thread nD τ).loc main_arg15)
abbrev A16 : (⟨Cert.ReferenceIdeal.S128, .f32⟩ : BufTy).Contents (Elt Ideal) := m ((c : Thread nD τ).loc main_arg16)
abbrev A17 : (⟨Cert.ReferenceIdeal.S128x1, .f32⟩ : BufTy).Contents (Elt Ideal) := m ((c : Thread nD τ).loc main_arg17)
abbrev A18 : (⟨Cert.ReferenceIdeal.S1, .f32⟩ : BufTy).Contents (Elt Ideal) := m ((c : Thread nD τ).loc main_arg18)

/-! ## After the first host stretch -/

theorem a1_0 : W1 m ρ c (Proc.devRef .tc main_arg0) = (A0 m c) :=
  (KHost0.keeps_arg0 (F := Ideal) (W0 m ρ c)).trans rfl
theorem a1_2 : W1 m ρ c (Proc.devRef .tc main_arg2) = (A2 m c) :=
  (KHost0.keeps_arg2 (F := Ideal) (W0 m ρ c)).trans rfl
theorem a1_3 : W1 m ρ c (Proc.devRef .tc main_arg3) = (A3 m c) :=
  (KHost0.keeps_arg3 (F := Ideal) (W0 m ρ c)).trans rfl
theorem a1_4 : W1 m ρ c (Proc.devRef .tc main_arg4) = (A4 m c) :=
  (KHost0.keeps_arg4 (F := Ideal) (W0 m ρ c)).trans rfl
theorem a1_5 : W1 m ρ c (Proc.devRef .tc main_arg5) = (A5 m c) :=
  (KHost0.keeps_arg5 (F := Ideal) (W0 m ρ c)).trans rfl
theorem a1_6 : W1 m ρ c (Proc.devRef .tc main_arg6) = (A6 m c) :=
  (KHost0.keeps_arg6 (F := Ideal) (W0 m ρ c)).trans rfl
theorem a1_7 : W1 m ρ c (Proc.devRef .tc main_arg7) = (A7 m c) :=
  (KHost0.keeps_arg7 (F := Ideal) (W0 m ρ c)).trans rfl
theorem a1_8 : W1 m ρ c (Proc.devRef .tc main_arg8) = (A8 m c) :=
  (KHost0.keeps_arg8 (F := Ideal) (W0 m ρ c)).trans rfl
theorem a1_9 : W1 m ρ c (Proc.devRef .tc main_arg9) = (A9 m c) :=
  (KHost0.keeps_arg9 (F := Ideal) (W0 m ρ c)).trans rfl
theorem a1_10 : W1 m ρ c (Proc.devRef .tc main_arg10) = (A10 m c) :=
  (KHost0.keeps_arg10 (F := Ideal) (W0 m ρ c)).trans rfl
theorem a1_11 : W1 m ρ c (Proc.devRef .tc main_arg11) = (A11 m c) :=
  (KHost0.keeps_arg11 (F := Ideal) (W0 m ρ c)).trans rfl
theorem a1_12 : W1 m ρ c (Proc.devRef .tc main_arg12) = (A12 m c) :=
  (KHost0.keeps_arg12 (F := Ideal) (W0 m ρ c)).trans rfl
theorem a1_13 : W1 m ρ c (Proc.devRef .tc main_arg13) = (A13 m c) :=
  (KHost0.keeps_arg13 (F := Ideal) (W0 m ρ c)).trans rfl
theorem a1_14 : W1 m ρ c (Proc.devRef .tc main_arg14) = (A14 m c) :=
  (KHost0.keeps_arg14 (F := Ideal) (W0 m ρ c)).trans rfl
theorem a1_15 : W1 m ρ c (Proc.devRef .tc main_arg15) = (A15 m c) :=
  (KHost0.keeps_arg15 (F := Ideal) (W0 m ρ c)).trans rfl
theorem a1_16 : W1 m ρ c (Proc.devRef .tc main_arg16) = (A16 m c) :=
  (KHost0.keeps_arg16 (F := Ideal) (W0 m ρ c)).trans rfl
theorem a1_17 : W1 m ρ c (Proc.devRef .tc main_arg17) = (A17 m c) :=
  (KHost0.keeps_arg17 (F := Ideal) (W0 m ρ c)).trans rfl
theorem a1_18 : W1 m ρ c (Proc.devRef .tc main_arg18) = (A18 m c) :=
  (KHost0.keeps_arg18 (F := Ideal) (W0 m ρ c)).trans rfl
theorem r1 : W1 m ρ c (Proc.devRef .tc main_v1) = val_main_v1 (F := Ideal) (A1 m c) :=
  KHost0.row (F := Ideal) (W0 m ρ c) (A1 m c) rfl
theorem c1 : W1 m ρ c (Proc.devRef .tc main_v3) = val_main_v3 (F := Ideal) (A1 m c) :=
  KHost0.col (F := Ideal) (W0 m ρ c) (A1 m c) rfl
theorem d1 : W1 m ρ c (Proc.devRef .tc main_v11) = val_main_v40 (F := Ideal) (A1 m c) :=
  KHost0.dinv2 (F := Ideal) (W0 m ρ c) (A1 m c) rfl
theorem n1 : W1 m ρ c (Proc.devRef .tc main_v26) = val_main_v26 (F := Ideal) (A1 m c) :=
  KHost0.norm (F := Ideal) (W0 m ρ c) (A1 m c) rfl

/-! ## After the first product (region 0) -/

theorem xw2 : W2 m ρ c (Proc.devRef .tc main_v27) = val_main_v11 (F := Ideal) (A0 m c) (A3 m c) :=
  (W2_arr m ρ c 2).trans ((Mm0.final (V1 m ρ) c).trans (by
    show Mm0.prod (W1 m ρ c (Proc.devRef .tc main_arg0)) (W1 m ρ c (Proc.devRef .tc main_arg3)) = _
    rw [a1_0 m ρ c, a1_3 m ρ c]
    exact Cert.Bridge.mm0 (A0 m c) (A3 m c)))
theorem r2 : W2 m ρ c (Proc.devRef .tc main_v1) = val_main_v1 (F := Ideal) (A1 m c) :=
  (W2_of_ne m ρ c main_v1 (by decide)).trans (r1 m ρ c)
theorem c2 : W2 m ρ c (Proc.devRef .tc main_v3) = val_main_v3 (F := Ideal) (A1 m c) :=
  (W2_of_ne m ρ c main_v3 (by decide)).trans (c1 m ρ c)
theorem d2 : W2 m ρ c (Proc.devRef .tc main_v11) = val_main_v40 (F := Ideal) (A1 m c) :=
  (W2_of_ne m ρ c main_v11 (by decide)).trans (d1 m ρ c)
theorem n2 : W2 m ρ c (Proc.devRef .tc main_v26) = val_main_v26 (F := Ideal) (A1 m c) :=
  (W2_of_ne m ρ c main_v26 (by decide)).trans (n1 m ρ c)
theorem a2_2 : W2 m ρ c (Proc.devRef .tc main_arg2) = (A2 m c) :=
  (W2_of_ne m ρ c main_arg2 (by decide)).trans (a1_2 m ρ c)
theorem a2_4 : W2 m ρ c (Proc.devRef .tc main_arg4) = (A4 m c) :=
  (W2_of_ne m ρ c main_arg4 (by decide)).trans (a1_4 m ρ c)
theorem a2_5 : W2 m ρ c (Proc.devRef .tc main_arg5) = (A5 m c) :=
  (W2_of_ne m ρ c main_arg5 (by decide)).trans (a1_5 m ρ c)
theorem a2_6 : W2 m ρ c (Proc.devRef .tc main_arg6) = (A6 m c) :=
  (W2_of_ne m ρ c main_arg6 (by decide)).trans (a1_6 m ρ c)
theorem a2_7 : W2 m ρ c (Proc.devRef .tc main_arg7) = (A7 m c) :=
  (W2_of_ne m ρ c main_arg7 (by decide)).trans (a1_7 m ρ c)
theorem a2_8 : W2 m ρ c (Proc.devRef .tc main_arg8) = (A8 m c) :=
  (W2_of_ne m ρ c main_arg8 (by decide)).trans (a1_8 m ρ c)
theorem a2_9 : W2 m ρ c (Proc.devRef .tc main_arg9) = (A9 m c) :=
  (W2_of_ne m ρ c main_arg9 (by decide)).trans (a1_9 m ρ c)
theorem a2_10 : W2 m ρ c (Proc.devRef .tc main_arg10) = (A10 m c) :=
  (W2_of_ne m ρ c main_arg10 (by decide)).trans (a1_10 m ρ c)
theorem a2_11 : W2 m ρ c (Proc.devRef .tc main_arg11) = (A11 m c) :=
  (W2_of_ne m ρ c main_arg11 (by decide)).trans (a1_11 m ρ c)
theorem a2_12 : W2 m ρ c (Proc.devRef .tc main_arg12) = (A12 m c) :=
  (W2_of_ne m ρ c main_arg12 (by decide)).trans (a1_12 m ρ c)
theorem a2_13 : W2 m ρ c (Proc.devRef .tc main_arg13) = (A13 m c) :=
  (W2_of_ne m ρ c main_arg13 (by decide)).trans (a1_13 m ρ c)
theorem a2_14 : W2 m ρ c (Proc.devRef .tc main_arg14) = (A14 m c) :=
  (W2_of_ne m ρ c main_arg14 (by decide)).trans (a1_14 m ρ c)
theorem a2_15 : W2 m ρ c (Proc.devRef .tc main_arg15) = (A15 m c) :=
  (W2_of_ne m ρ c main_arg15 (by decide)).trans (a1_15 m ρ c)
theorem a2_16 : W2 m ρ c (Proc.devRef .tc main_arg16) = (A16 m c) :=
  (W2_of_ne m ρ c main_arg16 (by decide)).trans (a1_16 m ρ c)
theorem a2_17 : W2 m ρ c (Proc.devRef .tc main_arg17) = (A17 m c) :=
  (W2_of_ne m ρ c main_arg17 (by decide)).trans (a1_17 m ρ c)
theorem a2_18 : W2 m ρ c (Proc.devRef .tc main_arg18) = (A18 m c) :=
  (W2_of_ne m ρ c main_arg18 (by decide)).trans (a1_18 m ρ c)

/-! ## After the first layer's host stretch -/

theorem agg3 : W3 m ρ c (Proc.devRef .tc main_v47) = val_main_v47 (F := Ideal) (A0 m c) (A1 m c) (A3 m c) (A4 m c) :=
  KHost1.agg (F := Ideal) (W2 m ρ c) (A0 m c) (A1 m c) (A3 m c) (A4 m c) (xw2 m ρ c) (r2 m ρ c) (n2 m ρ c) (c2 m ρ c) (d2 m ρ c) (a2_4 m ρ c)
theorem mu3 : W3 m ρ c (Proc.devRef .tc main_v61) = shapeCast _ (val_main_v50 (F := Ideal) (A0 m c) (A1 m c) (A3 m c) (A4 m c)) shapeCasts_S256_S1x256 :=
  KHost1.mu (F := Ideal) (W2 m ρ c) (A0 m c) (A1 m c) (A3 m c) (A4 m c) (xw2 m ρ c) (r2 m ρ c) (n2 m ρ c) (c2 m ρ c) (d2 m ρ c) (a2_4 m ρ c)
theorem var3 : W3 m ρ c (Proc.devRef .tc main_v62) = shapeCast _ (val_main_v57 (F := Ideal) (A0 m c) (A1 m c) (A3 m c) (A4 m c)) shapeCasts_S256_S1x256 :=
  KHost1.var (F := Ideal) (W2 m ρ c) (A0 m c) (A1 m c) (A3 m c) (A4 m c) (xw2 m ρ c) (r2 m ρ c) (n2 m ρ c) (c2 m ρ c) (d2 m ρ c) (a2_4 m ρ c)
theorem gam3 : W3 m ρ c (Proc.devRef .tc main_v59) = shapeCast _ (A5 m c) shapeCasts_S256_S1x256 :=
  KHost1.gam (F := Ideal) (W2 m ρ c) (A5 m c) (a2_5 m ρ c)
theorem bet3 : W3 m ρ c (Proc.devRef .tc main_v60) = shapeCast _ (A6 m c) shapeCasts_S256_S1x256 :=
  KHost1.bet (F := Ideal) (W2 m ρ c) (A6 m c) (a2_6 m ρ c)
theorem zer3 : W3 m ρ c (Proc.devRef .tc main_v58) = broadcastInDim S50000x256 ![] bcast_S_S50000x256 (constant (F := Ideal) S_ .f32 0x00000000#32) :=
  KHost1.zer (F := Ideal) (W2 m ρ c)
theorem r3 : W3 m ρ c (Proc.devRef .tc main_v1) = val_main_v1 (F := Ideal) (A1 m c) :=
  (KHost1.keeps_v1 (F := Ideal) (W2 m ρ c)).trans (r2 m ρ c)
theorem c3 : W3 m ρ c (Proc.devRef .tc main_v3) = val_main_v3 (F := Ideal) (A1 m c) :=
  (KHost1.keeps_v3 (F := Ideal) (W2 m ρ c)).trans (c2 m ρ c)
theorem d3 : W3 m ρ c (Proc.devRef .tc main_v11) = val_main_v40 (F := Ideal) (A1 m c) :=
  (KHost1.keeps_v11 (F := Ideal) (W2 m ρ c)).trans (d2 m ρ c)
theorem n3 : W3 m ρ c (Proc.devRef .tc main_v26) = val_main_v26 (F := Ideal) (A1 m c) :=
  (KHost1.keeps_v26 (F := Ideal) (W2 m ρ c)).trans (n2 m ρ c)
theorem a3_2 : W3 m ρ c (Proc.devRef .tc main_arg2) = (A2 m c) :=
  (KHost1.keeps_arg2 (F := Ideal) (W2 m ρ c)).trans (a2_2 m ρ c)
theorem a3_7 : W3 m ρ c (Proc.devRef .tc main_arg7) = (A7 m c) :=
  (KHost1.keeps_arg7 (F := Ideal) (W2 m ρ c)).trans (a2_7 m ρ c)
theorem a3_8 : W3 m ρ c (Proc.devRef .tc main_arg8) = (A8 m c) :=
  (KHost1.keeps_arg8 (F := Ideal) (W2 m ρ c)).trans (a2_8 m ρ c)
theorem a3_9 : W3 m ρ c (Proc.devRef .tc main_arg9) = (A9 m c) :=
  (KHost1.keeps_arg9 (F := Ideal) (W2 m ρ c)).trans (a2_9 m ρ c)
theorem a3_10 : W3 m ρ c (Proc.devRef .tc main_arg10) = (A10 m c) :=
  (KHost1.keeps_arg10 (F := Ideal) (W2 m ρ c)).trans (a2_10 m ρ c)
theorem a3_11 : W3 m ρ c (Proc.devRef .tc main_arg11) = (A11 m c) :=
  (KHost1.keeps_arg11 (F := Ideal) (W2 m ρ c)).trans (a2_11 m ρ c)
theorem a3_12 : W3 m ρ c (Proc.devRef .tc main_arg12) = (A12 m c) :=
  (KHost1.keeps_arg12 (F := Ideal) (W2 m ρ c)).trans (a2_12 m ρ c)
theorem a3_13 : W3 m ρ c (Proc.devRef .tc main_arg13) = (A13 m c) :=
  (KHost1.keeps_arg13 (F := Ideal) (W2 m ρ c)).trans (a2_13 m ρ c)
theorem a3_14 : W3 m ρ c (Proc.devRef .tc main_arg14) = (A14 m c) :=
  (KHost1.keeps_arg14 (F := Ideal) (W2 m ρ c)).trans (a2_14 m ρ c)
theorem a3_15 : W3 m ρ c (Proc.devRef .tc main_arg15) = (A15 m c) :=
  (KHost1.keeps_arg15 (F := Ideal) (W2 m ρ c)).trans (a2_15 m ρ c)
theorem a3_16 : W3 m ρ c (Proc.devRef .tc main_arg16) = (A16 m c) :=
  (KHost1.keeps_arg16 (F := Ideal) (W2 m ρ c)).trans (a2_16 m ρ c)
theorem a3_17 : W3 m ρ c (Proc.devRef .tc main_arg17) = (A17 m c) :=
  (KHost1.keeps_arg17 (F := Ideal) (W2 m ρ c)).trans (a2_17 m ρ c)
theorem a3_18 : W3 m ρ c (Proc.devRef .tc main_arg18) = (A18 m c) :=
  (KHost1.keeps_arg18 (F := Ideal) (W2 m ρ c)).trans (a2_18 m ρ c)

/-! ## After the first normalisation (region 1) -/

theorem h4 : W4 m ρ c (Proc.devRef .tc main_v63) = val_main_v73 (F := Ideal) (A0 m c) (A1 m c) (A3 m c) (A4 m c) (A5 m c) (A6 m c) :=
  (W4_arr m ρ c 6).trans ((Bn1.final (V3 m ρ) c).trans (by
    show Bn1.bn (W3 m ρ c (Proc.devRef .tc main_v47)) (W3 m ρ c (Proc.devRef .tc main_v58)) (W3 m ρ c (Proc.devRef .tc main_v59)) (W3 m ρ c (Proc.devRef .tc main_v60)) (W3 m ρ c (Proc.devRef .tc main_v61)) (W3 m ρ c (Proc.devRef .tc main_v62)) = _
    rw [agg3 m ρ c, zer3 m ρ c, gam3 m ρ c, bet3 m ρ c, mu3 m ρ c, var3 m ρ c]
    exact Cert.Bridge.bn0 (A0 m c) (A1 m c) (A3 m c) (A4 m c) (A5 m c) (A6 m c)))
theorem r4 : W4 m ρ c (Proc.devRef .tc main_v1) = val_main_v1 (F := Ideal) (A1 m c) :=
  (W4_of_ne m ρ c main_v1 (by decide)).trans (r3 m ρ c)
theorem c4 : W4 m ρ c (Proc.devRef .tc main_v3) = val_main_v3 (F := Ideal) (A1 m c) :=
  (W4_of_ne m ρ c main_v3 (by decide)).trans (c3 m ρ c)
theorem d4 : W4 m ρ c (Proc.devRef .tc main_v11) = val_main_v40 (F := Ideal) (A1 m c) :=
  (W4_of_ne m ρ c main_v11 (by decide)).trans (d3 m ρ c)
theorem n4 : W4 m ρ c (Proc.devRef .tc main_v26) = val_main_v26 (F := Ideal) (A1 m c) :=
  (W4_of_ne m ρ c main_v26 (by decide)).trans (n3 m ρ c)
theorem a4_2 : W4 m ρ c (Proc.devRef .tc main_arg2) = (A2 m c) :=
  (W4_of_ne m ρ c main_arg2 (by decide)).trans (a3_2 m ρ c)
theorem a4_7 : W4 m ρ c (Proc.devRef .tc main_arg7) = (A7 m c) :=
  (W4_of_ne m ρ c main_arg7 (by decide)).trans (a3_7 m ρ c)
theorem a4_8 : W4 m ρ c (Proc.devRef .tc main_arg8) = (A8 m c) :=
  (W4_of_ne m ρ c main_arg8 (by decide)).trans (a3_8 m ρ c)
theorem a4_9 : W4 m ρ c (Proc.devRef .tc main_arg9) = (A9 m c) :=
  (W4_of_ne m ρ c main_arg9 (by decide)).trans (a3_9 m ρ c)
theorem a4_10 : W4 m ρ c (Proc.devRef .tc main_arg10) = (A10 m c) :=
  (W4_of_ne m ρ c main_arg10 (by decide)).trans (a3_10 m ρ c)
theorem a4_11 : W4 m ρ c (Proc.devRef .tc main_arg11) = (A11 m c) :=
  (W4_of_ne m ρ c main_arg11 (by decide)).trans (a3_11 m ρ c)
theorem a4_12 : W4 m ρ c (Proc.devRef .tc main_arg12) = (A12 m c) :=
  (W4_of_ne m ρ c main_arg12 (by decide)).trans (a3_12 m ρ c)
theorem a4_13 : W4 m ρ c (Proc.devRef .tc main_arg13) = (A13 m c) :=
  (W4_of_ne m ρ c main_arg13 (by decide)).trans (a3_13 m ρ c)
theorem a4_14 : W4 m ρ c (Proc.devRef .tc main_arg14) = (A14 m c) :=
  (W4_of_ne m ρ c main_arg14 (by decide)).trans (a3_14 m ρ c)
theorem a4_15 : W4 m ρ c (Proc.devRef .tc main_arg15) = (A15 m c) :=
  (W4_of_ne m ρ c main_arg15 (by decide)).trans (a3_15 m ρ c)
theorem a4_16 : W4 m ρ c (Proc.devRef .tc main_arg16) = (A16 m c) :=
  (W4_of_ne m ρ c main_arg16 (by decide)).trans (a3_16 m ρ c)
theorem a4_17 : W4 m ρ c (Proc.devRef .tc main_arg17) = (A17 m c) :=
  (W4_of_ne m ρ c main_arg17 (by decide)).trans (a3_17 m ρ c)
theorem a4_18 : W4 m ρ c (Proc.devRef .tc main_arg18) = (A18 m c) :=
  (W4_of_ne m ρ c main_arg18 (by decide)).trans (a3_18 m ρ c)

/-! ## After the second product (region 2) -/

theorem xw5 : W5 m ρ c (Proc.devRef .tc main_v64) = val_main_v74 (F := Ideal) (A0 m c) (A1 m c) (A3 m c) (A4 m c) (A5 m c) (A6 m c) (A7 m c) :=
  (W5_arr m ρ c 2).trans ((Mm2.final (V4 m ρ) c).trans (by
    show Mm2.prod (W4 m ρ c (Proc.devRef .tc main_v63)) (W4 m ρ c (Proc.devRef .tc main_arg7)) = _
    rw [h4 m ρ c, a4_7 m ρ c]
    exact Cert.Bridge.mm1 (A0 m c) (A1 m c) (A3 m c) (A4 m c) (A5 m c) (A6 m c) (A7 m c)))
theorem h5 : W5 m ρ c (Proc.devRef .tc main_v63) = val_main_v73 (F := Ideal) (A0 m c) (A1 m c) (A3 m c) (A4 m c) (A5 m c) (A6 m c) :=
  (W5_arr m ρ c 0).trans (((dat2 (V4 m ρ) c).arrAt_in 0 rfl _).trans ((A_eq2 (V4 m ρ) c 0).trans (h4 m ρ c)))
theorem r5 : W5 m ρ c (Proc.devRef .tc main_v1) = val_main_v1 (F := Ideal) (A1 m c) :=
  (W5_of_ne m ρ c main_v1 (by decide)).trans (r4 m ρ c)
theorem c5 : W5 m ρ c (Proc.devRef .tc main_v3) = val_main_v3 (F := Ideal) (A1 m c) :=
  (W5_of_ne m ρ c main_v3 (by decide)).trans (c4 m ρ c)
theorem d5 : W5 m ρ c (Proc.devRef .tc main_v11) = val_main_v40 (F := Ideal) (A1 m c) :=
  (W5_of_ne m ρ c main_v11 (by decide)).trans (d4 m ρ c)
theorem n5 : W5 m ρ c (Proc.devRef .tc main_v26) = val_main_v26 (F := Ideal) (A1 m c) :=
  (W5_of_ne m ρ c main_v26 (by decide)).trans (n4 m ρ c)
theorem a5_2 : W5 m ρ c (Proc.devRef .tc main_arg2) = (A2 m c) :=
  (W5_of_ne m ρ c main_arg2 (by decide)).trans (a4_2 m ρ c)
theorem a5_8 : W5 m ρ c (Proc.devRef .tc main_arg8) = (A8 m c) :=
  (W5_of_ne m ρ c main_arg8 (by decide)).trans (a4_8 m ρ c)
theorem a5_9 : W5 m ρ c (Proc.devRef .tc main_arg9) = (A9 m c) :=
  (W5_of_ne m ρ c main_arg9 (by decide)).trans (a4_9 m ρ c)
theorem a5_10 : W5 m ρ c (Proc.devRef .tc main_arg10) = (A10 m c) :=
  (W5_of_ne m ρ c main_arg10 (by decide)).trans (a4_10 m ρ c)
theorem a5_11 : W5 m ρ c (Proc.devRef .tc main_arg11) = (A11 m c) :=
  (W5_of_ne m ρ c main_arg11 (by decide)).trans (a4_11 m ρ c)
theorem a5_12 : W5 m ρ c (Proc.devRef .tc main_arg12) = (A12 m c) :=
  (W5_of_ne m ρ c main_arg12 (by decide)).trans (a4_12 m ρ c)
theorem a5_13 : W5 m ρ c (Proc.devRef .tc main_arg13) = (A13 m c) :=
  (W5_of_ne m ρ c main_arg13 (by decide)).trans (a4_13 m ρ c)
theorem a5_14 : W5 m ρ c (Proc.devRef .tc main_arg14) = (A14 m c) :=
  (W5_of_ne m ρ c main_arg14 (by decide)).trans (a4_14 m ρ c)
theorem a5_15 : W5 m ρ c (Proc.devRef .tc main_arg15) = (A15 m c) :=
  (W5_of_ne m ρ c main_arg15 (by decide)).trans (a4_15 m ρ c)
theorem a5_16 : W5 m ρ c (Proc.devRef .tc main_arg16) = (A16 m c) :=
  (W5_of_ne m ρ c main_arg16 (by decide)).trans (a4_16 m ρ c)
theorem a5_17 : W5 m ρ c (Proc.devRef .tc main_arg17) = (A17 m c) :=
  (W5_of_ne m ρ c main_arg17 (by decide)).trans (a4_17 m ρ c)
theorem a5_18 : W5 m ρ c (Proc.devRef .tc main_arg18) = (A18 m c) :=
  (W5_of_ne m ρ c main_arg18 (by decide)).trans (a4_18 m ρ c)

/-! ## After the second layer's host stretch -/

theorem agg6 : W6 m ρ c (Proc.devRef .tc main_v84) = val_main_v110 (F := Ideal) (A0 m c) (A1 m c) (A3 m c) (A4 m c) (A5 m c) (A6 m c) (A7 m c) (A8 m c) :=
  KHost3.agg (F := Ideal) (W5 m ρ c) (A0 m c) (A1 m c) (A3 m c) (A4 m c) (A5 m c) (A6 m c) (A7 m c) (A8 m c) (xw5 m ρ c) (r5 m ρ c) ((n5 m ρ c).trans (Cert.RefSame.norm1 (A1 m c)).symm) (c5 m ρ c) ((d5 m ρ c).trans (Cert.RefSame.dinv2_1 (A1 m c)).symm) (a5_8 m ρ c)
theorem mu6 : W6 m ρ c (Proc.devRef .tc main_v97) = shapeCast _ (val_main_v113 (F := Ideal) (A0 m c) (A1 m c) (A3 m c) (A4 m c) (A5 m c) (A6 m c) (A7 m c) (A8 m c)) shapeCasts_S256_S1x256 :=
  KHost3.mu (F := Ideal) (W5 m ρ c) (A0 m c) (A1 m c) (A3 m c) (A4 m c) (A5 m c) (A6 m c) (A7 m c) (A8 m c) (xw5 m ρ c) (r5 m ρ c) ((n5 m ρ c).trans (Cert.RefSame.norm1 (A1 m c)).symm) (c5 m ρ c) ((d5 m ρ c).trans (Cert.RefSame.dinv2_1 (A1 m c)).symm) (a5_8 m ρ c)
theorem var6 : W6 m ρ c (Proc.devRef .tc main_v98) = shapeCast _ (val_main_v120 (F := Ideal) (A0 m c) (A1 m c) (A3 m c) (A4 m c) (A5 m c) (A6 m c) (A7 m c) (A8 m c)) shapeCasts_S256_S1x256 :=
  KHost3.var (F := Ideal) (W5 m ρ c) (A0 m c) (A1 m c) (A3 m c) (A4 m c) (A5 m c) (A6 m c) (A7 m c) (A8 m c) (xw5 m ρ c) (r5 m ρ c) ((n5 m ρ c).trans (Cert.RefSame.norm1 (A1 m c)).symm) (c5 m ρ c) ((d5 m ρ c).trans (Cert.RefSame.dinv2_1 (A1 m c)).symm) (a5_8 m ρ c)
theorem gam6 : W6 m ρ c (Proc.devRef .tc main_v95) = shapeCast _ (A9 m c) shapeCasts_S256_S1x256 :=
  KHost3.gam (F := Ideal) (W5 m ρ c) (A9 m c) (a5_9 m ρ c)
theorem bet6 : W6 m ρ c (Proc.devRef .tc main_v96) = shapeCast _ (A10 m c) shapeCasts_S256_S1x256 :=
  KHost3.bet (F := Ideal) (W5 m ρ c) (A10 m c) (a5_10 m ρ c)
theorem h6 : W6 m ρ c (Proc.devRef .tc main_v63) = val_main_v73 (F := Ideal) (A0 m c) (A1 m c) (A3 m c) (A4 m c) (A5 m c) (A6 m c) :=
  (KHost3.keeps_v63 (F := Ideal) (W5 m ρ c)).trans (h5 m ρ c)
theorem r6 : W6 m ρ c (Proc.devRef .tc main_v1) = val_main_v1 (F := Ideal) (A1 m c) :=
  (KHost3.keeps_v1 (F := Ideal) (W5 m ρ c)).trans (r5 m ρ c)
theorem c6 : W6 m ρ c (Proc.devRef .tc main_v3) = val_main_v3 (F := Ideal) (A1 m c) :=
  (KHost3.keeps_v3 (F := Ideal) (W5 m ρ c)).trans (c5 m ρ c)
theorem d6 : W6 m ρ c (Proc.devRef .tc main_v11) = val_main_v40 (F := Ideal) (A1 m c) :=
  (KHost3.keeps_v11 (F := Ideal) (W5 m ρ c)).trans (d5 m ρ c)
theorem n6 : W6 m ρ c (Proc.devRef .tc main_v26) = val_main_v26 (F := Ideal) (A1 m c) :=
  (KHost3.keeps_v26 (F := Ideal) (W5 m ρ c)).trans (n5 m ρ c)
theorem a6_2 : W6 m ρ c (Proc.devRef .tc main_arg2) = (A2 m c) :=
  (KHost3.keeps_arg2 (F := Ideal) (W5 m ρ c)).trans (a5_2 m ρ c)
theorem a6_11 : W6 m ρ c (Proc.devRef .tc main_arg11) = (A11 m c) :=
  (KHost3.keeps_arg11 (F := Ideal) (W5 m ρ c)).trans (a5_11 m ρ c)
theorem a6_12 : W6 m ρ c (Proc.devRef .tc main_arg12) = (A12 m c) :=
  (KHost3.keeps_arg12 (F := Ideal) (W5 m ρ c)).trans (a5_12 m ρ c)
theorem a6_13 : W6 m ρ c (Proc.devRef .tc main_arg13) = (A13 m c) :=
  (KHost3.keeps_arg13 (F := Ideal) (W5 m ρ c)).trans (a5_13 m ρ c)
theorem a6_14 : W6 m ρ c (Proc.devRef .tc main_arg14) = (A14 m c) :=
  (KHost3.keeps_arg14 (F := Ideal) (W5 m ρ c)).trans (a5_14 m ρ c)
theorem a6_15 : W6 m ρ c (Proc.devRef .tc main_arg15) = (A15 m c) :=
  (KHost3.keeps_arg15 (F := Ideal) (W5 m ρ c)).trans (a5_15 m ρ c)
theorem a6_16 : W6 m ρ c (Proc.devRef .tc main_arg16) = (A16 m c) :=
  (KHost3.keeps_arg16 (F := Ideal) (W5 m ρ c)).trans (a5_16 m ρ c)
theorem a6_17 : W6 m ρ c (Proc.devRef .tc main_arg17) = (A17 m c) :=
  (KHost3.keeps_arg17 (F := Ideal) (W5 m ρ c)).trans (a5_17 m ρ c)
theorem a6_18 : W6 m ρ c (Proc.devRef .tc main_arg18) = (A18 m c) :=
  (KHost3.keeps_arg18 (F := Ideal) (W5 m ρ c)).trans (a5_18 m ρ c)

/-! ## After the second normalisation (region 3) -/

theorem h7 : W7 m ρ c (Proc.devRef .tc main_v99) = val_main_v137 (F := Ideal) (A0 m c) (A1 m c) (A3 m c) (A4 m c) (A5 m c) (A6 m c) (A7 m c) (A8 m c) (A9 m c) (A10 m c) :=
  (W7_arr m ρ c 6).trans ((Bn3.final (V6 m ρ) c).trans (by
    show Bn1.bn (W6 m ρ c (Proc.devRef .tc main_v84)) (W6 m ρ c (Proc.devRef .tc main_v63)) (W6 m ρ c (Proc.devRef .tc main_v95)) (W6 m ρ c (Proc.devRef .tc main_v96)) (W6 m ρ c (Proc.devRef .tc main_v97)) (W6 m ρ c (Proc.devRef .tc main_v98)) = _
    rw [agg6 m ρ c, h6 m ρ c, gam6 m ρ c, bet6 m ρ c, mu6 m ρ c, var6 m ρ c]
    exact Cert.Bridge.bn1 (A0 m c) (A1 m c) (A3 m c) (A4 m c) (A5 m c) (A6 m c) (A7 m c) (A8 m c) (A9 m c) (A10 m c)))
theorem r7 : W7 m ρ c (Proc.devRef .tc main_v1) = val_main_v1 (F := Ideal) (A1 m c) :=
  (W7_of_ne m ρ c main_v1 (by decide)).trans (r6 m ρ c)
theorem c7 : W7 m ρ c (Proc.devRef .tc main_v3) = val_main_v3 (F := Ideal) (A1 m c) :=
  (W7_of_ne m ρ c main_v3 (by decide)).trans (c6 m ρ c)
theorem d7 : W7 m ρ c (Proc.devRef .tc main_v11) = val_main_v40 (F := Ideal) (A1 m c) :=
  (W7_of_ne m ρ c main_v11 (by decide)).trans (d6 m ρ c)
theorem n7 : W7 m ρ c (Proc.devRef .tc main_v26) = val_main_v26 (F := Ideal) (A1 m c) :=
  (W7_of_ne m ρ c main_v26 (by decide)).trans (n6 m ρ c)
theorem a7_2 : W7 m ρ c (Proc.devRef .tc main_arg2) = (A2 m c) :=
  (W7_of_ne m ρ c main_arg2 (by decide)).trans (a6_2 m ρ c)
theorem a7_11 : W7 m ρ c (Proc.devRef .tc main_arg11) = (A11 m c) :=
  (W7_of_ne m ρ c main_arg11 (by decide)).trans (a6_11 m ρ c)
theorem a7_12 : W7 m ρ c (Proc.devRef .tc main_arg12) = (A12 m c) :=
  (W7_of_ne m ρ c main_arg12 (by decide)).trans (a6_12 m ρ c)
theorem a7_13 : W7 m ρ c (Proc.devRef .tc main_arg13) = (A13 m c) :=
  (W7_of_ne m ρ c main_arg13 (by decide)).trans (a6_13 m ρ c)
theorem a7_14 : W7 m ρ c (Proc.devRef .tc main_arg14) = (A14 m c) :=
  (W7_of_ne m ρ c main_arg14 (by decide)).trans (a6_14 m ρ c)
theorem a7_15 : W7 m ρ c (Proc.devRef .tc main_arg15) = (A15 m c) :=
  (W7_of_ne m ρ c main_arg15 (by decide)).trans (a6_15 m ρ c)
theorem a7_16 : W7 m ρ c (Proc.devRef .tc main_arg16) = (A16 m c) :=
  (W7_of_ne m ρ c main_arg16 (by decide)).trans (a6_16 m ρ c)
theorem a7_17 : W7 m ρ c (Proc.devRef .tc main_arg17) = (A17 m c) :=
  (W7_of_ne m ρ c main_arg17 (by decide)).trans (a6_17 m ρ c)
theorem a7_18 : W7 m ρ c (Proc.devRef .tc main_arg18) = (A18 m c) :=
  (W7_of_ne m ρ c main_arg18 (by decide)).trans (a6_18 m ρ c)

/-! ## After the third product (region 4) -/

theorem xw8 : W8 m ρ c (Proc.devRef .tc main_v100) = val_main_v138 (F := Ideal) (A0 m c) (A1 m c) (A3 m c) (A4 m c) (A5 m c) (A6 m c) (A7 m c) (A8 m c) (A9 m c) (A10 m c) (A11 m c) :=
  (W8_arr m ρ c 2).trans ((Mm4.final (V7 m ρ) c).trans (by
    show Mm4.prod (W7 m ρ c (Proc.devRef .tc main_v99)) (W7 m ρ c (Proc.devRef .tc main_arg11)) = _
    rw [h7 m ρ c, a7_11 m ρ c]
    exact Cert.Bridge.mm2 (A0 m c) (A1 m c) (A3 m c) (A4 m c) (A5 m c) (A6 m c) (A7 m c) (A8 m c) (A9 m c) (A10 m c) (A11 m c)))
theorem h8 : W8 m ρ c (Proc.devRef .tc main_v99) = val_main_v137 (F := Ideal) (A0 m c) (A1 m c) (A3 m c) (A4 m c) (A5 m c) (A6 m c) (A7 m c) (A8 m c) (A9 m c) (A10 m c) :=
  (W8_arr m ρ c 0).trans (((dat4 (V7 m ρ) c).arrAt_in 0 rfl _).trans ((A_eq4 (V7 m ρ) c 0).trans (h7 m ρ c)))
theorem r8 : W8 m ρ c (Proc.devRef .tc main_v1) = val_main_v1 (F := Ideal) (A1 m c) :=
  (W8_of_ne m ρ c main_v1 (by decide)).trans (r7 m ρ c)
theorem c8 : W8 m ρ c (Proc.devRef .tc main_v3) = val_main_v3 (F := Ideal) (A1 m c) :=
  (W8_of_ne m ρ c main_v3 (by decide)).trans (c7 m ρ c)
theorem d8 : W8 m ρ c (Proc.devRef .tc main_v11) = val_main_v40 (F := Ideal) (A1 m c) :=
  (W8_of_ne m ρ c main_v11 (by decide)).trans (d7 m ρ c)
theorem n8 : W8 m ρ c (Proc.devRef .tc main_v26) = val_main_v26 (F := Ideal) (A1 m c) :=
  (W8_of_ne m ρ c main_v26 (by decide)).trans (n7 m ρ c)
theorem a8_2 : W8 m ρ c (Proc.devRef .tc main_arg2) = (A2 m c) :=
  (W8_of_ne m ρ c main_arg2 (by decide)).trans (a7_2 m ρ c)
theorem a8_12 : W8 m ρ c (Proc.devRef .tc main_arg12) = (A12 m c) :=
  (W8_of_ne m ρ c main_arg12 (by decide)).trans (a7_12 m ρ c)
theorem a8_13 : W8 m ρ c (Proc.devRef .tc main_arg13) = (A13 m c) :=
  (W8_of_ne m ρ c main_arg13 (by decide)).trans (a7_13 m ρ c)
theorem a8_14 : W8 m ρ c (Proc.devRef .tc main_arg14) = (A14 m c) :=
  (W8_of_ne m ρ c main_arg14 (by decide)).trans (a7_14 m ρ c)
theorem a8_15 : W8 m ρ c (Proc.devRef .tc main_arg15) = (A15 m c) :=
  (W8_of_ne m ρ c main_arg15 (by decide)).trans (a7_15 m ρ c)
theorem a8_16 : W8 m ρ c (Proc.devRef .tc main_arg16) = (A16 m c) :=
  (W8_of_ne m ρ c main_arg16 (by decide)).trans (a7_16 m ρ c)
theorem a8_17 : W8 m ρ c (Proc.devRef .tc main_arg17) = (A17 m c) :=
  (W8_of_ne m ρ c main_arg17 (by decide)).trans (a7_17 m ρ c)
theorem a8_18 : W8 m ρ c (Proc.devRef .tc main_arg18) = (A18 m c) :=
  (W8_of_ne m ρ c main_arg18 (by decide)).trans (a7_18 m ρ c)

/-! ## After the third layer's host stretch -/

theorem agg9 : W9 m ρ c (Proc.devRef .tc main_v120) = val_main_v174 (F := Ideal) (A0 m c) (A1 m c) (A3 m c) (A4 m c) (A5 m c) (A6 m c) (A7 m c) (A8 m c) (A9 m c) (A10 m c) (A11 m c) (A12 m c) :=
  KHost5.agg (F := Ideal) (W8 m ρ c) (A0 m c) (A1 m c) (A3 m c) (A4 m c) (A5 m c) (A6 m c) (A7 m c) (A8 m c) (A9 m c) (A10 m c) (A11 m c) (A12 m c) (xw8 m ρ c) (r8 m ρ c) ((n8 m ρ c).trans (Cert.RefSame.norm2 (A1 m c)).symm) (c8 m ρ c) ((d8 m ρ c).trans (Cert.RefSame.dinv2_2 (A1 m c)).symm) (a8_12 m ρ c)
theorem mu9 : W9 m ρ c (Proc.devRef .tc main_v133) = shapeCast _ (val_main_v177 (F := Ideal) (A0 m c) (A1 m c) (A3 m c) (A4 m c) (A5 m c) (A6 m c) (A7 m c) (A8 m c) (A9 m c) (A10 m c) (A11 m c) (A12 m c)) shapeCasts_S256_S1x256 :=
  KHost5.mu (F := Ideal) (W8 m ρ c) (A0 m c) (A1 m c) (A3 m c) (A4 m c) (A5 m c) (A6 m c) (A7 m c) (A8 m c) (A9 m c) (A10 m c) (A11 m c) (A12 m c) (xw8 m ρ c) (r8 m ρ c) ((n8 m ρ c).trans (Cert.RefSame.norm2 (A1 m c)).symm) (c8 m ρ c) ((d8 m ρ c).trans (Cert.RefSame.dinv2_2 (A1 m c)).symm) (a8_12 m ρ c)
theorem var9 : W9 m ρ c (Proc.devRef .tc main_v134) = shapeCast _ (val_main_v184 (F := Ideal) (A0 m c) (A1 m c) (A3 m c) (A4 m c) (A5 m c) (A6 m c) (A7 m c) (A8 m c) (A9 m c) (A10 m c) (A11 m c) (A12 m c)) shapeCasts_S256_S1x256 :=
  KHost5.var (F := Ideal) (W8 m ρ c) (A0 m c) (A1 m c) (A3 m c) (A4 m c) (A5 m c) (A6 m c) (A7 m c) (A8 m c) (A9 m c) (A10 m c) (A11 m c) (A12 m c) (xw8 m ρ c) (r8 m ρ c) ((n8 m ρ c).trans (Cert.RefSame.norm2 (A1 m c)).symm) (c8 m ρ c) ((d8 m ρ c).trans (Cert.RefSame.dinv2_2 (A1 m c)).symm) (a8_12 m ρ c)
theorem gam9 : W9 m ρ c (Proc.devRef .tc main_v131) = shapeCast _ (A13 m c) shapeCasts_S256_S1x256 :=
  KHost5.gam (F := Ideal) (W8 m ρ c) (A13 m c) (a8_13 m ρ c)
theorem bet9 : W9 m ρ c (Proc.devRef .tc main_v132) = shapeCast _ (A14 m c) shapeCasts_S256_S1x256 :=
  KHost5.bet (F := Ideal) (W8 m ρ c) (A14 m c) (a8_14 m ρ c)
theorem h9 : W9 m ρ c (Proc.devRef .tc main_v99) = val_main_v137 (F := Ideal) (A0 m c) (A1 m c) (A3 m c) (A4 m c) (A5 m c) (A6 m c) (A7 m c) (A8 m c) (A9 m c) (A10 m c) :=
  (KHost5.keeps_v99 (F := Ideal) (W8 m ρ c)).trans (h8 m ρ c)
theorem a9_2 : W9 m ρ c (Proc.devRef .tc main_arg2) = (A2 m c) :=
  (KHost5.keeps_arg2 (F := Ideal) (W8 m ρ c)).trans (a8_2 m ρ c)
theorem a9_15 : W9 m ρ c (Proc.devRef .tc main_arg15) = (A15 m c) :=
  (KHost5.keeps_arg15 (F := Ideal) (W8 m ρ c)).trans (a8_15 m ρ c)
theorem a9_16 : W9 m ρ c (Proc.devRef .tc main_arg16) = (A16 m c) :=
  (KHost5.keeps_arg16 (F := Ideal) (W8 m ρ c)).trans (a8_16 m ρ c)
theorem a9_17 : W9 m ρ c (Proc.devRef .tc main_arg17) = (A17 m c) :=
  (KHost5.keeps_arg17 (F := Ideal) (W8 m ρ c)).trans (a8_17 m ρ c)
theorem a9_18 : W9 m ρ c (Proc.devRef .tc main_arg18) = (A18 m c) :=
  (KHost5.keeps_arg18 (F := Ideal) (W8 m ρ c)).trans (a8_18 m ρ c)

/-! ## After the third normalisation (region 5) -/

theorem h10 : W10 m ρ c (Proc.devRef .tc main_v135) = val_main_v201 (F := Ideal) (A0 m c) (A1 m c) (A3 m c) (A4 m c) (A5 m c) (A6 m c) (A7 m c) (A8 m c) (A9 m c) (A10 m c) (A11 m c) (A12 m c) (A13 m c) (A14 m c) :=
  (W10_arr m ρ c 6).trans ((Bn5.final (V9 m ρ) c).trans (by
    show Bn1.bn (W9 m ρ c (Proc.devRef .tc main_v120)) (W9 m ρ c (Proc.devRef .tc main_v99)) (W9 m ρ c (Proc.devRef .tc main_v131)) (W9 m ρ c (Proc.devRef .tc main_v132)) (W9 m ρ c (Proc.devRef .tc main_v133)) (W9 m ρ c (Proc.devRef .tc main_v134)) = _
    rw [agg9 m ρ c, h9 m ρ c, gam9 m ρ c, bet9 m ρ c, mu9 m ρ c, var9 m ρ c]
    exact Cert.Bridge.bn2 (A0 m c) (A1 m c) (A3 m c) (A4 m c) (A5 m c) (A6 m c) (A7 m c) (A8 m c) (A9 m c) (A10 m c) (A11 m c) (A12 m c) (A13 m c) (A14 m c)))
theorem a10_2 : W10 m ρ c (Proc.devRef .tc main_arg2) = (A2 m c) :=
  (W10_of_ne m ρ c main_arg2 (by decide)).trans (a9_2 m ρ c)
theorem a10_15 : W10 m ρ c (Proc.devRef .tc main_arg15) = (A15 m c) :=
  (W10_of_ne m ρ c main_arg15 (by decide)).trans (a9_15 m ρ c)
theorem a10_16 : W10 m ρ c (Proc.devRef .tc main_arg16) = (A16 m c) :=
  (W10_of_ne m ρ c main_arg16 (by decide)).trans (a9_16 m ρ c)
theorem a10_17 : W10 m ρ c (Proc.devRef .tc main_arg17) = (A17 m c) :=
  (W10_of_ne m ρ c main_arg17 (by decide)).trans (a9_17 m ρ c)
theorem a10_18 : W10 m ρ c (Proc.devRef .tc main_arg18) = (A18 m c) :=
  (W10_of_ne m ρ c main_arg18 (by decide)).trans (a9_18 m ρ c)

/-! ## The pooling and the head -/

theorem p11 : W11 m ρ c (Proc.devRef .tc main_v152) = val_main_v218 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) :=
  KHost6.pre (F := Ideal) (W10 m ρ c) (A0 m c) (A1 m c) (A2 m c) (A3 m c) (A4 m c) (A5 m c) (A6 m c) (A7 m c) (A8 m c) (A9 m c) (A10 m c) (A11 m c) (A12 m c) (A13 m c) (A14 m c) (A15 m c) (A16 m c) (h10 m ρ c) (a10_2 m ρ c) (a10_15 m ρ c) (a10_16 m ρ c)
theorem a11_17 : W11 m ρ c (Proc.devRef .tc main_arg17) = (A17 m c) :=
  (KHost6.keeps_arg17 (F := Ideal) (W10 m ρ c)).trans (a10_17 m ρ c)
theorem a11_18 : W11 m ρ c (Proc.devRef .tc main_arg18) = (A18 m c) :=
  (KHost6.keeps_arg18 (F := Ideal) (W10 m ρ c)).trans (a10_18 m ρ c)
theorem act12 : W12 m ρ c (Proc.devRef .tc main_v153) = val_main_v219 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) :=
  KHost6a.act (F := Ideal) (W11 m ρ c) (A0 m c) (A1 m c) (A2 m c) (A3 m c) (A4 m c) (A5 m c) (A6 m c) (A7 m c) (A8 m c) (A9 m c) (A10 m c) (A11 m c) (A12 m c) (A13 m c) (A14 m c) (A15 m c) (A16 m c) (p11 m ρ c)
theorem a12_17 : W12 m ρ c (Proc.devRef .tc main_arg17) = (A17 m c) :=
  (KHost6a.keeps_arg17 (F := Ideal) (W11 m ρ c)).trans (a11_17 m ρ c)
theorem a12_18 : W12 m ρ c (Proc.devRef .tc main_arg18) = (A18 m c) :=
  (KHost6a.keeps_arg18 (F := Ideal) (W11 m ρ c)).trans (a11_18 m ρ c)
/-- THE RESULT: the last boundary's contents at the result buffer are the reference's last stage of the arguments. -/
theorem out13 : W13 m ρ c (Proc.devRef .tc main_v157) = val_main_v223 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) :=
  KHost6b.out (F := Ideal) (W12 m ρ c) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (act12 m ρ c) (a12_17 m ρ c) (a12_18 m ρ c)

end Cert.KernelIdeal.KChain

end
-- ==== Proof.RChunk0.lean ====
/- Stretch 0 of the reference program (operations 0 to 33): what the buffers later stretches read (main_v1, main_v3, main_v10, main_v11, main_v26) hold after it, each as its stage function of @main's arguments; and the stretch leaves every buffer it does not write as it was. -/
import proofs.«177529_j48498770706497_1_alg».proof.Proof.RSpec
import proofs.«177529_j48498770706497_1_alg».proof.Proof.ROps

noncomputable section

namespace Cert.RefSide

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The buffers stretch 0 writes, in order. -/
abbrev wr0 : List (Ref sig .tc) :=
  [main_v0, main_v1, main_v2, main_v3, main_cst, main_v4, main_cst_0, main_v5, main_v6, main_v7, main_cst_1, main_v8, main_v9, main_v10, main_v11, main_c, main_v12, main_v13, main_c_2, main_v14, main_v15, main_v16, main_v17, main_v18, main_c_3, main_v19, main_v20, main_c_4, main_v21, main_v22, main_v23, main_v24, main_v25, main_v26]

/-- Every operation of stretch 0 writes one of them. -/
theorem ops0_writes : (ops0 : List (HloOp τ sig (Elt F))).Forall fun op => op.writes ⊆ ((wr0).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer stretch 0 does not write holds after it what it held before. -/
theorem ops0_frame (W : Valuation τ sig (Elt F)) {r : Ref sig .tc} (h : r ∉ wr0) :
    after (ops0 (F := F)) W (Proc.devRef .tc r) = W (Proc.devRef .tc r) :=
  after_of_writes_sub ops0 W ops0_writes h

/-- `main_v1` after stretch 0. -/
theorem ops0_main_v1 (W : Valuation τ sig (Elt F)) (x1 : (⟨S2x800000, .i32⟩ : BufTy).Contents (Elt F))
    (h1 : W (Proc.devRef .tc main_arg1) = x1) :
    after (ops0 (F := F)) W (Proc.devRef .tc main_v1) = val_main_v1 (F := F) x1 := by
  after_results_simp
  rw [h1]
  rfl

/-- `main_v3` after stretch 0. -/
theorem ops0_main_v3 (W : Valuation τ sig (Elt F)) (x1 : (⟨S2x800000, .i32⟩ : BufTy).Contents (Elt F))
    (h1 : W (Proc.devRef .tc main_arg1) = x1) :
    after (ops0 (F := F)) W (Proc.devRef .tc main_v3) = val_main_v3 (F := F) x1 := by
  after_results_simp
  rw [h1]
  rfl

/-- `main_v10` after stretch 0. -/
theorem ops0_main_v10 (W : Valuation τ sig (Elt F)) (x1 : (⟨S2x800000, .i32⟩ : BufTy).Contents (Elt F))
    (h1 : W (Proc.devRef .tc main_arg1) = x1) :
    after (ops0 (F := F)) W (Proc.devRef .tc main_v10) = val_main_v10 (F := F) x1 := by
  after_results_simp
  rw [h1]
  rfl

/-- `main_v11` after stretch 0. -/
theorem ops0_main_v11 (W : Valuation τ sig (Elt F)) (x0 : (⟨S50000x128, .f32⟩ : BufTy).Contents (Elt F)) (x3 : (⟨S128x256, .f32⟩ : BufTy).Contents (Elt F))
    (h0 : W (Proc.devRef .tc main_arg0) = x0) (h3 : W (Proc.devRef .tc main_arg3) = x3) :
    after (ops0 (F := F)) W (Proc.devRef .tc main_v11) = val_main_v11 (F := F) x0 x3 := by
  after_results_simp
  rw [h0, h3]
  rfl

/-- `main_v26` after stretch 0. -/
theorem ops0_main_v26 (W : Valuation τ sig (Elt F)) (x1 : (⟨S2x800000, .i32⟩ : BufTy).Contents (Elt F))
    (h1 : W (Proc.devRef .tc main_arg1) = x1) :
    after (ops0 (F := F)) W (Proc.devRef .tc main_v26) = val_main_v26 (F := F) x1 := by
  after_results_simp
  rw [h1]
  rfl

end Cert.RefSide

end
-- ==== Proof.RChunk1.lean ====
/- Stretch 1 of the reference program (operations 34 to 57): what the buffer it hands on (main_v47) holds after it, as its stage function of @main's arguments; and the stretch leaves every buffer it does not write as it was. -/
import proofs.«177529_j48498770706497_1_alg».proof.Proof.RSpec
import proofs.«177529_j48498770706497_1_alg».proof.Proof.ROps

noncomputable section

namespace Cert.RefSide

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The buffers stretch 1 writes, in order. -/
abbrev wr1 : List (Ref sig .tc) :=
  [main_c_5, main_v27, main_v28, main_c_6, main_v29, main_v30, main_v31, main_v32, main_v33, main_v34, main_v35, main_v36, main_cst_7, main_v37, main_v38, main_v39, main_v40, main_v41, main_v42, main_v43, main_v44, main_v45, main_v46, main_v47]

/-- Every operation of stretch 1 writes one of them. -/
theorem ops1_writes : (ops1 : List (HloOp τ sig (Elt F))).Forall fun op => op.writes ⊆ ((wr1).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer stretch 1 does not write holds after it what it held before. -/
theorem ops1_frame (W : Valuation τ sig (Elt F)) {r : Ref sig .tc} (h : r ∉ wr1) :
    after (ops1 (F := F)) W (Proc.devRef .tc r) = W (Proc.devRef .tc r) :=
  after_of_writes_sub ops1 W ops1_writes h

/-- `main_v47` after stretch 1. -/
theorem ops1_main_v47 (W : Valuation τ sig (Elt F)) (x0 : (⟨S50000x128, .f32⟩ : BufTy).Contents (Elt F)) (x1 : (⟨S2x800000, .i32⟩ : BufTy).Contents (Elt F)) (x3 : (⟨S128x256, .f32⟩ : BufTy).Contents (Elt F)) (x4 : (⟨S256, .f32⟩ : BufTy).Contents (Elt F))
    (hv1 : W (Proc.devRef .tc main_v1) = val_main_v1 (F := F) x1) (hv11 : W (Proc.devRef .tc main_v11) = val_main_v11 (F := F) x0 x3) (hv26 : W (Proc.devRef .tc main_v26) = val_main_v26 (F := F) x1) (hv3 : W (Proc.devRef .tc main_v3) = val_main_v3 (F := F) x1) (hv10 : W (Proc.devRef .tc main_v10) = val_main_v10 (F := F) x1) (h4 : W (Proc.devRef .tc main_arg4) = x4) :
    after (ops1 (F := F)) W (Proc.devRef .tc main_v47) = val_main_v47 (F := F) x0 x1 x3 x4 := by
  after_results_simp
  rw [hv1, hv11, hv26, hv3, hv10, h4]
  rfl

end Cert.RefSide

end
-- ==== Proof.RChunk2.lean ====
/- Stretch 2 of the reference program (operations 58 to 90): what the buffer it hands on (main_v73) holds after it, as its stage function of @main's arguments; and the stretch leaves every buffer it does not write as it was. -/
import proofs.«177529_j48498770706497_1_alg».proof.Proof.RSpec
import proofs.«177529_j48498770706497_1_alg».proof.Proof.ROps

noncomputable section

namespace Cert.RefSide

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The buffers stretch 2 writes, in order. -/
abbrev wr2 : List (Ref sig .tc) :=
  [main_cst_8, main_v48, main_cst_9, main_v49, main_v50, main_v51, main_v52, main_v53, main_v54, main_cst_10, main_v55, main_cst_11, main_v56, main_v57, main_v58, main_v59, main_v60, main_v61, main_v62, main_v63, main_cst_12, main_v64, main_v65, main_v66, main_v67, main_v68, main_v69, main_v70, main_v71, main_v72, main_call0_cst, main_call0_v0, main_v73]

/-- Every operation of stretch 2 writes one of them. -/
theorem ops2_writes : (ops2 : List (HloOp τ sig (Elt F))).Forall fun op => op.writes ⊆ ((wr2).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer stretch 2 does not write holds after it what it held before. -/
theorem ops2_frame (W : Valuation τ sig (Elt F)) {r : Ref sig .tc} (h : r ∉ wr2) :
    after (ops2 (F := F)) W (Proc.devRef .tc r) = W (Proc.devRef .tc r) :=
  after_of_writes_sub ops2 W ops2_writes h

/-- `main_v73` after stretch 2. -/
theorem ops2_main_v73 (W : Valuation τ sig (Elt F)) (x0 : (⟨S50000x128, .f32⟩ : BufTy).Contents (Elt F)) (x1 : (⟨S2x800000, .i32⟩ : BufTy).Contents (Elt F)) (x3 : (⟨S128x256, .f32⟩ : BufTy).Contents (Elt F)) (x4 : (⟨S256, .f32⟩ : BufTy).Contents (Elt F)) (x5 : (⟨S256, .f32⟩ : BufTy).Contents (Elt F)) (x6 : (⟨S256, .f32⟩ : BufTy).Contents (Elt F))
    (hv47 : W (Proc.devRef .tc main_v47) = val_main_v47 (F := F) x0 x1 x3 x4) (h5 : W (Proc.devRef .tc main_arg5) = x5) (h6 : W (Proc.devRef .tc main_arg6) = x6) :
    after (ops2 (F := F)) W (Proc.devRef .tc main_v73) = val_main_v73 (F := F) x0 x1 x3 x4 x5 x6 := by
  after_results_simp
  rw [hv47, h5, h6]
  rfl

end Cert.RefSide

end
-- ==== Proof.RChunk3.lean ====
/- Stretch 3 of the reference program (operations 91 to 134): what the buffer it hands on (main_v110) holds after it, as its stage function of @main's arguments; and the stretch leaves every buffer it does not write as it was. -/
import proofs.«177529_j48498770706497_1_alg».proof.Proof.RSpec
import proofs.«177529_j48498770706497_1_alg».proof.Proof.ROps

noncomputable section

namespace Cert.RefSide

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The buffers stretch 3 writes, in order. -/
abbrev wr3 : List (Ref sig .tc) :=
  [main_v74, main_c_13, main_v75, main_v76, main_c_14, main_v77, main_v78, main_v79, main_v80, main_v81, main_c_15, main_v82, main_v83, main_c_16, main_v84, main_v85, main_v86, main_v87, main_v88, main_v89, main_c_17, main_v90, main_v91, main_c_18, main_v92, main_v93, main_v94, main_v95, main_v96, main_v97, main_v98, main_v99, main_cst_19, main_v100, main_v101, main_v102, main_v103, main_v104, main_v105, main_v106, main_v107, main_v108, main_v109, main_v110]

/-- Every operation of stretch 3 writes one of them. -/
theorem ops3_writes : (ops3 : List (HloOp τ sig (Elt F))).Forall fun op => op.writes ⊆ ((wr3).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer stretch 3 does not write holds after it what it held before. -/
theorem ops3_frame (W : Valuation τ sig (Elt F)) {r : Ref sig .tc} (h : r ∉ wr3) :
    after (ops3 (F := F)) W (Proc.devRef .tc r) = W (Proc.devRef .tc r) :=
  after_of_writes_sub ops3 W ops3_writes h

/-- `main_v110` after stretch 3. -/
theorem ops3_main_v110 (W : Valuation τ sig (Elt F)) (x0 : (⟨S50000x128, .f32⟩ : BufTy).Contents (Elt F)) (x1 : (⟨S2x800000, .i32⟩ : BufTy).Contents (Elt F)) (x3 : (⟨S128x256, .f32⟩ : BufTy).Contents (Elt F)) (x4 : (⟨S256, .f32⟩ : BufTy).Contents (Elt F)) (x5 : (⟨S256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F))
    (hv73 : W (Proc.devRef .tc main_v73) = val_main_v73 (F := F) x0 x1 x3 x4 x5 x6) (h7 : W (Proc.devRef .tc main_arg7) = x7) (hv1 : W (Proc.devRef .tc main_v1) = val_main_v1 (F := F) x1) (hv10 : W (Proc.devRef .tc main_v10) = val_main_v10 (F := F) x1) (hv3 : W (Proc.devRef .tc main_v3) = val_main_v3 (F := F) x1) (h8 : W (Proc.devRef .tc main_arg8) = x8) :
    after (ops3 (F := F)) W (Proc.devRef .tc main_v110) = val_main_v110 (F := F) x0 x1 x3 x4 x5 x6 x7 x8 := by
  after_results_simp
  rw [hv73, h7, hv1, hv10, hv3, h8]
  rfl

end Cert.RefSide

end
-- ==== Proof.RChunk4.lean ====
/- Stretch 4 of the reference program (operations 135 to 168): what the buffer it hands on (main_v137) holds after it, as its stage function of @main's arguments; and the stretch leaves every buffer it does not write as it was. -/
import proofs.«177529_j48498770706497_1_alg».proof.Proof.RSpec
import proofs.«177529_j48498770706497_1_alg».proof.Proof.ROps

noncomputable section

namespace Cert.RefSide

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The buffers stretch 4 writes, in order. -/
abbrev wr4 : List (Ref sig .tc) :=
  [main_cst_20, main_v111, main_cst_21, main_v112, main_v113, main_v114, main_v115, main_v116, main_v117, main_cst_22, main_v118, main_cst_23, main_v119, main_v120, main_v121, main_v122, main_v123, main_v124, main_v125, main_v126, main_cst_24, main_v127, main_v128, main_v129, main_v130, main_v131, main_v132, main_v133, main_v134, main_v135, main_call1_cst, main_call1_v0, main_v136, main_v137]

/-- Every operation of stretch 4 writes one of them. -/
theorem ops4_writes : (ops4 : List (HloOp τ sig (Elt F))).Forall fun op => op.writes ⊆ ((wr4).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer stretch 4 does not write holds after it what it held before. -/
theorem ops4_frame (W : Valuation τ sig (Elt F)) {r : Ref sig .tc} (h : r ∉ wr4) :
    after (ops4 (F := F)) W (Proc.devRef .tc r) = W (Proc.devRef .tc r) :=
  after_of_writes_sub ops4 W ops4_writes h

/-- `main_v137` after stretch 4. -/
theorem ops4_main_v137 (W : Valuation τ sig (Elt F)) (x0 : (⟨S50000x128, .f32⟩ : BufTy).Contents (Elt F)) (x1 : (⟨S2x800000, .i32⟩ : BufTy).Contents (Elt F)) (x3 : (⟨S128x256, .f32⟩ : BufTy).Contents (Elt F)) (x4 : (⟨S256, .f32⟩ : BufTy).Contents (Elt F)) (x5 : (⟨S256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S256, .f32⟩ : BufTy).Contents (Elt F)) (x10 : (⟨S256, .f32⟩ : BufTy).Contents (Elt F))
    (hv110 : W (Proc.devRef .tc main_v110) = val_main_v110 (F := F) x0 x1 x3 x4 x5 x6 x7 x8) (h9 : W (Proc.devRef .tc main_arg9) = x9) (h10 : W (Proc.devRef .tc main_arg10) = x10) (hv73 : W (Proc.devRef .tc main_v73) = val_main_v73 (F := F) x0 x1 x3 x4 x5 x6) :
    after (ops4 (F := F)) W (Proc.devRef .tc main_v137) = val_main_v137 (F := F) x0 x1 x3 x4 x5 x6 x7 x8 x9 x10 := by
  after_results_simp
  rw [hv110, h9, h10, hv73]
  rfl

end Cert.RefSide

end
-- ==== Proof.RChunk5.lean ====
/- Stretch 5 of the reference program (operations 169 to 212): what the buffer it hands on (main_v174) holds after it, as its stage function of @main's arguments; and the stretch leaves every buffer it does not write as it was. -/
import proofs.«177529_j48498770706497_1_alg».proof.Proof.RSpec
import proofs.«177529_j48498770706497_1_alg».proof.Proof.ROps

noncomputable section

namespace Cert.RefSide

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The buffers stretch 5 writes, in order. -/
abbrev wr5 : List (Ref sig .tc) :=
  [main_v138, main_c_25, main_v139, main_v140, main_c_26, main_v141, main_v142, main_v143, main_v144, main_v145, main_c_27, main_v146, main_v147, main_c_28, main_v148, main_v149, main_v150, main_v151, main_v152, main_v153, main_c_29, main_v154, main_v155, main_c_30, main_v156, main_v157, main_v158, main_v159, main_v160, main_v161, main_v162, main_v163, main_cst_31, main_v164, main_v165, main_v166, main_v167, main_v168, main_v169, main_v170, main_v171, main_v172, main_v173, main_v174]

/-- Every operation of stretch 5 writes one of them. -/
theorem ops5_writes : (ops5 : List (HloOp τ sig (Elt F))).Forall fun op => op.writes ⊆ ((wr5).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer stretch 5 does not write holds after it what it held before. -/
theorem ops5_frame (W : Valuation τ sig (Elt F)) {r : Ref sig .tc} (h : r ∉ wr5) :
    after (ops5 (F := F)) W (Proc.devRef .tc r) = W (Proc.devRef .tc r) :=
  after_of_writes_sub ops5 W ops5_writes h

/-- `main_v174` after stretch 5. -/
theorem ops5_main_v174 (W : Valuation τ sig (Elt F)) (x0 : (⟨S50000x128, .f32⟩ : BufTy).Contents (Elt F)) (x1 : (⟨S2x800000, .i32⟩ : BufTy).Contents (Elt F)) (x3 : (⟨S128x256, .f32⟩ : BufTy).Contents (Elt F)) (x4 : (⟨S256, .f32⟩ : BufTy).Contents (Elt F)) (x5 : (⟨S256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S256, .f32⟩ : BufTy).Contents (Elt F)) (x10 : (⟨S256, .f32⟩ : BufTy).Contents (Elt F)) (x11 : (⟨S256x256, .f32⟩ : BufTy).Contents (Elt F)) (x12 : (⟨S256, .f32⟩ : BufTy).Contents (Elt F))
    (hv137 : W (Proc.devRef .tc main_v137) = val_main_v137 (F := F) x0 x1 x3 x4 x5 x6 x7 x8 x9 x10) (h11 : W (Proc.devRef .tc main_arg11) = x11) (hv1 : W (Proc.devRef .tc main_v1) = val_main_v1 (F := F) x1) (hv10 : W (Proc.devRef .tc main_v10) = val_main_v10 (F := F) x1) (hv3 : W (Proc.devRef .tc main_v3) = val_main_v3 (F := F) x1) (h12 : W (Proc.devRef .tc main_arg12) = x12) :
    after (ops5 (F := F)) W (Proc.devRef .tc main_v174) = val_main_v174 (F := F) x0 x1 x3 x4 x5 x6 x7 x8 x9 x10 x11 x12 := by
  after_results_simp
  rw [hv137, h11, hv1, hv10, hv3, h12]
  rfl

end Cert.RefSide

end
-- ==== Proof.RChunk6.lean ====
/- Stretch 6 of the reference program (operations 213 to 246): what the buffer it hands on (main_v201) holds after it, as its stage function of @main's arguments; and the stretch leaves every buffer it does not write as it was. -/
import proofs.«177529_j48498770706497_1_alg».proof.Proof.RSpec
import proofs.«177529_j48498770706497_1_alg».proof.Proof.ROps

noncomputable section

namespace Cert.RefSide

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The buffers stretch 6 writes, in order. -/
abbrev wr6 : List (Ref sig .tc) :=
  [main_cst_32, main_v175, main_cst_33, main_v176, main_v177, main_v178, main_v179, main_v180, main_v181, main_cst_34, main_v182, main_cst_35, main_v183, main_v184, main_v185, main_v186, main_v187, main_v188, main_v189, main_v190, main_cst_36, main_v191, main_v192, main_v193, main_v194, main_v195, main_v196, main_v197, main_v198, main_v199, main_call2_cst, main_call2_v0, main_v200, main_v201]

/-- Every operation of stretch 6 writes one of them. -/
theorem ops6_writes : (ops6 : List (HloOp τ sig (Elt F))).Forall fun op => op.writes ⊆ ((wr6).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer stretch 6 does not write holds after it what it held before. -/
theorem ops6_frame (W : Valuation τ sig (Elt F)) {r : Ref sig .tc} (h : r ∉ wr6) :
    after (ops6 (F := F)) W (Proc.devRef .tc r) = W (Proc.devRef .tc r) :=
  after_of_writes_sub ops6 W ops6_writes h

/-- `main_v201` after stretch 6. -/
theorem ops6_main_v201 (W : Valuation τ sig (Elt F)) (x0 : (⟨S50000x128, .f32⟩ : BufTy).Contents (Elt F)) (x1 : (⟨S2x800000, .i32⟩ : BufTy).Contents (Elt F)) (x3 : (⟨S128x256, .f32⟩ : BufTy).Contents (Elt F)) (x4 : (⟨S256, .f32⟩ : BufTy).Contents (Elt F)) (x5 : (⟨S256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S256, .f32⟩ : BufTy).Contents (Elt F)) (x10 : (⟨S256, .f32⟩ : BufTy).Contents (Elt F)) (x11 : (⟨S256x256, .f32⟩ : BufTy).Contents (Elt F)) (x12 : (⟨S256, .f32⟩ : BufTy).Contents (Elt F)) (x13 : (⟨S256, .f32⟩ : BufTy).Contents (Elt F)) (x14 : (⟨S256, .f32⟩ : BufTy).Contents (Elt F))
    (hv174 : W (Proc.devRef .tc main_v174) = val_main_v174 (F := F) x0 x1 x3 x4 x5 x6 x7 x8 x9 x10 x11 x12) (h13 : W (Proc.devRef .tc main_arg13) = x13) (h14 : W (Proc.devRef .tc main_arg14) = x14) (hv137 : W (Proc.devRef .tc main_v137) = val_main_v137 (F := F) x0 x1 x3 x4 x5 x6 x7 x8 x9 x10) :
    after (ops6 (F := F)) W (Proc.devRef .tc main_v201) = val_main_v201 (F := F) x0 x1 x3 x4 x5 x6 x7 x8 x9 x10 x11 x12 x13 x14 := by
  after_results_simp
  rw [hv174, h13, h14, hv137]
  rfl

end Cert.RefSide

end
-- ==== Proof.RChunk7.lean ====
/- Stretch 7 of the reference program (operations 247 to 274): what the buffer it hands on (main_v223) holds after it, as its stage function of @main's arguments; and the stretch leaves every buffer it does not write as it was. -/
import proofs.«177529_j48498770706497_1_alg».proof.Proof.RSpec
import proofs.«177529_j48498770706497_1_alg».proof.Proof.ROps

noncomputable section

namespace Cert.RefSide

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The buffers stretch 7 writes, in order. -/
abbrev wr7 : List (Ref sig .tc) :=
  [main_cst_37, main_v202, main_cst_38, main_v203, main_v204, main_v205, main_cst_39, main_v206, main_v207, main_v208, main_cst_40, main_v209, main_v210, main_v211, main_v212, main_v213, main_v214, main_v215, main_v216, main_v217, main_v218, main_call3_cst, main_call3_v0, main_v219, main_v220, main_v221, main_v222, main_v223]

/-- Every operation of stretch 7 writes one of them. -/
theorem ops7_writes : (ops7 : List (HloOp τ sig (Elt F))).Forall fun op => op.writes ⊆ ((wr7).map (Proc.devRef (τ := τ) .tc)).toFinset := by
  simp only [List.Forall, nullary_writes, unary_writes, binary_writes, ternary_writes, reshape_writes, Finset.singleton_subset_iff, List.mem_toFinset]
  repeat' apply And.intro
  all_goals exact List.mem_map_of_mem (by decide)

/-- A buffer stretch 7 does not write holds after it what it held before. -/
theorem ops7_frame (W : Valuation τ sig (Elt F)) {r : Ref sig .tc} (h : r ∉ wr7) :
    after (ops7 (F := F)) W (Proc.devRef .tc r) = W (Proc.devRef .tc r) :=
  after_of_writes_sub ops7 W ops7_writes h

/-- `main_v223` after stretch 7. -/
theorem ops7_main_v223 (W : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x256, .f32⟩ : BufTy).Contents (Elt F)) (x4 : (⟨S256, .f32⟩ : BufTy).Contents (Elt F)) (x5 : (⟨S256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S256, .f32⟩ : BufTy).Contents (Elt F)) (x10 : (⟨S256, .f32⟩ : BufTy).Contents (Elt F)) (x11 : (⟨S256x256, .f32⟩ : BufTy).Contents (Elt F)) (x12 : (⟨S256, .f32⟩ : BufTy).Contents (Elt F)) (x13 : (⟨S256, .f32⟩ : BufTy).Contents (Elt F)) (x14 : (⟨S256, .f32⟩ : BufTy).Contents (Elt F)) (x15 : (⟨S256x128, .f32⟩ : BufTy).Contents (Elt F)) (x16 : (⟨S128, .f32⟩ : BufTy).Contents (Elt F)) (x17 : (⟨S128x1, .f32⟩ : BufTy).Contents (Elt F)) (x18 : (⟨S1, .f32⟩ : BufTy).Contents (Elt F))
    (h2 : W (Proc.devRef .tc main_arg2) = x2) (hv201 : W (Proc.devRef .tc main_v201) = val_main_v201 (F := F) x0 x1 x3 x4 x5 x6 x7 x8 x9 x10 x11 x12 x13 x14) (h15 : W (Proc.devRef .tc main_arg15) = x15) (h16 : W (Proc.devRef .tc main_arg16) = x16) (h17 : W (Proc.devRef .tc main_arg17) = x17) (h18 : W (Proc.devRef .tc main_arg18) = x18) :
    after (ops7 (F := F)) W (Proc.devRef .tc main_v223) = val_main_v223 (F := F) x0 x1 x2 x3 x4 x5 x6 x7 x8 x9 x10 x11 x12 x13 x14 x15 x16 x17 x18 := by
  after_results_simp
  rw [h2, hv201, h15, h16, h17, h18]
  rfl

end Cert.RefSide

end
-- ==== Proof.RRun.lean ====
/- The run of the reference program, read back as the stage functions of its arguments: the fold of its 275 operations
   over any contents holds at the result buffer the last stage function of the contents at the nineteen argument buffers, and
   at each argument buffer what was there; hence every weakly fair execution of @main from a memory with zero counters ends
   with the result buffer at that stage function of the launch memory's arguments and with the arguments unchanged. -/
import proofs.«177529_j48498770706497_1_alg».proof.Proof.RSpec
import proofs.«177529_j48498770706497_1_alg».proof.Proof.ROps
import proofs.«177529_j48498770706497_1_alg».proof.Proof.RChunk0
import proofs.«177529_j48498770706497_1_alg».proof.Proof.RChunk1
import proofs.«177529_j48498770706497_1_alg».proof.Proof.RChunk2
import proofs.«177529_j48498770706497_1_alg».proof.Proof.RChunk3
import proofs.«177529_j48498770706497_1_alg».proof.Proof.RChunk4
import proofs.«177529_j48498770706497_1_alg».proof.Proof.RChunk5
import proofs.«177529_j48498770706497_1_alg».proof.Proof.RChunk6
import proofs.«177529_j48498770706497_1_alg».proof.Proof.RChunk7

noncomputable section

namespace Cert.RefSide

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- A buffer none of the eight stretches writes holds after the whole program what it held before. -/
theorem ops_frame (V : Valuation τ sig (Elt F)) {r : Ref sig .tc}
    (h0 : r ∉ wr0) (h1 : r ∉ wr1) (h2 : r ∉ wr2) (h3 : r ∉ wr3) (h4 : r ∉ wr4) (h5 : r ∉ wr5) (h6 : r ∉ wr6) (h7 : r ∉ wr7) :
    after (ops (F := F)) V (Proc.devRef .tc r) = V (Proc.devRef .tc r) := by
  rw [after_ops, ops7_frame _ h7, ops6_frame _ h6, ops5_frame _ h5, ops4_frame _ h4, ops3_frame _ h3, ops2_frame _ h2,
    ops1_frame _ h1, ops0_frame _ h0]

/-- The result buffer after the whole program, from contents that hold `x0 … x18` at the argument buffers: each stretch's
    value lemma is fed what the stretches before it established (its own value lemmas for the buffers they wrote, the frame
    lemmas for the buffers that only had to survive), the contents between two stretches being named and never unfolded. -/
theorem ops_main_v223 (V : Valuation τ sig (Elt F)) (x0 : (⟨S50000x128, .f32⟩ : BufTy).Contents (Elt F)) (x1 : (⟨S2x800000, .i32⟩ : BufTy).Contents (Elt F)) (x2 : (⟨S50000, .i32⟩ : BufTy).Contents (Elt F)) (x3 : (⟨S128x256, .f32⟩ : BufTy).Contents (Elt F)) (x4 : (⟨S256, .f32⟩ : BufTy).Contents (Elt F)) (x5 : (⟨S256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S256, .f32⟩ : BufTy).Contents (Elt F)) (x10 : (⟨S256, .f32⟩ : BufTy).Contents (Elt F)) (x11 : (⟨S256x256, .f32⟩ : BufTy).Contents (Elt F)) (x12 : (⟨S256, .f32⟩ : BufTy).Contents (Elt F)) (x13 : (⟨S256, .f32⟩ : BufTy).Contents (Elt F)) (x14 : (⟨S256, .f32⟩ : BufTy).Contents (Elt F)) (x15 : (⟨S256x128, .f32⟩ : BufTy).Contents (Elt F)) (x16 : (⟨S128, .f32⟩ : BufTy).Contents (Elt F)) (x17 : (⟨S128x1, .f32⟩ : BufTy).Contents (Elt F)) (x18 : (⟨S1, .f32⟩ : BufTy).Contents (Elt F))
    (h0 : V (Proc.devRef .tc main_arg0) = x0) (h1 : V (Proc.devRef .tc main_arg1) = x1) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) (h9 : V (Proc.devRef .tc main_arg9) = x9) (h10 : V (Proc.devRef .tc main_arg10) = x10) (h11 : V (Proc.devRef .tc main_arg11) = x11) (h12 : V (Proc.devRef .tc main_arg12) = x12) (h13 : V (Proc.devRef .tc main_arg13) = x13) (h14 : V (Proc.devRef .tc main_arg14) = x14) (h15 : V (Proc.devRef .tc main_arg15) = x15) (h16 : V (Proc.devRef .tc main_arg16) = x16) (h17 : V (Proc.devRef .tc main_arg17) = x17) (h18 : V (Proc.devRef .tc main_arg18) = x18) :
    after (ops (F := F)) V (Proc.devRef .tc main_v223) = val_main_v223 (F := F) x0 x1 x2 x3 x4 x5 x6 x7 x8 x9 x10 x11 x12 x13 x14 x15 x16 x17 x18 := by
  rw [after_ops]
  -- stretch 0: from the contents V
  have e_v1 := ops0_main_v1 (F := F) V x1 h1
  have e_v3 := ops0_main_v3 (F := F) V x1 h1
  have e_v10 := ops0_main_v10 (F := F) V x1 h1
  have e_v11 := ops0_main_v11 (F := F) V x0 x3 h0 h3
  have e_v26 := ops0_main_v26 (F := F) V x1 h1
  have k0_arg2 := (ops0_frame (F := F) V (r := main_arg2) (by decide)).trans h2
  have k0_arg4 := (ops0_frame (F := F) V (r := main_arg4) (by decide)).trans h4
  have k0_arg5 := (ops0_frame (F := F) V (r := main_arg5) (by decide)).trans h5
  have k0_arg6 := (ops0_frame (F := F) V (r := main_arg6) (by decide)).trans h6
  have k0_arg7 := (ops0_frame (F := F) V (r := main_arg7) (by decide)).trans h7
  have k0_arg8 := (ops0_frame (F := F) V (r := main_arg8) (by decide)).trans h8
  have k0_arg9 := (ops0_frame (F := F) V (r := main_arg9) (by decide)).trans h9
  have k0_arg10 := (ops0_frame (F := F) V (r := main_arg10) (by decide)).trans h10
  have k0_arg11 := (ops0_frame (F := F) V (r := main_arg11) (by decide)).trans h11
  have k0_arg12 := (ops0_frame (F := F) V (r := main_arg12) (by decide)).trans h12
  have k0_arg13 := (ops0_frame (F := F) V (r := main_arg13) (by decide)).trans h13
  have k0_arg14 := (ops0_frame (F := F) V (r := main_arg14) (by decide)).trans h14
  have k0_arg15 := (ops0_frame (F := F) V (r := main_arg15) (by decide)).trans h15
  have k0_arg16 := (ops0_frame (F := F) V (r := main_arg16) (by decide)).trans h16
  have k0_arg17 := (ops0_frame (F := F) V (r := main_arg17) (by decide)).trans h17
  have k0_arg18 := (ops0_frame (F := F) V (r := main_arg18) (by decide)).trans h18
  generalize after (ops0 (F := F)) V = V1 at *
  -- stretch 1: from the contents V1
  have e_v47 := ops1_main_v47 (F := F) V1 x0 x1 x3 x4 e_v1 e_v11 e_v26 e_v3 e_v10 k0_arg4
  have k1_v1 := (ops1_frame (F := F) V1 (r := main_v1) (by decide)).trans e_v1
  have k1_v3 := (ops1_frame (F := F) V1 (r := main_v3) (by decide)).trans e_v3
  have k1_v10 := (ops1_frame (F := F) V1 (r := main_v10) (by decide)).trans e_v10
  have k1_arg2 := (ops1_frame (F := F) V1 (r := main_arg2) (by decide)).trans k0_arg2
  have k1_arg5 := (ops1_frame (F := F) V1 (r := main_arg5) (by decide)).trans k0_arg5
  have k1_arg6 := (ops1_frame (F := F) V1 (r := main_arg6) (by decide)).trans k0_arg6
  have k1_arg7 := (ops1_frame (F := F) V1 (r := main_arg7) (by decide)).trans k0_arg7
  have k1_arg8 := (ops1_frame (F := F) V1 (r := main_arg8) (by decide)).trans k0_arg8
  have k1_arg9 := (ops1_frame (F := F) V1 (r := main_arg9) (by decide)).trans k0_arg9
  have k1_arg10 := (ops1_frame (F := F) V1 (r := main_arg10) (by decide)).trans k0_arg10
  have k1_arg11 := (ops1_frame (F := F) V1 (r := main_arg11) (by decide)).trans k0_arg11
  have k1_arg12 := (ops1_frame (F := F) V1 (r := main_arg12) (by decide)).trans k0_arg12
  have k1_arg13 := (ops1_frame (F := F) V1 (r := main_arg13) (by decide)).trans k0_arg13
  have k1_arg14 := (ops1_frame (F := F) V1 (r := main_arg14) (by decide)).trans k0_arg14
  have k1_arg15 := (ops1_frame (F := F) V1 (r := main_arg15) (by decide)).trans k0_arg15
  have k1_arg16 := (ops1_frame (F := F) V1 (r := main_arg16) (by decide)).trans k0_arg16
  have k1_arg17 := (ops1_frame (F := F) V1 (r := main_arg17) (by decide)).trans k0_arg17
  have k1_arg18 := (ops1_frame (F := F) V1 (r := main_arg18) (by decide)).trans k0_arg18
  generalize after (ops1 (F := F)) V1 = V2 at *
  clear e_v1 e_v3 e_v10 e_v11 e_v26 k0_arg2 k0_arg4 k0_arg5 k0_arg6 k0_arg7 k0_arg8 k0_arg9 k0_arg10 k0_arg11 k0_arg12 k0_arg13 k0_arg14 k0_arg15 k0_arg16 k0_arg17 k0_arg18
  -- stretch 2: from the contents V2
  have e_v73 := ops2_main_v73 (F := F) V2 x0 x1 x3 x4 x5 x6 e_v47 k1_arg5 k1_arg6
  have k2_v1 := (ops2_frame (F := F) V2 (r := main_v1) (by decide)).trans k1_v1
  have k2_v3 := (ops2_frame (F := F) V2 (r := main_v3) (by decide)).trans k1_v3
  have k2_v10 := (ops2_frame (F := F) V2 (r := main_v10) (by decide)).trans k1_v10
  have k2_arg2 := (ops2_frame (F := F) V2 (r := main_arg2) (by decide)).trans k1_arg2
  have k2_arg7 := (ops2_frame (F := F) V2 (r := main_arg7) (by decide)).trans k1_arg7
  have k2_arg8 := (ops2_frame (F := F) V2 (r := main_arg8) (by decide)).trans k1_arg8
  have k2_arg9 := (ops2_frame (F := F) V2 (r := main_arg9) (by decide)).trans k1_arg9
  have k2_arg10 := (ops2_frame (F := F) V2 (r := main_arg10) (by decide)).trans k1_arg10
  have k2_arg11 := (ops2_frame (F := F) V2 (r := main_arg11) (by decide)).trans k1_arg11
  have k2_arg12 := (ops2_frame (F := F) V2 (r := main_arg12) (by decide)).trans k1_arg12
  have k2_arg13 := (ops2_frame (F := F) V2 (r := main_arg13) (by decide)).trans k1_arg13
  have k2_arg14 := (ops2_frame (F := F) V2 (r := main_arg14) (by decide)).trans k1_arg14
  have k2_arg15 := (ops2_frame (F := F) V2 (r := main_arg15) (by decide)).trans k1_arg15
  have k2_arg16 := (ops2_frame (F := F) V2 (r := main_arg16) (by decide)).trans k1_arg16
  have k2_arg17 := (ops2_frame (F := F) V2 (r := main_arg17) (by decide)).trans k1_arg17
  have k2_arg18 := (ops2_frame (F := F) V2 (r := main_arg18) (by decide)).trans k1_arg18
  generalize after (ops2 (F := F)) V2 = V3 at *
  clear e_v47 k1_v1 k1_v3 k1_v10 k1_arg2 k1_arg5 k1_arg6 k1_arg7 k1_arg8 k1_arg9 k1_arg10 k1_arg11 k1_arg12 k1_arg13 k1_arg14 k1_arg15 k1_arg16 k1_arg17 k1_arg18
  -- stretch 3: from the contents V3
  have e_v110 := ops3_main_v110 (F := F) V3 x0 x1 x3 x4 x5 x6 x7 x8 e_v73 k2_arg7 k2_v1 k2_v10 k2_v3 k2_arg8
  have k3_v73 := (ops3_frame (F := F) V3 (r := main_v73) (by decide)).trans e_v73
  have k3_v1 := (ops3_frame (F := F) V3 (r := main_v1) (by decide)).trans k2_v1
  have k3_v3 := (ops3_frame (F := F) V3 (r := main_v3) (by decide)).trans k2_v3
  have k3_v10 := (ops3_frame (F := F) V3 (r := main_v10) (by decide)).trans k2_v10
  have k3_arg2 := (ops3_frame (F := F) V3 (r := main_arg2) (by decide)).trans k2_arg2
  have k3_arg9 := (ops3_frame (F := F) V3 (r := main_arg9) (by decide)).trans k2_arg9
  have k3_arg10 := (ops3_frame (F := F) V3 (r := main_arg10) (by decide)).trans k2_arg10
  have k3_arg11 := (ops3_frame (F := F) V3 (r := main_arg11) (by decide)).trans k2_arg11
  have k3_arg12 := (ops3_frame (F := F) V3 (r := main_arg12) (by decide)).trans k2_arg12
  have k3_arg13 := (ops3_frame (F := F) V3 (r := main_arg13) (by decide)).trans k2_arg13
  have k3_arg14 := (ops3_frame (F := F) V3 (r := main_arg14) (by decide)).trans k2_arg14
  have k3_arg15 := (ops3_frame (F := F) V3 (r := main_arg15) (by decide)).trans k2_arg15
  have k3_arg16 := (ops3_frame (F := F) V3 (r := main_arg16) (by decide)).trans k2_arg16
  have k3_arg17 := (ops3_frame (F := F) V3 (r := main_arg17) (by decide)).trans k2_arg17
  have k3_arg18 := (ops3_frame (F := F) V3 (r := main_arg18) (by decide)).trans k2_arg18
  generalize after (ops3 (F := F)) V3 = V4 at *
  clear e_v73 k2_v1 k2_v3 k2_v10 k2_arg2 k2_arg7 k2_arg8 k2_arg9 k2_arg10 k2_arg11 k2_arg12 k2_arg13 k2_arg14 k2_arg15 k2_arg16 k2_arg17 k2_arg18
  -- stretch 4: from the contents V4
  have e_v137 := ops4_main_v137 (F := F) V4 x0 x1 x3 x4 x5 x6 x7 x8 x9 x10 e_v110 k3_arg9 k3_arg10 k3_v73
  have k4_v1 := (ops4_frame (F := F) V4 (r := main_v1) (by decide)).trans k3_v1
  have k4_v3 := (ops4_frame (F := F) V4 (r := main_v3) (by decide)).trans k3_v3
  have k4_v10 := (ops4_frame (F := F) V4 (r := main_v10) (by decide)).trans k3_v10
  have k4_arg2 := (ops4_frame (F := F) V4 (r := main_arg2) (by decide)).trans k3_arg2
  have k4_arg11 := (ops4_frame (F := F) V4 (r := main_arg11) (by decide)).trans k3_arg11
  have k4_arg12 := (ops4_frame (F := F) V4 (r := main_arg12) (by decide)).trans k3_arg12
  have k4_arg13 := (ops4_frame (F := F) V4 (r := main_arg13) (by decide)).trans k3_arg13
  have k4_arg14 := (ops4_frame (F := F) V4 (r := main_arg14) (by decide)).trans k3_arg14
  have k4_arg15 := (ops4_frame (F := F) V4 (r := main_arg15) (by decide)).trans k3_arg15
  have k4_arg16 := (ops4_frame (F := F) V4 (r := main_arg16) (by decide)).trans k3_arg16
  have k4_arg17 := (ops4_frame (F := F) V4 (r := main_arg17) (by decide)).trans k3_arg17
  have k4_arg18 := (ops4_frame (F := F) V4 (r := main_arg18) (by decide)).trans k3_arg18
  generalize after (ops4 (F := F)) V4 = V5 at *
  clear e_v110 k3_v73 k3_v1 k3_v3 k3_v10 k3_arg2 k3_arg9 k3_arg10 k3_arg11 k3_arg12 k3_arg13 k3_arg14 k3_arg15 k3_arg16 k3_arg17 k3_arg18
  -- stretch 5: from the contents V5
  have e_v174 := ops5_main_v174 (F := F) V5 x0 x1 x3 x4 x5 x6 x7 x8 x9 x10 x11 x12 e_v137 k4_arg11 k4_v1 k4_v10 k4_v3 k4_arg12
  have k5_v137 := (ops5_frame (F := F) V5 (r := main_v137) (by decide)).trans e_v137
  have k5_arg2 := (ops5_frame (F := F) V5 (r := main_arg2) (by decide)).trans k4_arg2
  have k5_arg13 := (ops5_frame (F := F) V5 (r := main_arg13) (by decide)).trans k4_arg13
  have k5_arg14 := (ops5_frame (F := F) V5 (r := main_arg14) (by decide)).trans k4_arg14
  have k5_arg15 := (ops5_frame (F := F) V5 (r := main_arg15) (by decide)).trans k4_arg15
  have k5_arg16 := (ops5_frame (F := F) V5 (r := main_arg16) (by decide)).trans k4_arg16
  have k5_arg17 := (ops5_frame (F := F) V5 (r := main_arg17) (by decide)).trans k4_arg17
  have k5_arg18 := (ops5_frame (F := F) V5 (r := main_arg18) (by decide)).trans k4_arg18
  generalize after (ops5 (F := F)) V5 = V6 at *
  clear e_v137 k4_v1 k4_v3 k4_v10 k4_arg2 k4_arg11 k4_arg12 k4_arg13 k4_arg14 k4_arg15 k4_arg16 k4_arg17 k4_arg18
  -- stretch 6: from the contents V6
  have e_v201 := ops6_main_v201 (F := F) V6 x0 x1 x3 x4 x5 x6 x7 x8 x9 x10 x11 x12 x13 x14 e_v174 k5_arg13 k5_arg14 k5_v137
  have k6_arg2 := (ops6_frame (F := F) V6 (r := main_arg2) (by decide)).trans k5_arg2
  have k6_arg15 := (ops6_frame (F := F) V6 (r := main_arg15) (by decide)).trans k5_arg15
  have k6_arg16 := (ops6_frame (F := F) V6 (r := main_arg16) (by decide)).trans k5_arg16
  have k6_arg17 := (ops6_frame (F := F) V6 (r := main_arg17) (by decide)).trans k5_arg17
  have k6_arg18 := (ops6_frame (F := F) V6 (r := main_arg18) (by decide)).trans k5_arg18
  generalize after (ops6 (F := F)) V6 = V7 at *
  clear e_v174 k5_v137 k5_arg2 k5_arg13 k5_arg14 k5_arg15 k5_arg16 k5_arg17 k5_arg18
  -- stretch 7: from the contents V7
  have e_v223 := ops7_main_v223 (F := F) V7 x0 x1 x2 x3 x4 x5 x6 x7 x8 x9 x10 x11 x12 x13 x14 x15 x16 x17 x18 k6_arg2 e_v201 k6_arg15 k6_arg16 k6_arg17 k6_arg18
  exact e_v223

/-- On every device, from any memory with zero counters: every weakly fair execution of the reference @main terminates with
    the result buffer at the last stage function of the launch memory's argument arrays, and every argument buffer as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v223) = val_main_v223 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c =>
    ⟨(h c main_v223).trans (ops_main_v223 (launchContents m c) _ _ _ _ _ _ _ _ _ _ _ _ _ _ _ _ _ _ _ rfl rfl rfl rfl rfl rfl rfl rfl rfl rfl rfl rfl rfl rfl rfl rfl rfl rfl rfl),
     (h c main_arg0).trans (ops_frame (launchContents m c) (r := main_arg0) (by decide) (by decide) (by decide) (by decide) (by decide) (by decide) (by decide) (by decide)),
     (h c main_arg1).trans (ops_frame (launchContents m c) (r := main_arg1) (by decide) (by decide) (by decide) (by decide) (by decide) (by decide) (by decide) (by decide)),
     (h c main_arg2).trans (ops_frame (launchContents m c) (r := main_arg2) (by decide) (by decide) (by decide) (by decide) (by decide) (by decide) (by decide) (by decide)),
     (h c main_arg3).trans (ops_frame (launchContents m c) (r := main_arg3) (by decide) (by decide) (by decide) (by decide) (by decide) (by decide) (by decide) (by decide)),
     (h c main_arg4).trans (ops_frame (launchContents m c) (r := main_arg4) (by decide) (by decide) (by decide) (by decide) (by decide) (by decide) (by decide) (by decide)),
     (h c main_arg5).trans (ops_frame (launchContents m c) (r := main_arg5) (by decide) (by decide) (by decide) (by decide) (by decide) (by decide) (by decide) (by decide)),
     (h c main_arg6).trans (ops_frame (launchContents m c) (r := main_arg6) (by decide) (by decide) (by decide) (by decide) (by decide) (by decide) (by decide) (by decide)),
     (h c main_arg7).trans (ops_frame (launchContents m c) (r := main_arg7) (by decide) (by decide) (by decide) (by decide) (by decide) (by decide) (by decide) (by decide)),
     (h c main_arg8).trans (ops_frame (launchContents m c) (r := main_arg8) (by decide) (by decide) (by decide) (by decide) (by decide) (by decide) (by decide) (by decide)),
     (h c main_arg9).trans (ops_frame (launchContents m c) (r := main_arg9) (by decide) (by decide) (by decide) (by decide) (by decide) (by decide) (by decide) (by decide)),
     (h c main_arg10).trans (ops_frame (launchContents m c) (r := main_arg10) (by decide) (by decide) (by decide) (by decide) (by decide) (by decide) (by decide) (by decide)),
     (h c main_arg11).trans (ops_frame (launchContents m c) (r := main_arg11) (by decide) (by decide) (by decide) (by decide) (by decide) (by decide) (by decide) (by decide)),
     (h c main_arg12).trans (ops_frame (launchContents m c) (r := main_arg12) (by decide) (by decide) (by decide) (by decide) (by decide) (by decide) (by decide) (by decide)),
     (h c main_arg13).trans (ops_frame (launchContents m c) (r := main_arg13) (by decide) (by decide) (by decide) (by decide) (by decide) (by decide) (by decide) (by decide)),
     (h c main_arg14).trans (ops_frame (launchContents m c) (r := main_arg14) (by decide) (by decide) (by decide) (by decide) (by decide) (by decide) (by decide) (by decide)),
     (h c main_arg15).trans (ops_frame (launchContents m c) (r := main_arg15) (by decide) (by decide) (by decide) (by decide) (by decide) (by decide) (by decide) (by decide)),
     (h c main_arg16).trans (ops_frame (launchContents m c) (r := main_arg16) (by decide) (by decide) (by decide) (by decide) (by decide) (by decide) (by decide) (by decide)),
     (h c main_arg17).trans (ops_frame (launchContents m c) (r := main_arg17) (by decide) (by decide) (by decide) (by decide) (by decide) (by decide) (by decide) (by decide)),
     (h c main_arg18).trans (ops_frame (launchContents m c) (r := main_arg18) (by decide) (by decide) (by decide) (by decide) (by decide) (by decide) (by decide) (by decide))⟩)
    (run_fold m ρ)

end Cert.RefSide

end
-- ==== Proof.lean ====
/-
  The certificate: a three-layer graph convolution network whose dense products and whose fused batch
  normalisation, relu and residual run as six tiled kernel regions, against the same network written as plain array
  operations. Over the extended reals the two compute one function of the arguments:

  * a region's product of a block of 2000 rows with the whole weight, into a zero accumulator, is that block of the
    whole product, and the 25 blocks tile the rows; the change of float format in front of it is the identity;
  * the normalisation region computes, row by row, scale times (value minus mean) times the inverse square root of
    (variance plus epsilon), plus shift, clipped below at zero, plus the residual — the reference's chain on whole
    arrays; in the first layer the kernel's residual is an array of zeros, and adding zero changes nothing; in the
    later layers the reference adds the residual on the other side, and addition commutes;
  * everything else — the degrees, the edge norms, the gathers along the edges, the scatter-adds into the target
    rows, the column means and variances, the pooling over graphs and the two-layer head — is the same host
    operations on both sides, carried as the same stages and never opened. The kernel program computes the edge norms
    and the inverse degrees once, the reference once per layer: the same operations of the same index argument.

  No law used needs finiteness, so the precondition is never opened.
-/
import proofs.«177529_j48498770706497_1_alg».proof.Defs
import proofs.«177529_j48498770706497_1_alg».proof.Proof.Gen.Kernel
import proofs.«177529_j48498770706497_1_alg».proof.Proof.Gen.Kernel.Frame
import proofs.«177529_j48498770706497_1_alg».proof.Proof.Gen.KernelIdeal
import proofs.«177529_j48498770706497_1_alg».proof.Proof.Gen.KernelIdeal.Frame
import proofs.«177529_j48498770706497_1_alg».proof.Proof.Gen.ReferenceIdeal
import proofs.«177529_j48498770706497_1_alg».proof.Proof.Gen.Pre_finite_inputs
import proofs.«177529_j48498770706497_1_alg».proof.Proof.KRun
import proofs.«177529_j48498770706497_1_alg».proof.Proof.KChain
import proofs.«177529_j48498770706497_1_alg».proof.Proof.RRun
import Idealize.ShloMosaic.Adequacy
import Idealize.ShloMosaic.Init

set_option maxRecDepth 16384

noncomputable section

namespace Cert.Proof

open Idealize.ShloMosaic Idealize.ShloMosaic.TcCoe Idealize.SL.Sem
open Cert.ReferenceIdeal.ReadP

/-- The word-level program runs and keeps its arguments. -/
theorem frame_k : Cert.frame_Kernel (hKernel := Cert.Kernel.Gen.facts) (hPre_finite_inputs := Cert.Pre_finite_inputs.Gen.facts) :=
  fun m ρ _ => Cert.Kernel.Gen.frame m ρ

/-- The idealized program runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefSide.run (F := Ideal) m ρ)

/-- From memories that agree on the arguments both programs end with the reference's last stage of those arguments
    in their result buffers: the kernel program by the fold through its host stretches and regions, the reference by
    its own run. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => val_main_v223 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono (fun r h c => ⟨(h c).1.trans (Cert.KernelIdeal.KChain.out13 m ρ c), (h c).2⟩)
      (Cert.KernelIdeal.GenP.run_fold m ρ)
  · refine (θ_run Cert.ReferenceIdeal.defs _ _).mono (fun r h c => ⟨(h c).1.trans ?_, (h c).2⟩)
      (Cert.RefSide.run (F := Ideal) m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
